-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x512 .f32 .bf16
  ∧ IdealRules.truncf_extf.Statement Cert.KernelIdeal.S256x512 .f32 .bf16
  ∧ IdealRules.truncf_extf.Statement Cert.KernelIdeal.S256x512 .f32 .bf16
  ∧ IdealRules.truncf_extf.Statement Cert.KernelIdeal.S256x512 .f32 .bf16
  ∧ IdealRules.truncf_extf.Statement Cert.KernelIdeal.S256x512 .f32 .bf16
  ∧ IdealRules.truncf_extf.Statement Cert.KernelIdeal.S256x512 .f32 .bf16
  ∧ IdealRules.truncf_extf.Statement Cert.KernelIdeal.S256x512 .f32 .bf16
  ∧ IdealRules.truncf_extf.Statement Cert.KernelIdeal.S256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S16x4096 : Shape := ⟨2, ![16, 4096]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S16x4096x768 .f32) (main_arg1 : IVec S16x4096 32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_c_0 : IVec S_ 32 := constantI S_ 32 2048#32
  let main_v4 : IVec S16x4096 32 := broadcastInDim S16x4096 ![] bcast_S_S16x4096 main_c_0
  let main_v5 : IVec S16x4096 1 := cmpi .slt main_arg1 main_v4
  let main_c_1 : IVec S_ 1 := constantI S_ 1 1#1
  let main_v6 : IVec S_ 1 := (fun x v => Host.reduce IntOp.andi x v reducesTo_S16x4096_S_d0_1 h_S_) main_v5 main_c_1
  let main_v7 : IVec S_ 1 := andi main_v3 main_v6
  main_v7
-- ==== Kernel.lean ====
abbrev S16x4096x768 : Shape := ⟨3, ![16, 4096, 768]⟩
abbrev S16x4096 : Shape := ⟨2, ![16, 4096]⟩
abbrev S16x1x4096 : Shape := ⟨3, ![16, 1, 4096]⟩
abbrev S_ : Shape := ⟨0, ![]⟩
abbrev S16x8x512 : Shape := ⟨3, ![16, 8, 512]⟩
abbrev S16x8 : Shape := ⟨2, ![16, 8]⟩
abbrev S16x8x1 : Shape := ⟨3, ![16, 8, 1]⟩
abbrev S16x8x2 : Shape := ⟨3, ![16, 8, 2]⟩
abbrev S16x16 : Shape := ⟨2, ![16, 16]⟩
abbrev S16x2048x768 : Shape := ⟨3, ![16, 2048, 768]⟩
abbrev S1x1x4096 : Shape := ⟨3, ![1, 1, 4096]⟩
abbrev S1x4096x768 : Shape := ⟨3, ![1, 4096, 768]⟩
abbrev S1x256x768 : Shape := ⟨3, ![1, 256, 768]⟩
abbrev S256x768 : Shape := ⟨2, ![256, 768]⟩
abbrev S256x1 : Shape := ⟨2, ![256, 1]⟩
abbrev S1x1 : Shape := ⟨2, ![1, 1]⟩
abbrev S1x1x512 : Shape := ⟨3, ![1, 1, 512]⟩
abbrev S1x512 : Shape := ⟨2, ![1, 512]⟩
abbrev S1x512x768 : Shape := ⟨3, ![1, 512, 768]⟩
abbrev S512x768 : Shape := ⟨2, ![512, 768]⟩
abbrev S256x512 : Shape := ⟨2, ![256, 512]⟩
abbrev S256 : Shape := ⟨1, ![256]⟩

abbrev nBuf : Space → Nat
  | .hbm => 20
  | .vmem => 8
  | .smem => 1
  | _ => 0

abbrev bufTy : (tb : Table) → Fin (tcTables nBuf tb) → BufTy
  | .hbm, ⟨0, _⟩ => ⟨S16x4096x768, .f32⟩
  | .hbm, ⟨1, _⟩ => ⟨S16x4096, .i32⟩
  | .hbm, ⟨2, _⟩ => ⟨S16x1x4096, .i32⟩
  | .hbm, ⟨3, _⟩ => ⟨S_, .i32⟩
  | .hbm, ⟨4, _⟩ => ⟨S16x4096, .i32⟩
  | .hbm, ⟨5, _⟩ => ⟨S16x4096, .i1⟩
  | .hbm, ⟨6, _⟩ => ⟨S_, .i32⟩
  | .hbm, ⟨7, _⟩ => ⟨S_, .i32⟩
  | .hbm, ⟨8, _⟩ => ⟨S16x4096, .i32⟩
  | .hbm, ⟨9, _⟩ => ⟨S16x4096, .i32⟩
  | .hbm, ⟨10, _⟩ => ⟨S16x8x512, .i32⟩
  | .hbm, ⟨11, _⟩ => ⟨S_, .i32⟩
  | .hbm, ⟨12, _⟩ => ⟨S16x8, .i32⟩
  | .hbm, ⟨13, _⟩ => ⟨S16x8x512, .i32⟩
  | .hbm, ⟨14, _⟩ => ⟨S_, .i32⟩
  | .hbm, ⟨15, _⟩ => ⟨S16x8, .i32⟩
  | .hbm, ⟨16, _⟩ => ⟨S16x8x1, .i32⟩
  | .hbm, ⟨17, _⟩ => ⟨S16x8x1, .i32⟩
  | .hbm, ⟨18, _⟩ => ⟨S16x8x2, .i32⟩
  | .hbm, ⟨19, _⟩ => ⟨S16x2048x768, .f32⟩
  | .local _ .vmem, ⟨0, _⟩ => ⟨S1x1x4096, .i32⟩
  | .local _ .vmem, ⟨1, _⟩ => ⟨S1x1x4096, .i32⟩
  | .local _ .vmem, ⟨2, _⟩ => ⟨S1x4096x768, .f32⟩
  | .local _ .vmem, ⟨3, _⟩ => ⟨S1x4096x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x1, .f32⟩
  | .local _ .smem, ⟨0, _⟩ => ⟨S16x16, .i32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v12 : Index := Scalar.indexCast arg0
  let c0_4 : Index := 0#32
  ![v12.toNat, 0]
def k0_off2 (i : grid0.Coords) : Fin 2 → Nat :=
  let arg0 : BitVec 32 := BitVec.ofNat 32 (i 0).val
  let v14 : Index := Scalar.indexCast arg0
  let c1 : Index := 1#32
  ![v14.toNat, 1]
def k0_off3 (i : grid0.Coords) : Fin 2 → Nat :=
  let arg0 : BitVec 32 := BitVec.ofNat 32 (i 0).val
  let v22 : Index := Scalar.indexCast arg0
  let c2 : Index := 2#32
  ![v22.toNat, 2]
def k0_off4 (i : grid0.Coords) : Fin 2 → Nat :=
  let arg0 : BitVec 32 := BitVec.ofNat 32 (i 0).val
  let v24 : Index := Scalar.indexCast arg0
  let c3 : Index := 3#32
  ![v24.toNat, 3]
def k0_off5 (i : grid0.Coords) : Fin 2 → Nat :=
  let arg0 : BitVec 32 := BitVec.ofNat 32 (i 0).val
  let v32 : Index := Scalar.indexCast arg0
  let c4 : Index := 4#32
  ![v32.toNat, 4]
def k0_off6 (i : grid0.Coords) : Fin 2 → Nat :=
  let arg0 : BitVec 32 := BitVec.ofNat 32 (i 0).val
  let v34 : Index := Scalar.indexCast arg0
  let c5 : Index := 5#32
  ![v34.toNat, 5]
def k0_off7 (i : grid0.Coords) : Fin 2 → Nat :=
  let arg0 : BitVec 32 := BitVec.ofNat 32 (i 0).val
  let v42 : Index := Scalar.indexCast arg0
  let c6 : Index := 6#32
  ![v42.toNat, 6]
def k0_off8 (i : grid0.Coords) : Fin 2 → Nat :=
  let arg0 : BitVec 32 := BitVec.ofNat 32 (i 0).val
  let v44 : Index := Scalar.indexCast arg0
  let c7 : Index := 7#32
  ![v44.toNat, 7]
def k0_off9 (i : grid0.Coords) : Fin 2 → Nat :=
  let arg0 : BitVec 32 := BitVec.ofNat 32 (i 0).val
  let v52 : Index := Scalar.indexCast arg0
  let c8 : Index := 8#32
  ![v52.toNat, 8]
def k0_off10 (i : grid0.Coords) : Fin 2 → Nat :=
  let arg0 : BitVec 32 := BitVec.ofNat 32 (i 0).val
  let v54 : Index := Scalar.indexCast arg0
  let c9 : Index := 9#32
  ![v54.toNat, 9]
def k0_off11 (i : grid0.Coords) : Fin 2 → Nat :=
  let arg0 : BitVec 32 := BitVec.ofNat 32 (i 0).val
  let v62 : Index := Scalar.indexCast arg0
  let c10 : Index := 10#32
  ![v62.toNat, 10]
def k0_off12 (i : grid0.Coords) : Fin 2 → Nat :=
  let arg0 : BitVec 32 := BitVec.ofNat 32 (i 0).val
  let v64 : Index := Scalar.indexCast arg0
  let c11 : Index := 11#32
  ![v64.toNat, 11]
def k0_off13 (i : grid0.Coords) : Fin 2 → Nat :=
  let arg0 : BitVec 32 := BitVec.ofNat 32 (i 0).val
  let v72 : Index := Scalar.indexCast arg0
  let c12 : Index := 12#32
  ![v72.toNat, 12]
def k0_off14 (i : grid0.Coords) : Fin 2 → Nat :=
  let arg0 : BitVec 32 := BitVec.ofNat 32 (i 0).val
  let v74 : Index := Scalar.indexCast arg0
  let c13 : Index := 13#32
  ![v74.toNat, 13]
def k0_off15 (i : grid0.Coords) : Fin 2 → Nat :=
  let arg0 : BitVec 32 := BitVec.ofNat 32 (i 0).val
  let v82 : Index := Scalar.indexCast arg0
  let c14 : Index := 14#32
  ![v82.toNat, 14]
def k0_off16 (i : grid0.Coords) : Fin 2 → Nat :=
  let arg0 : BitVec 32 := BitVec.ofNat 32 (i 0).val
  let v84 : Index := Scalar.indexCast arg0
  let c15 : Index := 15#32
  ![v84.toNat, 15]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x4096_S16x1x4096 : S16x4096.ShapeCasts S16x1x4096
  bcast_S_S16x4096 : S_.BroadcastsInDim S16x4096 (![] : Fin 0 → Fin S16x4096.rank)
  shapeCasts_S16x4096_S16x8x512 : S16x4096.ShapeCasts S16x8x512
  reducesTo_S16x8x512_S16x8_d2 : S16x8x512.ReducesTo [2] S16x8
  h_S_ : 0 < S_.numel
  bcast_S16x8_S16x8x1_0_1 : S16x8.BroadcastsInDim S16x8x1 (![0, 1] : Fin 2 → Fin S16x8x1.rank)
  concatenates_S16x8x1_S16x8x1_S16x8x2_d2 : Shape.Concatenates [S16x8x1, S16x8x1] S16x8x2 2
  shapeCasts_S16x8x2_S16x16 : S16x8x2.ShapeCasts S16x16
  iota_S256x1_d0_w32 : S256x1.Iotas .tc 32 [0]
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x1_S256x1_0_0 : ∀ a, (![0, 0] : Fin 2 → Nat) a + S256x1.size a ≤ S256x1.size a
  h_S256x1 : 0 < S256x1.numel
  shapeCasts_S256x1_S256x1 : S256x1.ShapeCasts S256x1
  numel1_S1x1 : S1x1.numel = 1
  inb_S1x1x4096_S1x1x512_0_0_0 : ∀ a, (![0, 0, 0] : Fin 3 → Nat) a + S1x1x512.size a ≤ S1x1x4096.size a
  h_S1x1x512 : 0 < S1x1x512.numel
  shapeCasts_S1x1x512_S1x512 : S1x1x512.ShapeCasts S1x512
  inb_S1x4096x768_S1x512x768_0_0_0 : ∀ a, (![0, 0, 0] : Fin 3 → Nat) a + S1x512x768.size a ≤ S1x4096x768.size a
  h_S1x512x768 : 0 < S1x512x768.numel
  shapeCasts_S1x512x768_S512x768 : S1x512x768.ShapeCasts S512x768
  bitsLt_bf16_f32 : FTy.bits .bf16 < FTy.bits .f32
  broadcasts_S256x1_S256x512 : S256x1.Broadcasts S256x512
  broadcasts_S1x512_S256x512 : S1x512.Broadcasts S256x512
  natLt_1_32 : 1 < 32
  reduces_S256x512_S256 : S256x512.Reduces [1] S256
  shapeCasts_S256_S256x1 : S256.ShapeCasts S256x1
  inb_S1x1x4096_S1x1x512_0_0_512 : ∀ a, (![0, 0, 512] : Fin 3 → Nat) a + S1x1x512.size a ≤ S1x1x4096.size a
  inb_S1x4096x768_S1x512x768_0_512_0 : ∀ a, (![0, 512, 0] : Fin 3 → Nat) a + S1x512x768.size a ≤ S1x4096x768.size a
  inb_S1x1x4096_S1x1x512_0_0_1024 : ∀ a, (![0, 0, 1024] : Fin 3 → Nat) a + S1x1x512.size a ≤ S1x1x4096.size a
  inb_S1x4096x768_S1x512x768_0_1024_0 : ∀ a, (![0, 1024, 0] : Fin 3 → Nat) a + S1x512x768.size a ≤ S1x4096x768.size a
  inb_S1x1x4096_S1x1x512_0_0_1536 : ∀ a, (![0, 0, 1536] : Fin 3 → Nat) a + S1x1x512.size a ≤ S1x1x4096.size a
  inb_S1x4096x768_S1x512x768_0_1536_0 : ∀ a, (![0, 1536, 0] : Fin 3 → Nat) a + S1x512x768.size a ≤ S1x4096x768.size a
  inb_S1x1x4096_S1x1x512_0_0_2048 : ∀ a, (![0, 0, 2048] : Fin 3 → Nat) a + S1x1x512.size a ≤ S1x1x4096.size a
  inb_S1x4096x768_S1x512x768_0_2048_0 : ∀ a, (![0, 2048, 0] : Fin 3 → Nat) a + S1x512x768.size a ≤ S1x4096x768.size a
  inb_S1x1x4096_S1x1x512_0_0_2560 : ∀ a, (![0, 0, 2560] : Fin 3 → Nat) a + S1x1x512.size a ≤ S1x1x4096.size a
  inb_S1x4096x768_S1x512x768_0_2560_0 : ∀ a, (![0, 2560, 0] : Fin 3 → Nat) a + S1x512x768.size a ≤ S1x4096x768.size a
  inb_S1x1x4096_S1x1x512_0_0_3072 : ∀ a, (![0, 0, 3072] : Fin 3 → Nat) a + S1x1x512.size a ≤ S1x1x4096.size a
  inb_S1x4096x768_S1x512x768_0_3072_0 : ∀ a, (![0, 3072, 0] : Fin 3 → Nat) a + S1x512x768.size a ≤ S1x4096x768.size a
  inb_S1x1x4096_S1x1x512_0_0_3584 : ∀ a, (![0, 0, 3584] : Fin 3 → Nat) a + S1x1x512.size a ≤ S1x1x4096.size a
  inb_S1x4096x768_S1x512x768_0_3584_0 : ∀ a, (![0, 3584, 0] : Fin 3 → Nat) a + S1x512x768.size a ≤ S1x4096x768.size a
  broadcasts_S256x1_S256x768 : S256x1.Broadcasts S256x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  dot_S256x512_S512x768_S256x768_1_0_0_1_n_n_wf : DotDims.WF S256x512 S512x768 S256x768 [1] [0] [0] [1] [] []
  hrank0 : 0 < grid0.rank
  k0_off1_inb : ∀ i : grid0.Coords, ∀ a, (k0_off1 i) a + S1x1.size a ≤ S16x16.size a
  k0_off2_inb : ∀ i : grid0.Coords, ∀ a, (k0_off2 i) a + S1x1.size a ≤ S16x16.size a
  k0_off3_inb : ∀ i : grid0.Coords, ∀ a, (k0_off3 i) a + S1x1.size a ≤ S16x16.size a
  k0_off4_inb : ∀ i : grid0.Coords, ∀ a, (k0_off4 i) a + S1x1.size a ≤ S16x16.size a
  k0_off5_inb : ∀ i : grid0.Coords, ∀ a, (k0_off5 i) a + S1x1.size a ≤ S16x16.size a
  k0_off6_inb : ∀ i : grid0.Coords, ∀ a, (k0_off6 i) a + S1x1.size a ≤ S16x16.size a
  k0_off7_inb : ∀ i : grid0.Coords, ∀ a, (k0_off7 i) a + S1x1.size a ≤ S16x16.size a
  k0_off8_inb : ∀ i : grid0.Coords, ∀ a, (k0_off8 i) a + S1x1.size a ≤ S16x16.size a
  k0_off9_inb : ∀ i : grid0.Coords, ∀ a, (k0_off9 i) a + S1x1.size a ≤ S16x16.size a
  k0_off10_inb : ∀ i : grid0.Coords, ∀ a, (k0_off10 i) a + S1x1.size a ≤ S16x16.size a
  k0_off11_inb : ∀ i : grid0.Coords, ∀ a, (k0_off11 i) a + S1x1.size a ≤ S16x16.size a
  k0_off12_inb : ∀ i : grid0.Coords, ∀ a, (k0_off12 i) a + S1x1.size a ≤ S16x16.size a
  k0_off13_inb : ∀ i : grid0.Coords, ∀ a, (k0_off13 i) a + S1x1.size a ≤ S16x16.size a
  k0_off14_inb : ∀ i : grid0.Coords, ∀ a, (k0_off14 i) a + S1x1.size a ≤ S16x16.size a
  k0_off15_inb : ∀ i : grid0.Coords, ∀ a, (k0_off15 i) a + S1x1.size a ≤ S16x16.size a
  k0_off16_inb : ∀ i : grid0.Coords, ∀ a, (k0_off16 i) a + S1x1.size a ≤ S16x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S16x1x4096.size a
  hwx0_0 : ∀ i : grid0.Coords, EltTy.bits .i32 = 32 ∨ (Rect.block (s := S16x1x4096) S1x1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x768.size a ≤ S16x4096x768.size a
  hwx0_1 : ∀ i : grid0.Coords, EltTy.bits .f32 = 32 ∨ (Rect.block (s := S16x4096x768) S1x4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x768.size a ≤ S16x2048x768.size a
  hwx0_2 : ∀ i : grid0.Coords, EltTy.bits .f32 = 32 ∨ (Rect.block (s := S16x2048x768) S1x256x768.size (cc0_transform_2 i) (hinb0_2 i)).WholeWords (EltTy.packing .f32)

variable [Facts₀]

def dot_S256x512_S512x768_S256x768_1_0_0_1_n_n : DotDims S256x512 S512x768 S256x768 where
  lhsContracting := [1]
  rhsContracting := [0]
  lhsNonContracting := [0]
  rhsNonContracting := [1]
  lhsBatch := []
  rhsBatch := []
  wf := dot_S256x512_S512x768_S256x768_1_0_0_1_n_n_wf

abbrev spec0_0 : Pipeline.WinSpec sig grid0.rank :=
  Pipeline.WinSpec.ofSpec (Memref.whole main_v0) S1x1x4096.size reads0_0 false false 2 stage0_0 sem0_0 nbuf0_0 hstage0_0

abbrev spec0_1 : Pipeline.WinSpec sig grid0.rank :=
  Pipeline.WinSpec.ofSpec (Memref.whole main_arg0) S1x4096x768.size reads0_1 false false 2 stage0_1 sem0_1 nbuf0_1 hstage0_1

abbrev spec0_2 : Pipeline.WinSpec sig grid0.rank :=
  Pipeline.WinSpec.ofSpec (Memref.whole main_v12) S1x256x768.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x4096x768 : Shape := ⟨3, ![16, 4096, 768]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S65536 : Shape := ⟨1, ![65536]⟩
abbrev S16x4096x1 : Shape := ⟨3, ![16, 4096, 1]⟩
abbrev S65536x768 : Shape := ⟨2, ![65536, 768]⟩
abbrev S32768x768 : Shape := ⟨2, ![32768, 768]⟩
abbrev S65536x1 : Shape := ⟨2, ![65536, 1]⟩
abbrev S32768 : Shape := ⟨1, ![32768]⟩
abbrev S16x2048x768 : Shape := ⟨3, ![16, 2048, 768]⟩
abbrev S16x2048 : Shape := ⟨2, ![16, 2048]⟩
abbrev S16x2048x1 : Shape := ⟨3, ![16, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S16x4096, .i32⟩
  | .hbm, ⟨2, _⟩ => ⟨S_, .i32⟩
  | .hbm, ⟨3, _⟩ => ⟨S16x4096, .i32⟩
  | .hbm, ⟨4, _⟩ => ⟨S16x4096, .i1⟩
  | .hbm, ⟨5, _⟩ => ⟨S_, .i32⟩
  | .hbm, ⟨6, _⟩ => ⟨S_, .i32⟩
  | .hbm, ⟨7, _⟩ => ⟨S16x4096, .i32⟩
  | .hbm, ⟨8, _⟩ => ⟨S16x4096, .i32⟩
  | .hbm, ⟨9, _⟩ => ⟨S16, .i32⟩
  | .hbm, ⟨10, _⟩ => ⟨S16x1, .i32⟩
  | .hbm, ⟨11, _⟩ => ⟨S_, .i32⟩
  | .hbm, ⟨12, _⟩ => ⟨S16x1, .i32⟩
  | .hbm, ⟨13, _⟩ => ⟨S16x1, .i32⟩
  | .hbm, ⟨14, _⟩ => ⟨S16x4096, .i32⟩
  | .hbm, ⟨15, _⟩ => ⟨S16x4096, .i32⟩
  | .hbm, ⟨16, _⟩ => ⟨S65536, .i32⟩
  | .hbm, ⟨17, _⟩ => ⟨S16x4096x1, .i1⟩
  | .hbm, ⟨18, _⟩ => ⟨S_, .f32⟩
  | .hbm, ⟨19, _⟩ => ⟨S_, .f32⟩
  | .hbm, ⟨20, _⟩ => ⟨S16x4096x768, .i1⟩
  | .hbm, ⟨21, _⟩ => ⟨S16x4096x768, .f32⟩
  | .hbm, ⟨22, _⟩ => ⟨S16x4096x768, .f32⟩
  | .hbm, ⟨23, _⟩ => ⟨S65536x768, .f32⟩
  | .hbm, ⟨24, _⟩ => ⟨S_, .f32⟩
  | .hbm, ⟨25, _⟩ => ⟨S32768x768, .f32⟩
  | .hbm, ⟨26, _⟩ => ⟨S65536x1, .i32⟩
  | .hbm, ⟨27, _⟩ => ⟨S32768x768, .f32⟩
  | .hbm, ⟨28, _⟩ => ⟨S65536, .i1⟩
  | .hbm, ⟨29, _⟩ => ⟨S65536, .f32⟩
  | .hbm, ⟨30, _⟩ => ⟨S_, .f32⟩
  | .hbm, ⟨31, _⟩ => ⟨S32768, .f32⟩
  | .hbm, ⟨32, _⟩ => ⟨S65536x1, .i32⟩
  | .hbm, ⟨33, _⟩ => ⟨S32768, .f32⟩
  | .hbm, ⟨34, _⟩ => ⟨S16x2048x768, .f32⟩
  | .hbm, ⟨35, _⟩ => ⟨S16x2048, .f32⟩
  | .hbm, ⟨36, _⟩ => ⟨S_, .f32⟩
  | .hbm, ⟨37, _⟩ => ⟨S16x2048, .f32⟩
  | .hbm, ⟨38, _⟩ => ⟨S16x2048, .f32⟩
  | .hbm, ⟨39, _⟩ => ⟨S16x2048x1, .f32⟩
  | .hbm, ⟨40, _⟩ => ⟨S16x2048x768, .f32⟩
  | .hbm, ⟨41, _⟩ => ⟨S16x2048x768, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  shapeCasts_S16x4096_S65536 : S16x4096.ShapeCasts S65536
  bcast_S16x4096_S16x4096x1_0_1 : S16x4096.BroadcastsInDim S16x4096x1 (![0, 1] : Fin 2 → Fin S16x4096x1.rank)
  bcast_S16x4096x1_S16x4096x768_0_1_2 : S16x4096x1.BroadcastsInDim S16x4096x768 (![0, 1, 2] : Fin 3 → Fin S16x4096x768.rank)
  bcast_S_S16x4096x768 : S_.BroadcastsInDim S16x4096x768 (![] : Fin 0 → Fin S16x4096x768.rank)
  shapeCasts_S16x4096x768_S65536x768 : S16x4096x768.ShapeCasts S65536x768
  bcast_S_S32768x768 : S_.BroadcastsInDim S32768x768 (![] : Fin 0 → Fin S32768x768.rank)
  bcast_S65536_S65536x1_0 : S65536.BroadcastsInDim S65536x1 (![0] : Fin 1 → Fin S65536x1.rank)
  bcast_S_S32768 : S_.BroadcastsInDim S32768 (![] : Fin 0 → Fin S32768.rank)
  shapeCasts_S32768x768_S16x2048x768 : S32768x768.ShapeCasts S16x2048x768
  shapeCasts_S32768_S16x2048 : S32768.ShapeCasts S16x2048
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x768_0_1_2 : S16x2048x1.BroadcastsInDim S16x2048x768 (![0, 1, 2] : Fin 3 → Fin S16x2048x768.rank)
  scatter_S32768x768_S65536x1_S65536x768_1_0_0_1_wf : ScatterDims.WF S32768x768 S65536x1 S65536x768 [1] [0] [0] 1
  scatter_S32768_S65536x1_S65536_n_0_0_1_wf : ScatterDims.WF S32768 S65536x1 S65536 [] [0] [0] 1

variable [Facts₀]

def scatter_S32768x768_S65536x1_S65536x768_1_0_0_1 : ScatterDims S32768x768 S65536x1 S65536x768 where
  updateWindowDims := [1]
  insertedWindowDims := [0]
  scatterDimsToOperandDims := [0]
  indexVectorDim := 1
  wf := scatter_S32768x768_S65536x1_S65536x768_1_0_0_1_wf
def scatter_S32768_S65536x1_S65536_n_0_0_1 : ScatterDims S32768 S65536x1 S65536 where
  updateWindowDims := []
  insertedWindowDims := [0]
  scatterDimsToOperandDims := [0]
  indexVectorDim := 1
  wf := scatter_S32768_S65536x1_S65536_n_0_0_1_wf

class Facts : Prop extends Facts₀ where

variable [Facts]
-- ==== Proof.K.Kit.lean ====
/-
  The kernel's region as the launch sees it.

  @main runs three stretches of host operations (the bounds table: per sample and per chunk of 512 tokens the least
  word id, negative ids counted as 2048, and the greatest) and then the one kernel region. This module names what
  the region finds: every buffer's contents at its entry (`V`), among them the table the kernel prefetches (`tbl`),
  each window's block of its array at a grid point (`iblk`), the staging memrefs and the body's call at a point, and
  the fact that an input window's staging buffer holds its block at every point. The two argument arrays are
  written by no host operation, so the region finds them, and the program leaves them, as launched.
-/
import proofs.«407863_j88433376624823_3_alg».proof.Proof.Gen.Kernel.Launch
import proofs.«407863_j88433376624823_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the three stretches of host operations have run. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is those stretches and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the token embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation writes the word ids: the region finds them as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The prefetched table -/

/-- The bounds table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so every contents is admissible. -/
abbrev adm : (pcfg0 (F := F)).Adm := ⟨tbl m, by show ok0 (F := F) (tbl m); unfold ok0; trivial⟩
/-- The pipeline at the table's contents. -/
abbrev cfgM : Pipeline.Cfg sig Λ₀ := cfg0 (adm m)

/-- The table as the body is handed it: its whole buffer, in scalar memory. -/
abbrev tbM : Memref sig .tc .smem S16x16 .i32 := Memref.whole main_v11
abbrev htbM : tbM.IsWhole := Memref.isWhole_whole _
abbrev TbBuf (c : Dev nD) {S : Shape} {e : EltTy} (M : Memref sig .tc .smem S e) : Type := Buf (Elt F) (M.view.loc (c : Thread nD τ))
/-- The body holds half of the table's buffer, to read; the pipeline keeps the other half. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The word-id window's staging buffer holds its block at every point, fetched there or not, for any proof data
    whose array is the region-entry contents and whose body leaves the block in place. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the embeddings' window. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the body's call -/

/-- One staging buffer of the output window, through which its contents are stated. -/
abbrev VO : View sig .tc .vmem S1x256x768 .f32 := (Memref.whole cc0_stg2_0 : Memref sig .tc .vmem S1x256x768 .f32).view
abbrev ms0 (t : Fin (cfgM m).N) : Memref sig .tc .vmem S1x1x4096 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x4096x768 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x256x768 .f32 := spec0_2.stage ((cfgM m).slots t 2)
abbrev hs2 (t : Fin (cfgM m).N) : (ms2 m t).IsWhole := hstage0_2 (((cfgM m).slots t 2).cast nbuf0_2)
/-- The two scratch buffers, whole. -/
abbrev accM : Memref sig .tc .vmem S256x768 .f32 := Memref.whole cc0_scratch0
abbrev haccM : accM.IsWhole := Memref.isWhole_whole _
abbrev cntM : Memref sig .tc .vmem S256x1 .f32 := Memref.whole cc0_scratch1
abbrev hcntM : cntM.IsWhole := Memref.isWhole_whole _

/-- The kernel body at point `t`, on what the pipeline calls it with. -/
abbrev bodyAt (a : (pcfg0 (F := F)).Adm) (t : Fin (cfg0 a).N) : Prog (TpuEff nD τ sig (Elt F) Λ₀ .tc) PUnit :=
  cc0__segment_mean_kernel (grid0.coords t) (Memref.whole main_v11) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (Memref.whole cc0_scratch0) (Memref.isWhole_whole _) (Memref.whole cc0_scratch1) (Memref.isWhole_whole _)

/-! ## The frame claim's post from the frame run's -/

/-- For any proof data whose arrays are the region-entry contents, a run to the library's frame post read at the
    two argument arrays — the embeddings a staged input, the word ids a buffer no window stages — is the frame
    claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 1).trans (((dats 0 c).arrAt_in 1 rfl _).trans ((hA c 1).trans (V_main_arg0 m c))),
      ((h c).2 main_arg1 (by decide : main_arg1 ∈ Pipeline.restRefs sig spec0)).trans (V_main_arg1 m c)⟩) h

end Cert.Kernel.Hand

end
-- ==== Proof.K.Run.lean ====
/-
  The kernel body's run on any staging memrefs.

  The body zeroes its two scratch buffers (the accumulated sums, 256 words by 768 features, and the counts), then for
  each of the eight chunks of 512 tokens reads the chunk's two bounds from the table and, only if the chunk's range
  of ids can meet the tile's 256 words, adds to the sums the product of the one-hot of (word, token) with the
  chunk's embeddings and to the counts the one-hot's row sums; at the end it stores sums over counts raised to at
  least one into the output block. Each guarded update is run both ways at once: after it a scratch buffer holds
  the updated contents if the guard held and the old ones otherwise. The run leaves the two input blocks and the
  table as they were and the scratch buffers at contents nobody needs again; what it leaves in the output block,
  one store of the whole block, is the witness the run finds.
-/
import proofs.«407863_j88433376624823_3_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref, with the proof that on whole staging
    memrefs — the inputs' at their blocks, the output's at anything, the scratch buffers' at given contents `f6`,
    `f7`, the table's half held — the body runs to the continuation holding all of them again, the output's with
    those pieces written. (The pieces are spelled over `f6` and `f7`; that they do not depend on them is proved
    where the pieces are read.) -/
noncomputable def kernelRun (c : Dev nD) (i : grid0.Coords)
    (arg3 : Memref sig .tc .vmem S1x1x4096 .i32) (harg3 : arg3.IsWhole)
    (arg4 : Memref sig .tc .vmem S1x4096x768 .f32) (harg4 : arg4.IsWhole)
    (arg5 : Memref sig .tc .vmem S1x256x768 .f32) (harg5 : arg5.IsWhole)
    (arg6 : Memref sig .tc .vmem S256x768 .f32) (harg6 : arg6.IsWhole)
    (arg7 : Memref sig .tc .vmem S256x1 .f32) (harg7 : arg7.IsWhole)
    (x0 : Vec F S1x1x4096 .i32) (x1 : Vec F S1x4096x768 .f32) (xt : TbBuf (F := F) c tbM)
    (f6 : arg6.view.ty.Contents (Elt F)) (f7 : arg7.view.ty.Contents (Elt F)) :
    { L : List (View.Piece (Elt F) S1x256x768 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (arg6.view.loc (c : Thread nD τ) ↦[arg6.view.set]{fullShare} f6)
            ∗ (arg7.view.loc (c : Thread nD τ) ↦[arg7.view.set]{fullShare} f7) ∗ tbPt c tbM xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)
                ∗ (∃ f, arg6.view.loc (c : Thread nD τ) ↦[arg6.view.set]{fullShare} f) ∗ (∃ f, arg7.view.loc (c : Thread nD τ) ↦[arg7.view.set]{fullShare} f)
                ∗ tbPt c tbM xt) -∗ K ⟨⟩))
          ⊢ wp frame (wpE (defs₀ (F := F)) Variants.none c none) E
              (cc0__segment_mean_kernel i tbM htbM arg3 harg3 arg4 harg4 arg5 harg5 arg6 harg6 arg7 harg7) K } := by
  refine ⟨?_, fun E K => ?run⟩
  case run =>
    simp only [cc0__segment_mean_kernel_eq_skeleton]; unfold cc0__segment_mean_kernel_skel
    simp only [k0_part1_eq_skeleton, k0_part2_eq_skeleton]
    unfold owns
    iintro ⟨⟨%f0, %hf0, H0⟩, ⟨%f1, %hf1, H1⟩, ⟨%d2, %f2, -, H2⟩, H6, H7, HT, Hk⟩
    obtain rfl := harg3.eq_unread hf0; obtain rfl := harg4.eq_unread hf1
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H6]; · iexists _; iexact H6
    isplitl [H7]; · iexists _; iexact H7
    iexact HT

end Cert.Kernel.Hand

end
-- ==== Proof.Guard.lean ====
/-
  The test by which the body decides whether a chunk of tokens can hold a word of a tile.

  From the chunk's two bounds — the least of its ids (negative ids counted as 2048) and the greatest — and the
  tile's number `wt`, whose words are 256 wt … 256 wt + 255: greatest ≥ 256 wt and least < 256 wt + 256, as signed
  32-bit words, computed as the body computes it (two compares, their conjunction widened to a word and compared
  with zero).
-/
import Idealize.ShloMosaic.PureOps

namespace Cert.SegMean

open Idealize.ShloMosaic

/-- The chunk's test against tile `wt`, as the body computes it from the chunk's two bounds. -/
def chunkGuard (wt : ℕ) (cmin cmax : BitVec 32) : BitVec 1 :=
  Scalar.cmpi .ne (Scalar.extui (Scalar.andi (Scalar.cmpi .sge cmax (Scalar.muli (BitVec.ofNat 32 wt) 256#32))
    (Scalar.cmpi .slt cmin (Scalar.addi (Scalar.muli (BitVec.ofNat 32 wt) 256#32) 256#32)))) 0#32

end Cert.SegMean
-- ==== Proof.LibGuardedStore.lean ====
/-
  A STORE UNDER A GUARD, READ BACK.

  A kernel that updates a scratch buffer under a run-time condition (`pl.when(c)`: `buf[...] = f(buf[...])`) leaves
  the buffer, after the guarded region, at "the stored contents if the condition held, what was there otherwise": the
  contents are an `if` over the guard whose then-side is a list of writes over the else-side. When the store goes
  through a rectangle `r` and the later load goes through the same rectangle, the load needs no knowledge of the buffer:

    readAt_store_last         a read through the LAST store's own rectangle is that store's payload, whatever the
                              buffer held and whatever the earlier stores were;
    readAt_guarded_store      read (if g then (C with a store of w through r) else C) through r
                                = if g then w else (read C through r);
    readAt_guarded_store_cons the same when the guarded store comes right after an unguarded store through the same
                              rectangle (a zeroing fill, say): otherwise the earlier store's payload is read, as a
                              covered read, so the buffer's prior contents do not occur on either side.

  With one such lemma per guarded region a chain of guarded updates of a scratch buffer is read level by level as the
  updates applied in order, each only if its guard held, to the first store's payload — and the result does not
  mention what the buffer held before the first store. Stated for any view, element type and value family; the guard
  is any decidable proposition (a word compared with 1#1 in practice), matched up to unfolding when used by `exact`.
-/
import Idealize.ShloMosaic.Lib.Pipeline.FrameBody

namespace Cert.LibGuardedStore

open Idealize.ShloMosaic

section

variable {sig : RefSig} {κ : Kind} {sp : Space} {s : Shape} {e : EltTy} {Val : EltTy → Type} [∀ e, Nonempty (Val e)]

/-- A read through the last store's own rectangle is that store's payload, whatever was there and whatever the
    earlier stores. -/
theorem readAt_store_last (v : View sig κ sp s e) (C : v.ty.Contents Val) (r : Rect s) (w : r.shape.Idx → Val e)
    (L : List (View.Piece Val s e)) : v.readAt Val r.toLoadRect (v.writes Val C (⟨r, w⟩ :: L)) = w := by
  rw [View.readAt_writes_of_cover v C _ _ (fun j => ⟨⟨r, w⟩, List.mem_cons_self, r.toLoadRect.idx_mem j⟩)]
  exact View.readCov_cons_toLoadRect v r w L

/-- A store under a guard, read back through its rectangle: the payload if the guard held, what was there otherwise. -/
theorem readAt_guarded_store (g : Prop) [Decidable g] (v : View sig κ sp s e) (C : v.ty.Contents Val) (r : Rect s)
    (w : r.shape.Idx → Val e) :
    v.readAt Val r.toLoadRect (if _hc : g then v.writes Val C [⟨r, w⟩] else C) = if g then w else v.readAt Val r.toLoadRect C := by
  by_cases h : g
  · rw [dif_pos h, if_pos h]; exact readAt_store_last v C r w []
  · rw [dif_neg h, if_neg h]

/-- The same when the guarded store comes right after a store through the same rectangle: otherwise the earlier
    store's payload is read, as a covered read. -/
theorem readAt_guarded_store_cons (g : Prop) [Decidable g] (v : View sig κ sp s e) (C : v.ty.Contents Val) (r : Rect s)
    (w w₀ : r.shape.Idx → Val e) :
    v.readAt Val r.toLoadRect (if _hc : g then v.writes Val C (⟨r, w⟩ :: [⟨r, w₀⟩]) else v.writes Val C [⟨r, w₀⟩])
      = if g then w else v.readCov [⟨r, w₀⟩] r.toLoadRect := by
  by_cases h : g
  · rw [dif_pos h, if_pos h]; exact readAt_store_last v C r w _
  · rw [dif_neg h, if_neg h]
    exact View.readAt_writes_of_cover v C _ _ (fun j => ⟨⟨r, w₀⟩, List.mem_singleton_self _, r.toLoadRect.idx_mem j⟩)

end

end Cert.LibGuardedStore
-- ==== Proof.K.Fold.lean ====
/-
  What the run's loads of the two scratch buffers read, in closed form.

  The body zeroes each scratch buffer, then updates it under each chunk's guard, every update a store of the whole
  buffer computed from a load of the whole buffer. The run names each such load. A load after a guarded store of
  the whole buffer reads the stored value if the guard held and what the load before read otherwise — whatever the
  buffer held when the body began, because the zeroing store covers it. So, level by level, the last load of the
  sums is the eight chunks' updates applied in order to zero, each only if its guard held, and likewise the counts;
  neither mentions the scratch buffers' initial contents. The one piece the body stores into the output block is
  the final quotient of these two.
-/
import proofs.«407863_j88433376624823_3_alg».proof.Proof.K.Run
import proofs.«407863_j88433376624823_3_alg».proof.Proof.Guard
import proofs.«407863_j88433376624823_3_alg».proof.Proof.LibGuardedStore
import Idealize.ShloMosaic.Lib.Pipeline.Value

set_option maxRecDepth 16384

noncomputable section

namespace Cert.Kernel.Hand

open Cert.Kernel Cert.Kernel.Gen Cert.SegMean Cert.LibGuardedStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

section Levels

variable (c : Dev nD) (i : grid0.Coords)
  (arg3 : Memref sig .tc .vmem S1x1x4096 .i32) (harg3 : arg3.IsWhole)
  (arg4 : Memref sig .tc .vmem S1x4096x768 .f32) (harg4 : arg4.IsWhole)
  (arg5 : Memref sig .tc .vmem S1x256x768 .f32) (harg5 : arg5.IsWhole)
  (arg6 : Memref sig .tc .vmem S256x768 .f32) (harg6 : arg6.IsWhole)
  (arg7 : Memref sig .tc .vmem S256x1 .f32) (harg7 : arg7.IsWhole)
  (x0 : Vec F S1x1x4096 .i32) (x1 : Vec F S1x4096x768 .f32) (xt : TbBuf (F := F) c tbM)
  (f6 : arg6.view.ty.Contents (Elt F)) (f7 : arg7.view.ty.Contents (Elt F))

/-! The eight chunks' ids and embeddings as the body loads them, and the eight guards as it computes them from the
    table's words. -/
abbrev wid0 : Vec F S1x1x512 .i32 :=
  View.readAt (Elt F) arg3.view (Rect.unit (s := S1x1x4096) ![0, 0, 0] S1x1x512.size inb_S1x1x4096_S1x1x512_0_0_0).toLoadRect (harg3.unread x0)
abbrev wid1 : Vec F S1x1x512 .i32 :=
  View.readAt (Elt F) arg3.view (Rect.unit (s := S1x1x4096) ![0, 0, 512] S1x1x512.size inb_S1x1x4096_S1x1x512_0_0_512).toLoadRect (harg3.unread x0)
abbrev wid2 : Vec F S1x1x512 .i32 :=
  View.readAt (Elt F) arg3.view (Rect.unit (s := S1x1x4096) ![0, 0, 1024] S1x1x512.size inb_S1x1x4096_S1x1x512_0_0_1024).toLoadRect (harg3.unread x0)
abbrev wid3 : Vec F S1x1x512 .i32 :=
  View.readAt (Elt F) arg3.view (Rect.unit (s := S1x1x4096) ![0, 0, 1536] S1x1x512.size inb_S1x1x4096_S1x1x512_0_0_1536).toLoadRect (harg3.unread x0)
abbrev wid4 : Vec F S1x1x512 .i32 :=
  View.readAt (Elt F) arg3.view (Rect.unit (s := S1x1x4096) ![0, 0, 2048] S1x1x512.size inb_S1x1x4096_S1x1x512_0_0_2048).toLoadRect (harg3.unread x0)
abbrev wid5 : Vec F S1x1x512 .i32 :=
  View.readAt (Elt F) arg3.view (Rect.unit (s := S1x1x4096) ![0, 0, 2560] S1x1x512.size inb_S1x1x4096_S1x1x512_0_0_2560).toLoadRect (harg3.unread x0)
abbrev wid6 : Vec F S1x1x512 .i32 :=
  View.readAt (Elt F) arg3.view (Rect.unit (s := S1x1x4096) ![0, 0, 3072] S1x1x512.size inb_S1x1x4096_S1x1x512_0_0_3072).toLoadRect (harg3.unread x0)
abbrev wid7 : Vec F S1x1x512 .i32 :=
  View.readAt (Elt F) arg3.view (Rect.unit (s := S1x1x4096) ![0, 0, 3584] S1x1x512.size inb_S1x1x4096_S1x1x512_0_0_3584).toLoadRect (harg3.unread x0)
abbrev hid0 : Vec F S1x512x768 .f32 :=
  View.readAt (Elt F) arg4.view (Rect.unit (s := S1x4096x768) ![0, 0, 0] S1x512x768.size inb_S1x4096x768_S1x512x768_0_0_0).toLoadRect (harg4.unread x1)
abbrev hid1 : Vec F S1x512x768 .f32 :=
  View.readAt (Elt F) arg4.view (Rect.unit (s := S1x4096x768) ![0, 512, 0] S1x512x768.size inb_S1x4096x768_S1x512x768_0_512_0).toLoadRect (harg4.unread x1)
abbrev hid2 : Vec F S1x512x768 .f32 :=
  View.readAt (Elt F) arg4.view (Rect.unit (s := S1x4096x768) ![0, 1024, 0] S1x512x768.size inb_S1x4096x768_S1x512x768_0_1024_0).toLoadRect (harg4.unread x1)
abbrev hid3 : Vec F S1x512x768 .f32 :=
  View.readAt (Elt F) arg4.view (Rect.unit (s := S1x4096x768) ![0, 1536, 0] S1x512x768.size inb_S1x4096x768_S1x512x768_0_1536_0).toLoadRect (harg4.unread x1)
abbrev hid4 : Vec F S1x512x768 .f32 :=
  View.readAt (Elt F) arg4.view (Rect.unit (s := S1x4096x768) ![0, 2048, 0] S1x512x768.size inb_S1x4096x768_S1x512x768_0_2048_0).toLoadRect (harg4.unread x1)
abbrev hid5 : Vec F S1x512x768 .f32 :=
  View.readAt (Elt F) arg4.view (Rect.unit (s := S1x4096x768) ![0, 2560, 0] S1x512x768.size inb_S1x4096x768_S1x512x768_0_2560_0).toLoadRect (harg4.unread x1)
abbrev hid6 : Vec F S1x512x768 .f32 :=
  View.readAt (Elt F) arg4.view (Rect.unit (s := S1x4096x768) ![0, 3072, 0] S1x512x768.size inb_S1x4096x768_S1x512x768_0_3072_0).toLoadRect (harg4.unread x1)
abbrev hid7 : Vec F S1x512x768 .f32 :=
  View.readAt (Elt F) arg4.view (Rect.unit (s := S1x4096x768) ![0, 3584, 0] S1x512x768.size inb_S1x4096x768_S1x512x768_0_3584_0).toLoadRect (harg4.unread x1)
abbrev gd0 : Prop := chunkGuard (i 1).val (kernelRun.sl.r c i xt) (kernelRun.sl.r_1 c i xt) = 1#1
abbrev gd1 : Prop := chunkGuard (i 1).val (kernelRun.sl.r_2 c i xt) (kernelRun.sl.r_3 c i xt) = 1#1
abbrev gd2 : Prop := chunkGuard (i 1).val (kernelRun.sl.r_4 c i xt) (kernelRun.sl.r_5 c i xt) = 1#1
abbrev gd3 : Prop := chunkGuard (i 1).val (kernelRun.sl.r_6 c i xt) (kernelRun.sl.r_7 c i xt) = 1#1
abbrev gd4 : Prop := chunkGuard (i 1).val (kernelRun.sl.r_8 c i xt) (kernelRun.sl.r_9 c i xt) = 1#1
abbrev gd5 : Prop := chunkGuard (i 1).val (kernelRun.sl.r_10 c i xt) (kernelRun.sl.r_11 c i xt) = 1#1
abbrev gd6 : Prop := chunkGuard (i 1).val (kernelRun.sl.r_12 c i xt) (kernelRun.sl.r_13 c i xt) = 1#1
abbrev gd7 : Prop := chunkGuard (i 1).val (kernelRun.sl.r_14 c i xt) (kernelRun.sl.r_15 c i xt) = 1#1

/-! ## One level at a time -/

theorem acc_lv1 : kernelRun.sl.v112_1 c i arg3 harg3 arg4 harg4 arg6 x0 x1 xt f6
    = if gd0 c i xt then k0_pay12 i (wid0 arg3 harg3 x0) (hid0 arg4 harg4 x1) (kernelRun.sl.v112 arg6) else kernelRun.sl.v112 arg6 := by
  unfold kernelRun.sl.v112_1 kernelRun.sl.v112
  exact readAt_guarded_store_cons (gd0 c i xt) _ _ _ _ _
theorem acc_lv2 : kernelRun.sl.v112_2 c i arg3 harg3 arg4 harg4 arg6 x0 x1 xt f6
    = if gd1 c i xt then k0_pay15 i (wid1 arg3 harg3 x0) (hid1 arg4 harg4 x1) (kernelRun.sl.v112_1 c i arg3 harg3 arg4 harg4 arg6 x0 x1 xt f6) else kernelRun.sl.v112_1 c i arg3 harg3 arg4 harg4 arg6 x0 x1 xt f6 := by
  unfold kernelRun.sl.v112_2
  exact readAt_guarded_store (gd1 c i xt) _ _ _ _
theorem acc_lv3 : kernelRun.sl.v112_3 c i arg3 harg3 arg4 harg4 arg6 x0 x1 xt f6
    = if gd2 c i xt then k0_pay18 (k0_pay8 i) (wid2 arg3 harg3 x0) (hid2 arg4 harg4 x1) (kernelRun.sl.v112_2 c i arg3 harg3 arg4 harg4 arg6 x0 x1 xt f6) else kernelRun.sl.v112_2 c i arg3 harg3 arg4 harg4 arg6 x0 x1 xt f6 := by
  unfold kernelRun.sl.v112_3
  exact readAt_guarded_store (gd2 c i xt) _ _ _ _
theorem acc_lv4 : kernelRun.sl.v112_4 c i arg3 harg3 arg4 harg4 arg6 x0 x1 xt f6
    = if gd3 c i xt then k0_pay21 (k0_pay8 i) (wid3 arg3 harg3 x0) (hid3 arg4 harg4 x1) (kernelRun.sl.v112_3 c i arg3 harg3 arg4 harg4 arg6 x0 x1 xt f6) else kernelRun.sl.v112_3 c i arg3 harg3 arg4 harg4 arg6 x0 x1 xt f6 := by
  unfold kernelRun.sl.v112_4
  exact readAt_guarded_store (gd3 c i xt) _ _ _ _
theorem acc_lv5 : kernelRun.sl.v112_5 c i arg3 harg3 arg4 harg4 arg6 x0 x1 xt f6
    = if gd4 c i xt then k0_pay24 (k0_pay8 i) (wid4 arg3 harg3 x0) (hid4 arg4 harg4 x1) (kernelRun.sl.v112_4 c i arg3 harg3 arg4 harg4 arg6 x0 x1 xt f6) else kernelRun.sl.v112_4 c i arg3 harg3 arg4 harg4 arg6 x0 x1 xt f6 := by
  unfold kernelRun.sl.v112_5
  exact readAt_guarded_store (gd4 c i xt) _ _ _ _
theorem acc_lv6 : kernelRun.sl.v112_6 c i arg3 harg3 arg4 harg4 arg6 x0 x1 xt f6
    = if gd5 c i xt then k0_pay27 (k0_pay8 i) (wid5 arg3 harg3 x0) (hid5 arg4 harg4 x1) (kernelRun.sl.v112_5 c i arg3 harg3 arg4 harg4 arg6 x0 x1 xt f6) else kernelRun.sl.v112_5 c i arg3 harg3 arg4 harg4 arg6 x0 x1 xt f6 := by
  unfold kernelRun.sl.v112_6
  exact readAt_guarded_store (gd5 c i xt) _ _ _ _
theorem acc_lv7 : kernelRun.sl.v112_7 c i arg3 harg3 arg4 harg4 arg6 x0 x1 xt f6
    = if gd6 c i xt then k0_pay2 (k0_pay8 i) (wid6 arg3 harg3 x0) (hid6 arg4 harg4 x1) (kernelRun.sl.v112_6 c i arg3 harg3 arg4 harg4 arg6 x0 x1 xt f6) else kernelRun.sl.v112_6 c i arg3 harg3 arg4 harg4 arg6 x0 x1 xt f6 := by
  unfold kernelRun.sl.v112_7
  exact readAt_guarded_store (gd6 c i xt) _ _ _ _
theorem acc_lv8 : kernelRun.sl.v92 c i arg3 harg3 arg4 harg4 arg6 x0 x1 xt f6
    = if gd7 c i xt then k0_pay5 (k0_pay8 i) (wid7 arg3 harg3 x0) (hid7 arg4 harg4 x1) (kernelRun.sl.v112_7 c i arg3 harg3 arg4 harg4 arg6 x0 x1 xt f6) else kernelRun.sl.v112_7 c i arg3 harg3 arg4 harg4 arg6 x0 x1 xt f6 := by
  unfold kernelRun.sl.v92
  exact readAt_guarded_store (gd7 c i xt) _ _ _ _

theorem cnt_lv1 : kernelRun.sl.v118_1 c i arg3 harg3 arg7 x0 xt f7
    = if gd0 c i xt then k0_pay13 i (wid0 arg3 harg3 x0) (kernelRun.sl.v118 arg7) else kernelRun.sl.v118 arg7 := by
  unfold kernelRun.sl.v118_1 kernelRun.sl.v118
  exact readAt_guarded_store_cons (gd0 c i xt) _ _ _ _ _
theorem cnt_lv2 : kernelRun.sl.v118_2 c i arg3 harg3 arg7 x0 xt f7
    = if gd1 c i xt then k0_pay16 i (wid1 arg3 harg3 x0) (kernelRun.sl.v118_1 c i arg3 harg3 arg7 x0 xt f7) else kernelRun.sl.v118_1 c i arg3 harg3 arg7 x0 xt f7 := by
  unfold kernelRun.sl.v118_2
  exact readAt_guarded_store (gd1 c i xt) _ _ _ _
theorem cnt_lv3 : kernelRun.sl.v118_3 c i arg3 harg3 arg7 x0 xt f7
    = if gd2 c i xt then k0_pay19 (k0_pay8 i) (wid2 arg3 harg3 x0) (kernelRun.sl.v118_2 c i arg3 harg3 arg7 x0 xt f7) else kernelRun.sl.v118_2 c i arg3 harg3 arg7 x0 xt f7 := by
  unfold kernelRun.sl.v118_3
  exact readAt_guarded_store (gd2 c i xt) _ _ _ _
theorem cnt_lv4 : kernelRun.sl.v118_4 c i arg3 harg3 arg7 x0 xt f7
    = if gd3 c i xt then k0_pay22 (k0_pay8 i) (wid3 arg3 harg3 x0) (kernelRun.sl.v118_3 c i arg3 harg3 arg7 x0 xt f7) else kernelRun.sl.v118_3 c i arg3 harg3 arg7 x0 xt f7 := by
  unfold kernelRun.sl.v118_4
  exact readAt_guarded_store (gd3 c i xt) _ _ _ _
theorem cnt_lv5 : kernelRun.sl.v118_5 c i arg3 harg3 arg7 x0 xt f7
    = if gd4 c i xt then k0_pay25 (k0_pay8 i) (wid4 arg3 harg3 x0) (kernelRun.sl.v118_4 c i arg3 harg3 arg7 x0 xt f7) else kernelRun.sl.v118_4 c i arg3 harg3 arg7 x0 xt f7 := by
  unfold kernelRun.sl.v118_5
  exact readAt_guarded_store (gd4 c i xt) _ _ _ _
theorem cnt_lv6 : kernelRun.sl.v118_6 c i arg3 harg3 arg7 x0 xt f7
    = if gd5 c i xt then k0_pay28 (k0_pay8 i) (wid5 arg3 harg3 x0) (kernelRun.sl.v118_5 c i arg3 harg3 arg7 x0 xt f7) else kernelRun.sl.v118_5 c i arg3 harg3 arg7 x0 xt f7 := by
  unfold kernelRun.sl.v118_6
  exact readAt_guarded_store (gd5 c i xt) _ _ _ _
theorem cnt_lv7 : kernelRun.sl.v118_7 c i arg3 harg3 arg7 x0 xt f7
    = if gd6 c i xt then k0_pay3 (k0_pay8 i) (wid6 arg3 harg3 x0) (kernelRun.sl.v118_6 c i arg3 harg3 arg7 x0 xt f7) else kernelRun.sl.v118_6 c i arg3 harg3 arg7 x0 xt f7 := by
  unfold kernelRun.sl.v118_7
  exact readAt_guarded_store (gd6 c i xt) _ _ _ _
theorem cnt_lv8 : kernelRun.sl.v93 c i arg3 harg3 arg7 x0 xt f7
    = if gd7 c i xt then k0_pay6 (k0_pay8 i) (wid7 arg3 harg3 x0) (kernelRun.sl.v118_7 c i arg3 harg3 arg7 x0 xt f7) else kernelRun.sl.v118_7 c i arg3 harg3 arg7 x0 xt f7 := by
  unfold kernelRun.sl.v93
  exact readAt_guarded_store (gd7 c i xt) _ _ _ _

/-! ## The closed forms -/

/-- The sums before any chunk: zero. -/
def accC0 : Vec F S256x768 .f32 := k0_pay9 (F := F)
def accC1 : Vec F S256x768 .f32 :=
  if gd0 c i xt then k0_pay12 i (wid0 arg3 harg3 x0) (hid0 arg4 harg4 x1) (accC0) else accC0
def accC2 : Vec F S256x768 .f32 :=
  if gd1 c i xt then k0_pay15 i (wid1 arg3 harg3 x0) (hid1 arg4 harg4 x1) (accC1 c i arg3 harg3 arg4 harg4 x0 x1 xt) else accC1 c i arg3 harg3 arg4 harg4 x0 x1 xt
def accC3 : Vec F S256x768 .f32 :=
  if gd2 c i xt then k0_pay18 (k0_pay8 i) (wid2 arg3 harg3 x0) (hid2 arg4 harg4 x1) (accC2 c i arg3 harg3 arg4 harg4 x0 x1 xt) else accC2 c i arg3 harg3 arg4 harg4 x0 x1 xt
def accC4 : Vec F S256x768 .f32 :=
  if gd3 c i xt then k0_pay21 (k0_pay8 i) (wid3 arg3 harg3 x0) (hid3 arg4 harg4 x1) (accC3 c i arg3 harg3 arg4 harg4 x0 x1 xt) else accC3 c i arg3 harg3 arg4 harg4 x0 x1 xt
def accC5 : Vec F S256x768 .f32 :=
  if gd4 c i xt then k0_pay24 (k0_pay8 i) (wid4 arg3 harg3 x0) (hid4 arg4 harg4 x1) (accC4 c i arg3 harg3 arg4 harg4 x0 x1 xt) else accC4 c i arg3 harg3 arg4 harg4 x0 x1 xt
def accC6 : Vec F S256x768 .f32 :=
  if gd5 c i xt then k0_pay27 (k0_pay8 i) (wid5 arg3 harg3 x0) (hid5 arg4 harg4 x1) (accC5 c i arg3 harg3 arg4 harg4 x0 x1 xt) else accC5 c i arg3 harg3 arg4 harg4 x0 x1 xt
def accC7 : Vec F S256x768 .f32 :=
  if gd6 c i xt then k0_pay2 (k0_pay8 i) (wid6 arg3 harg3 x0) (hid6 arg4 harg4 x1) (accC6 c i arg3 harg3 arg4 harg4 x0 x1 xt) else accC6 c i arg3 harg3 arg4 harg4 x0 x1 xt
def accC8 : Vec F S256x768 .f32 :=
  if gd7 c i xt then k0_pay5 (k0_pay8 i) (wid7 arg3 harg3 x0) (hid7 arg4 harg4 x1) (accC7 c i arg3 harg3 arg4 harg4 x0 x1 xt) else accC7 c i arg3 harg3 arg4 harg4 x0 x1 xt

/-- The counts before any chunk: zero. -/
def cntC0 : Vec F S256x1 .f32 := k0_pay10 (F := F)
def cntC1 : Vec F S256x1 .f32 :=
  if gd0 c i xt then k0_pay13 i (wid0 arg3 harg3 x0) (cntC0) else cntC0
def cntC2 : Vec F S256x1 .f32 :=
  if gd1 c i xt then k0_pay16 i (wid1 arg3 harg3 x0) (cntC1 c i arg3 harg3 x0 xt) else cntC1 c i arg3 harg3 x0 xt
def cntC3 : Vec F S256x1 .f32 :=
  if gd2 c i xt then k0_pay19 (k0_pay8 i) (wid2 arg3 harg3 x0) (cntC2 c i arg3 harg3 x0 xt) else cntC2 c i arg3 harg3 x0 xt
def cntC4 : Vec F S256x1 .f32 :=
  if gd3 c i xt then k0_pay22 (k0_pay8 i) (wid3 arg3 harg3 x0) (cntC3 c i arg3 harg3 x0 xt) else cntC3 c i arg3 harg3 x0 xt
def cntC5 : Vec F S256x1 .f32 :=
  if gd4 c i xt then k0_pay25 (k0_pay8 i) (wid4 arg3 harg3 x0) (cntC4 c i arg3 harg3 x0 xt) else cntC4 c i arg3 harg3 x0 xt
def cntC6 : Vec F S256x1 .f32 :=
  if gd5 c i xt then k0_pay28 (k0_pay8 i) (wid5 arg3 harg3 x0) (cntC5 c i arg3 harg3 x0 xt) else cntC5 c i arg3 harg3 x0 xt
def cntC7 : Vec F S256x1 .f32 :=
  if gd6 c i xt then k0_pay3 (k0_pay8 i) (wid6 arg3 harg3 x0) (cntC6 c i arg3 harg3 x0 xt) else cntC6 c i arg3 harg3 x0 xt
def cntC8 : Vec F S256x1 .f32 :=
  if gd7 c i xt then k0_pay6 (k0_pay8 i) (wid7 arg3 harg3 x0) (cntC7 c i arg3 harg3 x0 xt) else cntC7 c i arg3 harg3 x0 xt

theorem acc_cl0 : kernelRun.sl.v112 arg6 = accC0 (F := F) := by
  unfold kernelRun.sl.v112 kernelRun.sl.H6_1 accC0
  exact View.readCov_unit_zero _ zero2 _ _
theorem acc_cl1 : kernelRun.sl.v112_1 c i arg3 harg3 arg4 harg4 arg6 x0 x1 xt f6 = accC1 c i arg3 harg3 arg4 harg4 x0 x1 xt := by
  rw [acc_lv1, acc_cl0]; rfl
theorem acc_cl2 : kernelRun.sl.v112_2 c i arg3 harg3 arg4 harg4 arg6 x0 x1 xt f6 = accC2 c i arg3 harg3 arg4 harg4 x0 x1 xt := by
  rw [acc_lv2, acc_cl1]; rfl
theorem acc_cl3 : kernelRun.sl.v112_3 c i arg3 harg3 arg4 harg4 arg6 x0 x1 xt f6 = accC3 c i arg3 harg3 arg4 harg4 x0 x1 xt := by
  rw [acc_lv3, acc_cl2]; rfl
theorem acc_cl4 : kernelRun.sl.v112_4 c i arg3 harg3 arg4 harg4 arg6 x0 x1 xt f6 = accC4 c i arg3 harg3 arg4 harg4 x0 x1 xt := by
  rw [acc_lv4, acc_cl3]; rfl
theorem acc_cl5 : kernelRun.sl.v112_5 c i arg3 harg3 arg4 harg4 arg6 x0 x1 xt f6 = accC5 c i arg3 harg3 arg4 harg4 x0 x1 xt := by
  rw [acc_lv5, acc_cl4]; rfl
theorem acc_cl6 : kernelRun.sl.v112_6 c i arg3 harg3 arg4 harg4 arg6 x0 x1 xt f6 = accC6 c i arg3 harg3 arg4 harg4 x0 x1 xt := by
  rw [acc_lv6, acc_cl5]; rfl
theorem acc_cl7 : kernelRun.sl.v112_7 c i arg3 harg3 arg4 harg4 arg6 x0 x1 xt f6 = accC7 c i arg3 harg3 arg4 harg4 x0 x1 xt := by
  rw [acc_lv7, acc_cl6]; rfl
theorem acc_cl8 : kernelRun.sl.v92 c i arg3 harg3 arg4 harg4 arg6 x0 x1 xt f6 = accC8 c i arg3 harg3 arg4 harg4 x0 x1 xt := by
  rw [acc_lv8, acc_cl7]; rfl

theorem cnt_cl0 : kernelRun.sl.v118 arg7 = cntC0 (F := F) := by
  unfold kernelRun.sl.v118 kernelRun.sl.H7_1 cntC0
  exact View.readCov_unit_zero _ zero2 _ _
theorem cnt_cl1 : kernelRun.sl.v118_1 c i arg3 harg3 arg7 x0 xt f7 = cntC1 c i arg3 harg3 x0 xt := by
  rw [cnt_lv1, cnt_cl0]; rfl
theorem cnt_cl2 : kernelRun.sl.v118_2 c i arg3 harg3 arg7 x0 xt f7 = cntC2 c i arg3 harg3 x0 xt := by
  rw [cnt_lv2, cnt_cl1]; rfl
theorem cnt_cl3 : kernelRun.sl.v118_3 c i arg3 harg3 arg7 x0 xt f7 = cntC3 c i arg3 harg3 x0 xt := by
  rw [cnt_lv3, cnt_cl2]; rfl
theorem cnt_cl4 : kernelRun.sl.v118_4 c i arg3 harg3 arg7 x0 xt f7 = cntC4 c i arg3 harg3 x0 xt := by
  rw [cnt_lv4, cnt_cl3]; rfl
theorem cnt_cl5 : kernelRun.sl.v118_5 c i arg3 harg3 arg7 x0 xt f7 = cntC5 c i arg3 harg3 x0 xt := by
  rw [cnt_lv5, cnt_cl4]; rfl
theorem cnt_cl6 : kernelRun.sl.v118_6 c i arg3 harg3 arg7 x0 xt f7 = cntC6 c i arg3 harg3 x0 xt := by
  rw [cnt_lv6, cnt_cl5]; rfl
theorem cnt_cl7 : kernelRun.sl.v118_7 c i arg3 harg3 arg7 x0 xt f7 = cntC7 c i arg3 harg3 x0 xt := by
  rw [cnt_lv7, cnt_cl6]; rfl
theorem cnt_cl8 : kernelRun.sl.v93 c i arg3 harg3 arg7 x0 xt f7 = cntC8 c i arg3 harg3 x0 xt := by
  rw [cnt_lv8, cnt_cl7]; rfl

/-! ## The output block -/

/-- The body's one store into the output block: the final quotient of the two last loads. -/
theorem pieces_eq :
    (kernelRun c i arg3 harg3 arg4 harg4 arg5 harg5 arg6 harg6 arg7 harg7 x0 x1 xt f6 f7).1
      = [⟨Rect.unit (s := S1x256x768) ![0, 0, 0] S1x256x768.size inb_S1x256x768_S1x256x768_0_0_0,
          k0_pay7 (kernelRun.sl.v92 c i arg3 harg3 arg4 harg4 arg6 x0 x1 xt f6) (kernelRun.sl.v93 c i arg3 harg3 arg7 x0 xt f7)⟩] := rfl

/-- What the output's staging buffer holds after the body, in closed form. -/
def outC : Vec F S1x256x768 .f32 := k0_pay7 (accC8 c i arg3 harg3 arg4 harg4 x0 x1 xt) (cntC8 c i arg3 harg3 x0 xt)

/-- The run's pieces read back are the closed form, whatever the scratch buffers held. -/
theorem outOf_eq :
    VO.read (Elt F) (VO.writes (Elt F) VO.junk (kernelRun c i arg3 harg3 arg4 harg4 arg5 harg5 arg6 harg6 arg7 harg7 x0 x1 xt f6 f7).1)
      = outC c i arg3 harg3 arg4 harg4 x0 x1 xt := by
  rw [pieces_eq, acc_cl8, cnt_cl8]
  rw [View.read_writes_eq_canon _ _ _ (fun y => ⟨_, List.mem_singleton_self _, View.mem_set_unit_zero zero3 inb_S1x256x768_S1x256x768_0_0_0 y⟩),
    View.canon_unit_zero zero3]
  rfl

end Levels

end Cert.Kernel.Hand

end
-- ==== Proof.K.Frame.lean ====
/-
  The kernel's frame: the proof data of its one pipeline, the body obligation, the launch, and the frame claim.

  After the body at a grid point each input window's staging buffer holds its block still, and the output's holds
  what the body's one store of the whole block wrote (`outAt`, in the closed form of the body's arithmetic). Between points the
  region keeps only the class's invariant — the two scratch buffers at contents nobody names (the body zeroes
  them before it reads them) and the generator register — and its half of the bounds table. With these the
  library's frame run gives: every execution of @main terminates, the output array ends at what the blocks written
  back make of it, and every other buffer, the two arguments among them, ends as the region found it.
-/
import proofs.«407863_j88433376624823_3_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class's invariant with the two scratch buffers held whole at some raw contents. -/
theorem PhiA_eq (c : Dev nD) : (Pipeline.ΦA spec0 c : sProp 𝕄)
      = iprop(iprop((∃ d f, ⌜accM.view.read (Elt F) f = d⌝ ∗ accM.view.loc (c : Thread nD τ) ↦[accM.view.set]{fullShare} f)
          ∗ (∃ d f, ⌜cntM.view.read (Elt F) f = d⌝ ∗ cntM.view.loc (c : Thread nD τ) ↦[cntM.view.set]{fullShare} f)) ∗ (∃ r, prngReg c r)) := by
  have h : (Pipeline.ΦA spec0 c : sProp 𝕄)
      = iprop(iprop((∃ d, owns (c : Thread nD τ) accM fullShare d) ∗ (∃ d, owns (c : Thread nD τ) cntM fullShare d)) ∗ (∃ r, prngReg c r)) := by
    unfold Pipeline.ΦA; rw [scopedRest0_eq]; simp only [accM, cntM, owns_whole]; try rfl
  rw [h]; unfold owns; rfl

/-- The body's one store covers the output block. -/
theorem cover_out (c : Dev nD) (i : grid0.Coords)
    (arg3 : Memref sig .tc .vmem S1x1x4096 .i32) (harg3 : arg3.IsWhole) (arg4 : Memref sig .tc .vmem S1x4096x768 .f32) (harg4 : arg4.IsWhole)
    (arg5 : Memref sig .tc .vmem S1x256x768 .f32) (harg5 : arg5.IsWhole) (arg6 : Memref sig .tc .vmem S256x768 .f32) (harg6 : arg6.IsWhole)
    (arg7 : Memref sig .tc .vmem S256x1 .f32) (harg7 : arg7.IsWhole)
    (x0 : Vec F S1x1x4096 .i32) (x1 : Vec F S1x4096x768 .f32) (xt : TbBuf (F := F) c tbM)
    (f6 : arg6.view.ty.Contents (Elt F)) (f7 : arg7.view.ty.Contents (Elt F)) (y : S1x256x768.Idx) :
    ∃ pc ∈ (kernelRun c i arg3 harg3 arg4 harg4 arg5 harg5 arg6 harg6 arg7 harg7 x0 x1 xt f6 f7).1, y ∈ pc.1.set := by
  rw [pieces_eq]
  exact ⟨_, List.mem_singleton_self _, View.mem_set_unit_zero zero3 inb_S1x256x768_S1x256x768_0_0_0 y⟩

/-- What the output's staging buffer holds after the body at point `t`. -/
def outAt (c : Dev nD) (t : Fin (cfgM m).N) : Vec F S1x256x768 .f32 :=
  outC c (grid0.coords t) (ms0 m t) (hs0 m t) (ms1 m t) (hs1 m t) (iblk m c 0 t) (iblk m c 1 t) (tbl m 0)

/-! ## The pipeline's proof data -/

/-- The arrays as the region finds them; after the body at point `t` each input's buffer at its block and the
    output's at `outAt`; the class's invariant and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the inputs' memrefs hold their blocks, so the run applies; the scratch buffers and the
    table's half go in and come back; the generator register passes through; the core owes nothing throughout. -/
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq, PhiA_eq]
  unfold outAt
  iintro ⟨⟨⟨⟨⟨%d6, %f6, -, H6⟩, ⟨%d7, %f7, -, H7⟩⟩, Hp⟩, HT⟩, Ho, ⟨%d0, H0⟩, ⟨%d1, H1⟩, ⟨%d2, H2⟩⟩
  iapply ((kernelRun c (grid0.coords t) _ _ _ _ _ _ accM haccM cntM hcntM (iblk m c 0 t) (iblk m c 1 t) (tbl m 0) f6 f7).2 Set.univ _)
  isplitl [H0]; · iexact H0
  isplitl [H1]; · iexact H1
  isplitl [H2]; · iexists _; iexact H2
  isplitl [H6]; · iexact H6
  isplitl [H7]; · iexact H7
  isplitl [HT]; · iexact HT
  iintro ⟨H0, H1, ⟨%e2, H2⟩, ⟨%g6, H6⟩, ⟨%g7, H7⟩, HT⟩
  isplitl [H6 H7 Hp HT]
  · isplitl [H6 H7 Hp]
    · isplitl [H6 H7]
      · isplitl [H6]
        · iexists _, g6; isplitr; · ipureintro; rfl
          iexact H6
        iexists _, g7; isplitr; · ipureintro; rfl
        iexact H7
      iexact Hp
    iexact HT
  isplitl [Ho]; · iexact Ho
  isplitl [H0]; · iexact H0
  isplitl [H1]; · iexact H1
  unfold owns; iexists _; isplitr
  swap; · iexact H2
  ipureintro
  exact (View.read_writes_of_cover _ _ _ _ _ (cover_out c _ _ _ _ _ _ _ _ _ _ _ _ _ _ f6 f7)).trans (outOf_eq c _ _ _ _ _ _ _ _ _ _ _ _ _ _ f6 f7)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame claim's statement at any `F`: the program runs and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Kit.lean ====
/-
  The kernel's region as the launch sees it.

  @main runs three stretches of host operations (the bounds table: per sample and per chunk of 512 tokens the least
  word id, negative ids counted as 2048, and the greatest) and then the one kernel region. This module names what
  the region finds: every buffer's contents at its entry (`V`), among them the table the kernel prefetches (`tbl`),
  each window's block of its array at a grid point (`iblk`), the staging memrefs and the body's call at a point, and
  the fact that an input window's staging buffer holds its block at every point. The two argument arrays are
  written by no host operation, so the region finds them, and the program leaves them, as launched.
-/
import proofs.«407863_j88433376624823_3_alg».proof.Proof.Gen.KernelIdeal.Launch
import proofs.«407863_j88433376624823_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the three stretches of host operations have run. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is those stretches and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the token embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation writes the word ids: the region finds them as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The prefetched table -/

/-- The bounds table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so every contents is admissible. -/
abbrev adm : (pcfg0 (F := F)).Adm := ⟨tbl m, by show ok0 (F := F) (tbl m); unfold ok0; trivial⟩
/-- The pipeline at the table's contents. -/
abbrev cfgM : Pipeline.Cfg sig Λ₀ := cfg0 (adm m)

/-- The table as the body is handed it: its whole buffer, in scalar memory. -/
abbrev tbM : Memref sig .tc .smem S16x16 .i32 := Memref.whole main_v11
abbrev htbM : tbM.IsWhole := Memref.isWhole_whole _
abbrev TbBuf (c : Dev nD) {S : Shape} {e : EltTy} (M : Memref sig .tc .smem S e) : Type := Buf (Elt F) (M.view.loc (c : Thread nD τ))
/-- The body holds half of the table's buffer, to read; the pipeline keeps the other half. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The word-id window's staging buffer holds its block at every point, fetched there or not, for any proof data
    whose array is the region-entry contents and whose body leaves the block in place. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the embeddings' window. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the body's call -/

/-- One staging buffer of the output window, through which its contents are stated. -/
abbrev VO : View sig .tc .vmem S1x256x768 .f32 := (Memref.whole cc0_stg2_0 : Memref sig .tc .vmem S1x256x768 .f32).view
abbrev ms0 (t : Fin (cfgM m).N) : Memref sig .tc .vmem S1x1x4096 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x4096x768 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x256x768 .f32 := spec0_2.stage ((cfgM m).slots t 2)
abbrev hs2 (t : Fin (cfgM m).N) : (ms2 m t).IsWhole := hstage0_2 (((cfgM m).slots t 2).cast nbuf0_2)
/-- The two scratch buffers, whole. -/
abbrev accM : Memref sig .tc .vmem S256x768 .f32 := Memref.whole cc0_scratch0
abbrev haccM : accM.IsWhole := Memref.isWhole_whole _
abbrev cntM : Memref sig .tc .vmem S256x1 .f32 := Memref.whole cc0_scratch1
abbrev hcntM : cntM.IsWhole := Memref.isWhole_whole _

/-- The kernel body at point `t`, on what the pipeline calls it with. -/
abbrev bodyAt (a : (pcfg0 (F := F)).Adm) (t : Fin (cfg0 a).N) : Prog (TpuEff nD τ sig (Elt F) Λ₀ .tc) PUnit :=
  cc0__segment_mean_kernel (grid0.coords t) (Memref.whole main_v11) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (Memref.whole cc0_scratch0) (Memref.isWhole_whole _) (Memref.whole cc0_scratch1) (Memref.isWhole_whole _)

/-! ## The frame claim's post from the frame run's -/

/-- For any proof data whose arrays are the region-entry contents, a run to the library's frame post read at the
    two argument arrays — the embeddings a staged input, the word ids a buffer no window stages — is the frame
    claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 1).trans (((dats 0 c).arrAt_in 1 rfl _).trans ((hA c 1).trans (V_main_arg0 m c))),
      ((h c).2 main_arg1 (by decide : main_arg1 ∈ Pipeline.restRefs sig spec0)).trans (V_main_arg1 m c)⟩) h

end Cert.KernelIdeal.Hand

end
-- ==== Proof.KI.Run.lean ====
/-
  The kernel body's run on any staging memrefs.

  The body zeroes its two scratch buffers (the accumulated sums, 256 words by 768 features, and the counts), then for
  each of the eight chunks of 512 tokens reads the chunk's two bounds from the table and, only if the chunk's range
  of ids can meet the tile's 256 words, adds to the sums the product of the one-hot of (word, token) with the
  chunk's embeddings and to the counts the one-hot's row sums; at the end it stores sums over counts raised to at
  least one into the output block. Each guarded update is run both ways at once: after it a scratch buffer holds
  the updated contents if the guard held and the old ones otherwise. The run leaves the two input blocks and the
  table as they were and the scratch buffers at contents nobody needs again; what it leaves in the output block,
  one store of the whole block, is the witness the run finds.
-/
import proofs.«407863_j88433376624823_3_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref, with the proof that on whole staging
    memrefs — the inputs' at their blocks, the output's at anything, the scratch buffers' at given contents `f6`,
    `f7`, the table's half held — the body runs to the continuation holding all of them again, the output's with
    those pieces written. (The pieces are spelled over `f6` and `f7`; that they do not depend on them is proved
    where the pieces are read.) -/
noncomputable def kernelRun (c : Dev nD) (i : grid0.Coords)
    (arg3 : Memref sig .tc .vmem S1x1x4096 .i32) (harg3 : arg3.IsWhole)
    (arg4 : Memref sig .tc .vmem S1x4096x768 .f32) (harg4 : arg4.IsWhole)
    (arg5 : Memref sig .tc .vmem S1x256x768 .f32) (harg5 : arg5.IsWhole)
    (arg6 : Memref sig .tc .vmem S256x768 .f32) (harg6 : arg6.IsWhole)
    (arg7 : Memref sig .tc .vmem S256x1 .f32) (harg7 : arg7.IsWhole)
    (x0 : Vec F S1x1x4096 .i32) (x1 : Vec F S1x4096x768 .f32) (xt : TbBuf (F := F) c tbM)
    (f6 : arg6.view.ty.Contents (Elt F)) (f7 : arg7.view.ty.Contents (Elt F)) :
    { L : List (View.Piece (Elt F) S1x256x768 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (arg6.view.loc (c : Thread nD τ) ↦[arg6.view.set]{fullShare} f6)
            ∗ (arg7.view.loc (c : Thread nD τ) ↦[arg7.view.set]{fullShare} f7) ∗ tbPt c tbM xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)
                ∗ (∃ f, arg6.view.loc (c : Thread nD τ) ↦[arg6.view.set]{fullShare} f) ∗ (∃ f, arg7.view.loc (c : Thread nD τ) ↦[arg7.view.set]{fullShare} f)
                ∗ tbPt c tbM xt) -∗ K ⟨⟩))
          ⊢ wp frame (wpE (defs₀ (F := F)) Variants.none c none) E
              (cc0__segment_mean_kernel i tbM htbM arg3 harg3 arg4 harg4 arg5 harg5 arg6 harg6 arg7 harg7) K } := by
  refine ⟨?_, fun E K => ?run⟩
  case run =>
    simp only [cc0__segment_mean_kernel_eq_skeleton]; unfold cc0__segment_mean_kernel_skel
    simp only [k0_part1_eq_skeleton, k0_part2_eq_skeleton]
    unfold owns
    iintro ⟨⟨%f0, %hf0, H0⟩, ⟨%f1, %hf1, H1⟩, ⟨%d2, %f2, -, H2⟩, H6, H7, HT, Hk⟩
    obtain rfl := harg3.eq_unread hf0; obtain rfl := harg4.eq_unread hf1
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H6]; · iexists _; iexact H6
    isplitl [H7]; · iexists _; iexact H7
    iexact HT

end Cert.KernelIdeal.Hand

end
-- ==== Proof.KI.Fold.lean ====
/-
  What the run's loads of the two scratch buffers read, in closed form.

  The body zeroes each scratch buffer, then updates it under each chunk's guard, every update a store of the whole
  buffer computed from a load of the whole buffer. The run names each such load. A load after a guarded store of
  the whole buffer reads the stored value if the guard held and what the load before read otherwise — whatever the
  buffer held when the body began, because the zeroing store covers it. So, level by level, the last load of the
  sums is the eight chunks' updates applied in order to zero, each only if its guard held, and likewise the counts;
  neither mentions the scratch buffers' initial contents. The one piece the body stores into the output block is
  the final quotient of these two.
-/
import proofs.«407863_j88433376624823_3_alg».proof.Proof.KI.Run
import proofs.«407863_j88433376624823_3_alg».proof.Proof.Guard
import proofs.«407863_j88433376624823_3_alg».proof.Proof.LibGuardedStore
import Idealize.ShloMosaic.Lib.Pipeline.Value

set_option maxRecDepth 16384

noncomputable section

namespace Cert.KernelIdeal.Hand

open Cert.KernelIdeal Cert.KernelIdeal.Gen Cert.SegMean Cert.LibGuardedStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

section Levels

variable (c : Dev nD) (i : grid0.Coords)
  (arg3 : Memref sig .tc .vmem S1x1x4096 .i32) (harg3 : arg3.IsWhole)
  (arg4 : Memref sig .tc .vmem S1x4096x768 .f32) (harg4 : arg4.IsWhole)
  (arg5 : Memref sig .tc .vmem S1x256x768 .f32) (harg5 : arg5.IsWhole)
  (arg6 : Memref sig .tc .vmem S256x768 .f32) (harg6 : arg6.IsWhole)
  (arg7 : Memref sig .tc .vmem S256x1 .f32) (harg7 : arg7.IsWhole)
  (x0 : Vec F S1x1x4096 .i32) (x1 : Vec F S1x4096x768 .f32) (xt : TbBuf (F := F) c tbM)
  (f6 : arg6.view.ty.Contents (Elt F)) (f7 : arg7.view.ty.Contents (Elt F))

/-! The eight chunks' ids and embeddings as the body loads them, and the eight guards as it computes them from the
    table's words. -/
abbrev wid0 : Vec F S1x1x512 .i32 :=
  View.readAt (Elt F) arg3.view (Rect.unit (s := S1x1x4096) ![0, 0, 0] S1x1x512.size inb_S1x1x4096_S1x1x512_0_0_0).toLoadRect (harg3.unread x0)
abbrev wid1 : Vec F S1x1x512 .i32 :=
  View.readAt (Elt F) arg3.view (Rect.unit (s := S1x1x4096) ![0, 0, 512] S1x1x512.size inb_S1x1x4096_S1x1x512_0_0_512).toLoadRect (harg3.unread x0)
abbrev wid2 : Vec F S1x1x512 .i32 :=
  View.readAt (Elt F) arg3.view (Rect.unit (s := S1x1x4096) ![0, 0, 1024] S1x1x512.size inb_S1x1x4096_S1x1x512_0_0_1024).toLoadRect (harg3.unread x0)
abbrev wid3 : Vec F S1x1x512 .i32 :=
  View.readAt (Elt F) arg3.view (Rect.unit (s := S1x1x4096) ![0, 0, 1536] S1x1x512.size inb_S1x1x4096_S1x1x512_0_0_1536).toLoadRect (harg3.unread x0)
abbrev wid4 : Vec F S1x1x512 .i32 :=
  View.readAt (Elt F) arg3.view (Rect.unit (s := S1x1x4096) ![0, 0, 2048] S1x1x512.size inb_S1x1x4096_S1x1x512_0_0_2048).toLoadRect (harg3.unread x0)
abbrev wid5 : Vec F S1x1x512 .i32 :=
  View.readAt (Elt F) arg3.view (Rect.unit (s := S1x1x4096) ![0, 0, 2560] S1x1x512.size inb_S1x1x4096_S1x1x512_0_0_2560).toLoadRect (harg3.unread x0)
abbrev wid6 : Vec F S1x1x512 .i32 :=
  View.readAt (Elt F) arg3.view (Rect.unit (s := S1x1x4096) ![0, 0, 3072] S1x1x512.size inb_S1x1x4096_S1x1x512_0_0_3072).toLoadRect (harg3.unread x0)
abbrev wid7 : Vec F S1x1x512 .i32 :=
  View.readAt (Elt F) arg3.view (Rect.unit (s := S1x1x4096) ![0, 0, 3584] S1x1x512.size inb_S1x1x4096_S1x1x512_0_0_3584).toLoadRect (harg3.unread x0)
abbrev hid0 : Vec F S1x512x768 .f32 :=
  View.readAt (Elt F) arg4.view (Rect.unit (s := S1x4096x768) ![0, 0, 0] S1x512x768.size inb_S1x4096x768_S1x512x768_0_0_0).toLoadRect (harg4.unread x1)
abbrev hid1 : Vec F S1x512x768 .f32 :=
  View.readAt (Elt F) arg4.view (Rect.unit (s := S1x4096x768) ![0, 512, 0] S1x512x768.size inb_S1x4096x768_S1x512x768_0_512_0).toLoadRect (harg4.unread x1)
abbrev hid2 : Vec F S1x512x768 .f32 :=
  View.readAt (Elt F) arg4.view (Rect.unit (s := S1x4096x768) ![0, 1024, 0] S1x512x768.size inb_S1x4096x768_S1x512x768_0_1024_0).toLoadRect (harg4.unread x1)
abbrev hid3 : Vec F S1x512x768 .f32 :=
  View.readAt (Elt F) arg4.view (Rect.unit (s := S1x4096x768) ![0, 1536, 0] S1x512x768.size inb_S1x4096x768_S1x512x768_0_1536_0).toLoadRect (harg4.unread x1)
abbrev hid4 : Vec F S1x512x768 .f32 :=
  View.readAt (Elt F) arg4.view (Rect.unit (s := S1x4096x768) ![0, 2048, 0] S1x512x768.size inb_S1x4096x768_S1x512x768_0_2048_0).toLoadRect (harg4.unread x1)
abbrev hid5 : Vec F S1x512x768 .f32 :=
  View.readAt (Elt F) arg4.view (Rect.unit (s := S1x4096x768) ![0, 2560, 0] S1x512x768.size inb_S1x4096x768_S1x512x768_0_2560_0).toLoadRect (harg4.unread x1)
abbrev hid6 : Vec F S1x512x768 .f32 :=
  View.readAt (Elt F) arg4.view (Rect.unit (s := S1x4096x768) ![0, 3072, 0] S1x512x768.size inb_S1x4096x768_S1x512x768_0_3072_0).toLoadRect (harg4.unread x1)
abbrev hid7 : Vec F S1x512x768 .f32 :=
  View.readAt (Elt F) arg4.view (Rect.unit (s := S1x4096x768) ![0, 3584, 0] S1x512x768.size inb_S1x4096x768_S1x512x768_0_3584_0).toLoadRect (harg4.unread x1)
abbrev gd0 : Prop := chunkGuard (i 1).val (kernelRun.sl.r c i xt) (kernelRun.sl.r_1 c i xt) = 1#1
abbrev gd1 : Prop := chunkGuard (i 1).val (kernelRun.sl.r_2 c i xt) (kernelRun.sl.r_3 c i xt) = 1#1
abbrev gd2 : Prop := chunkGuard (i 1).val (kernelRun.sl.r_4 c i xt) (kernelRun.sl.r_5 c i xt) = 1#1
abbrev gd3 : Prop := chunkGuard (i 1).val (kernelRun.sl.r_6 c i xt) (kernelRun.sl.r_7 c i xt) = 1#1
abbrev gd4 : Prop := chunkGuard (i 1).val (kernelRun.sl.r_8 c i xt) (kernelRun.sl.r_9 c i xt) = 1#1
abbrev gd5 : Prop := chunkGuard (i 1).val (kernelRun.sl.r_10 c i xt) (kernelRun.sl.r_11 c i xt) = 1#1
abbrev gd6 : Prop := chunkGuard (i 1).val (kernelRun.sl.r_12 c i xt) (kernelRun.sl.r_13 c i xt) = 1#1
abbrev gd7 : Prop := chunkGuard (i 1).val (kernelRun.sl.r_14 c i xt) (kernelRun.sl.r_15 c i xt) = 1#1

/-! ## One level at a time -/

theorem acc_lv1 : kernelRun.sl.v112_1 c i arg3 harg3 arg4 harg4 arg6 x0 x1 xt f6
    = if gd0 c i xt then k0_pay12 i (wid0 arg3 harg3 x0) (hid0 arg4 harg4 x1) (kernelRun.sl.v112 arg6) else kernelRun.sl.v112 arg6 := by
  unfold kernelRun.sl.v112_1 kernelRun.sl.v112
  exact readAt_guarded_store_cons (gd0 c i xt) _ _ _ _ _
theorem acc_lv2 : kernelRun.sl.v112_2 c i arg3 harg3 arg4 harg4 arg6 x0 x1 xt f6
    = if gd1 c i xt then k0_pay15 i (wid1 arg3 harg3 x0) (hid1 arg4 harg4 x1) (kernelRun.sl.v112_1 c i arg3 harg3 arg4 harg4 arg6 x0 x1 xt f6) else kernelRun.sl.v112_1 c i arg3 harg3 arg4 harg4 arg6 x0 x1 xt f6 := by
  unfold kernelRun.sl.v112_2
  exact readAt_guarded_store (gd1 c i xt) _ _ _ _
theorem acc_lv3 : kernelRun.sl.v112_3 c i arg3 harg3 arg4 harg4 arg6 x0 x1 xt f6
    = if gd2 c i xt then k0_pay18 (k0_pay8 i) (wid2 arg3 harg3 x0) (hid2 arg4 harg4 x1) (kernelRun.sl.v112_2 c i arg3 harg3 arg4 harg4 arg6 x0 x1 xt f6) else kernelRun.sl.v112_2 c i arg3 harg3 arg4 harg4 arg6 x0 x1 xt f6 := by
  unfold kernelRun.sl.v112_3
  exact readAt_guarded_store (gd2 c i xt) _ _ _ _
theorem acc_lv4 : kernelRun.sl.v112_4 c i arg3 harg3 arg4 harg4 arg6 x0 x1 xt f6
    = if gd3 c i xt then k0_pay21 (k0_pay8 i) (wid3 arg3 harg3 x0) (hid3 arg4 harg4 x1) (kernelRun.sl.v112_3 c i arg3 harg3 arg4 harg4 arg6 x0 x1 xt f6) else kernelRun.sl.v112_3 c i arg3 harg3 arg4 harg4 arg6 x0 x1 xt f6 := by
  unfold kernelRun.sl.v112_4
  exact readAt_guarded_store (gd3 c i xt) _ _ _ _
theorem acc_lv5 : kernelRun.sl.v112_5 c i arg3 harg3 arg4 harg4 arg6 x0 x1 xt f6
    = if gd4 c i xt then k0_pay24 (k0_pay8 i) (wid4 arg3 harg3 x0) (hid4 arg4 harg4 x1) (kernelRun.sl.v112_4 c i arg3 harg3 arg4 harg4 arg6 x0 x1 xt f6) else kernelRun.sl.v112_4 c i arg3 harg3 arg4 harg4 arg6 x0 x1 xt f6 := by
  unfold kernelRun.sl.v112_5
  exact readAt_guarded_store (gd4 c i xt) _ _ _ _
theorem acc_lv6 : kernelRun.sl.v112_6 c i arg3 harg3 arg4 harg4 arg6 x0 x1 xt f6
    = if gd5 c i xt then k0_pay27 (k0_pay8 i) (wid5 arg3 harg3 x0) (hid5 arg4 harg4 x1) (kernelRun.sl.v112_5 c i arg3 harg3 arg4 harg4 arg6 x0 x1 xt f6) else kernelRun.sl.v112_5 c i arg3 harg3 arg4 harg4 arg6 x0 x1 xt f6 := by
  unfold kernelRun.sl.v112_6
  exact readAt_guarded_store (gd5 c i xt) _ _ _ _
theorem acc_lv7 : kernelRun.sl.v112_7 c i arg3 harg3 arg4 harg4 arg6 x0 x1 xt f6
    = if gd6 c i xt then k0_pay2 (k0_pay8 i) (wid6 arg3 harg3 x0) (hid6 arg4 harg4 x1) (kernelRun.sl.v112_6 c i arg3 harg3 arg4 harg4 arg6 x0 x1 xt f6) else kernelRun.sl.v112_6 c i arg3 harg3 arg4 harg4 arg6 x0 x1 xt f6 := by
  unfold kernelRun.sl.v112_7
  exact readAt_guarded_store (gd6 c i xt) _ _ _ _
theorem acc_lv8 : kernelRun.sl.v92 c i arg3 harg3 arg4 harg4 arg6 x0 x1 xt f6
    = if gd7 c i xt then k0_pay5 (k0_pay8 i) (wid7 arg3 harg3 x0) (hid7 arg4 harg4 x1) (kernelRun.sl.v112_7 c i arg3 harg3 arg4 harg4 arg6 x0 x1 xt f6) else kernelRun.sl.v112_7 c i arg3 harg3 arg4 harg4 arg6 x0 x1 xt f6 := by
  unfold kernelRun.sl.v92
  exact readAt_guarded_store (gd7 c i xt) _ _ _ _

theorem cnt_lv1 : kernelRun.sl.v118_1 c i arg3 harg3 arg7 x0 xt f7
    = if gd0 c i xt then k0_pay13 i (wid0 arg3 harg3 x0) (kernelRun.sl.v118 arg7) else kernelRun.sl.v118 arg7 := by
  unfold kernelRun.sl.v118_1 kernelRun.sl.v118
  exact readAt_guarded_store_cons (gd0 c i xt) _ _ _ _ _
theorem cnt_lv2 : kernelRun.sl.v118_2 c i arg3 harg3 arg7 x0 xt f7
    = if gd1 c i xt then k0_pay16 i (wid1 arg3 harg3 x0) (kernelRun.sl.v118_1 c i arg3 harg3 arg7 x0 xt f7) else kernelRun.sl.v118_1 c i arg3 harg3 arg7 x0 xt f7 := by
  unfold kernelRun.sl.v118_2
  exact readAt_guarded_store (gd1 c i xt) _ _ _ _
theorem cnt_lv3 : kernelRun.sl.v118_3 c i arg3 harg3 arg7 x0 xt f7
    = if gd2 c i xt then k0_pay19 (k0_pay8 i) (wid2 arg3 harg3 x0) (kernelRun.sl.v118_2 c i arg3 harg3 arg7 x0 xt f7) else kernelRun.sl.v118_2 c i arg3 harg3 arg7 x0 xt f7 := by
  unfold kernelRun.sl.v118_3
  exact readAt_guarded_store (gd2 c i xt) _ _ _ _
theorem cnt_lv4 : kernelRun.sl.v118_4 c i arg3 harg3 arg7 x0 xt f7
    = if gd3 c i xt then k0_pay22 (k0_pay8 i) (wid3 arg3 harg3 x0) (kernelRun.sl.v118_3 c i arg3 harg3 arg7 x0 xt f7) else kernelRun.sl.v118_3 c i arg3 harg3 arg7 x0 xt f7 := by
  unfold kernelRun.sl.v118_4
  exact readAt_guarded_store (gd3 c i xt) _ _ _ _
theorem cnt_lv5 : kernelRun.sl.v118_5 c i arg3 harg3 arg7 x0 xt f7
    = if gd4 c i xt then k0_pay25 (k0_pay8 i) (wid4 arg3 harg3 x0) (kernelRun.sl.v118_4 c i arg3 harg3 arg7 x0 xt f7) else kernelRun.sl.v118_4 c i arg3 harg3 arg7 x0 xt f7 := by
  unfold kernelRun.sl.v118_5
  exact readAt_guarded_store (gd4 c i xt) _ _ _ _
theorem cnt_lv6 : kernelRun.sl.v118_6 c i arg3 harg3 arg7 x0 xt f7
    = if gd5 c i xt then k0_pay28 (k0_pay8 i) (wid5 arg3 harg3 x0) (kernelRun.sl.v118_5 c i arg3 harg3 arg7 x0 xt f7) else kernelRun.sl.v118_5 c i arg3 harg3 arg7 x0 xt f7 := by
  unfold kernelRun.sl.v118_6
  exact readAt_guarded_store (gd5 c i xt) _ _ _ _
theorem cnt_lv7 : kernelRun.sl.v118_7 c i arg3 harg3 arg7 x0 xt f7
    = if gd6 c i xt then k0_pay3 (k0_pay8 i) (wid6 arg3 harg3 x0) (kernelRun.sl.v118_6 c i arg3 harg3 arg7 x0 xt f7) else kernelRun.sl.v118_6 c i arg3 harg3 arg7 x0 xt f7 := by
  unfold kernelRun.sl.v118_7
  exact readAt_guarded_store (gd6 c i xt) _ _ _ _
theorem cnt_lv8 : kernelRun.sl.v93 c i arg3 harg3 arg7 x0 xt f7
    = if gd7 c i xt then k0_pay6 (k0_pay8 i) (wid7 arg3 harg3 x0) (kernelRun.sl.v118_7 c i arg3 harg3 arg7 x0 xt f7) else kernelRun.sl.v118_7 c i arg3 harg3 arg7 x0 xt f7 := by
  unfold kernelRun.sl.v93
  exact readAt_guarded_store (gd7 c i xt) _ _ _ _

/-! ## The closed forms -/

/-- The sums before any chunk: zero. -/
def accC0 : Vec F S256x768 .f32 := k0_pay9 (F := F)
def accC1 : Vec F S256x768 .f32 :=
  if gd0 c i xt then k0_pay12 i (wid0 arg3 harg3 x0) (hid0 arg4 harg4 x1) (accC0) else accC0
def accC2 : Vec F S256x768 .f32 :=
  if gd1 c i xt then k0_pay15 i (wid1 arg3 harg3 x0) (hid1 arg4 harg4 x1) (accC1 c i arg3 harg3 arg4 harg4 x0 x1 xt) else accC1 c i arg3 harg3 arg4 harg4 x0 x1 xt
def accC3 : Vec F S256x768 .f32 :=
  if gd2 c i xt then k0_pay18 (k0_pay8 i) (wid2 arg3 harg3 x0) (hid2 arg4 harg4 x1) (accC2 c i arg3 harg3 arg4 harg4 x0 x1 xt) else accC2 c i arg3 harg3 arg4 harg4 x0 x1 xt
def accC4 : Vec F S256x768 .f32 :=
  if gd3 c i xt then k0_pay21 (k0_pay8 i) (wid3 arg3 harg3 x0) (hid3 arg4 harg4 x1) (accC3 c i arg3 harg3 arg4 harg4 x0 x1 xt) else accC3 c i arg3 harg3 arg4 harg4 x0 x1 xt
def accC5 : Vec F S256x768 .f32 :=
  if gd4 c i xt then k0_pay24 (k0_pay8 i) (wid4 arg3 harg3 x0) (hid4 arg4 harg4 x1) (accC4 c i arg3 harg3 arg4 harg4 x0 x1 xt) else accC4 c i arg3 harg3 arg4 harg4 x0 x1 xt
def accC6 : Vec F S256x768 .f32 :=
  if gd5 c i xt then k0_pay27 (k0_pay8 i) (wid5 arg3 harg3 x0) (hid5 arg4 harg4 x1) (accC5 c i arg3 harg3 arg4 harg4 x0 x1 xt) else accC5 c i arg3 harg3 arg4 harg4 x0 x1 xt
def accC7 : Vec F S256x768 .f32 :=
  if gd6 c i xt then k0_pay2 (k0_pay8 i) (wid6 arg3 harg3 x0) (hid6 arg4 harg4 x1) (accC6 c i arg3 harg3 arg4 harg4 x0 x1 xt) else accC6 c i arg3 harg3 arg4 harg4 x0 x1 xt
def accC8 : Vec F S256x768 .f32 :=
  if gd7 c i xt then k0_pay5 (k0_pay8 i) (wid7 arg3 harg3 x0) (hid7 arg4 harg4 x1) (accC7 c i arg3 harg3 arg4 harg4 x0 x1 xt) else accC7 c i arg3 harg3 arg4 harg4 x0 x1 xt

/-- The counts before any chunk: zero. -/
def cntC0 : Vec F S256x1 .f32 := k0_pay10 (F := F)
def cntC1 : Vec F S256x1 .f32 :=
  if gd0 c i xt then k0_pay13 i (wid0 arg3 harg3 x0) (cntC0) else cntC0
def cntC2 : Vec F S256x1 .f32 :=
  if gd1 c i xt then k0_pay16 i (wid1 arg3 harg3 x0) (cntC1 c i arg3 harg3 x0 xt) else cntC1 c i arg3 harg3 x0 xt
def cntC3 : Vec F S256x1 .f32 :=
  if gd2 c i xt then k0_pay19 (k0_pay8 i) (wid2 arg3 harg3 x0) (cntC2 c i arg3 harg3 x0 xt) else cntC2 c i arg3 harg3 x0 xt
def cntC4 : Vec F S256x1 .f32 :=
  if gd3 c i xt then k0_pay22 (k0_pay8 i) (wid3 arg3 harg3 x0) (cntC3 c i arg3 harg3 x0 xt) else cntC3 c i arg3 harg3 x0 xt
def cntC5 : Vec F S256x1 .f32 :=
  if gd4 c i xt then k0_pay25 (k0_pay8 i) (wid4 arg3 harg3 x0) (cntC4 c i arg3 harg3 x0 xt) else cntC4 c i arg3 harg3 x0 xt
def cntC6 : Vec F S256x1 .f32 :=
  if gd5 c i xt then k0_pay28 (k0_pay8 i) (wid5 arg3 harg3 x0) (cntC5 c i arg3 harg3 x0 xt) else cntC5 c i arg3 harg3 x0 xt
def cntC7 : Vec F S256x1 .f32 :=
  if gd6 c i xt then k0_pay3 (k0_pay8 i) (wid6 arg3 harg3 x0) (cntC6 c i arg3 harg3 x0 xt) else cntC6 c i arg3 harg3 x0 xt
def cntC8 : Vec F S256x1 .f32 :=
  if gd7 c i xt then k0_pay6 (k0_pay8 i) (wid7 arg3 harg3 x0) (cntC7 c i arg3 harg3 x0 xt) else cntC7 c i arg3 harg3 x0 xt

theorem acc_cl0 : kernelRun.sl.v112 arg6 = accC0 (F := F) := by
  unfold kernelRun.sl.v112 kernelRun.sl.H6_1 accC0
  exact View.readCov_unit_zero _ zero2 _ _
theorem acc_cl1 : kernelRun.sl.v112_1 c i arg3 harg3 arg4 harg4 arg6 x0 x1 xt f6 = accC1 c i arg3 harg3 arg4 harg4 x0 x1 xt := by
  rw [acc_lv1, acc_cl0]; rfl
theorem acc_cl2 : kernelRun.sl.v112_2 c i arg3 harg3 arg4 harg4 arg6 x0 x1 xt f6 = accC2 c i arg3 harg3 arg4 harg4 x0 x1 xt := by
  rw [acc_lv2, acc_cl1]; rfl
theorem acc_cl3 : kernelRun.sl.v112_3 c i arg3 harg3 arg4 harg4 arg6 x0 x1 xt f6 = accC3 c i arg3 harg3 arg4 harg4 x0 x1 xt := by
  rw [acc_lv3, acc_cl2]; rfl
theorem acc_cl4 : kernelRun.sl.v112_4 c i arg3 harg3 arg4 harg4 arg6 x0 x1 xt f6 = accC4 c i arg3 harg3 arg4 harg4 x0 x1 xt := by
  rw [acc_lv4, acc_cl3]; rfl
theorem acc_cl5 : kernelRun.sl.v112_5 c i arg3 harg3 arg4 harg4 arg6 x0 x1 xt f6 = accC5 c i arg3 harg3 arg4 harg4 x0 x1 xt := by
  rw [acc_lv5, acc_cl4]; rfl
theorem acc_cl6 : kernelRun.sl.v112_6 c i arg3 harg3 arg4 harg4 arg6 x0 x1 xt f6 = accC6 c i arg3 harg3 arg4 harg4 x0 x1 xt := by
  rw [acc_lv6, acc_cl5]; rfl
theorem acc_cl7 : kernelRun.sl.v112_7 c i arg3 harg3 arg4 harg4 arg6 x0 x1 xt f6 = accC7 c i arg3 harg3 arg4 harg4 x0 x1 xt := by
  rw [acc_lv7, acc_cl6]; rfl
theorem acc_cl8 : kernelRun.sl.v92 c i arg3 harg3 arg4 harg4 arg6 x0 x1 xt f6 = accC8 c i arg3 harg3 arg4 harg4 x0 x1 xt := by
  rw [acc_lv8, acc_cl7]; rfl

theorem cnt_cl0 : kernelRun.sl.v118 arg7 = cntC0 (F := F) := by
  unfold kernelRun.sl.v118 kernelRun.sl.H7_1 cntC0
  exact View.readCov_unit_zero _ zero2 _ _
theorem cnt_cl1 : kernelRun.sl.v118_1 c i arg3 harg3 arg7 x0 xt f7 = cntC1 c i arg3 harg3 x0 xt := by
  rw [cnt_lv1, cnt_cl0]; rfl
theorem cnt_cl2 : kernelRun.sl.v118_2 c i arg3 harg3 arg7 x0 xt f7 = cntC2 c i arg3 harg3 x0 xt := by
  rw [cnt_lv2, cnt_cl1]; rfl
theorem cnt_cl3 : kernelRun.sl.v118_3 c i arg3 harg3 arg7 x0 xt f7 = cntC3 c i arg3 harg3 x0 xt := by
  rw [cnt_lv3, cnt_cl2]; rfl
theorem cnt_cl4 : kernelRun.sl.v118_4 c i arg3 harg3 arg7 x0 xt f7 = cntC4 c i arg3 harg3 x0 xt := by
  rw [cnt_lv4, cnt_cl3]; rfl
theorem cnt_cl5 : kernelRun.sl.v118_5 c i arg3 harg3 arg7 x0 xt f7 = cntC5 c i arg3 harg3 x0 xt := by
  rw [cnt_lv5, cnt_cl4]; rfl
theorem cnt_cl6 : kernelRun.sl.v118_6 c i arg3 harg3 arg7 x0 xt f7 = cntC6 c i arg3 harg3 x0 xt := by
  rw [cnt_lv6, cnt_cl5]; rfl
theorem cnt_cl7 : kernelRun.sl.v118_7 c i arg3 harg3 arg7 x0 xt f7 = cntC7 c i arg3 harg3 x0 xt := by
  rw [cnt_lv7, cnt_cl6]; rfl
theorem cnt_cl8 : kernelRun.sl.v93 c i arg3 harg3 arg7 x0 xt f7 = cntC8 c i arg3 harg3 x0 xt := by
  rw [cnt_lv8, cnt_cl7]; rfl

/-! ## The output block -/

/-- The body's one store into the output block: the final quotient of the two last loads. -/
theorem pieces_eq :
    (kernelRun c i arg3 harg3 arg4 harg4 arg5 harg5 arg6 harg6 arg7 harg7 x0 x1 xt f6 f7).1
      = [⟨Rect.unit (s := S1x256x768) ![0, 0, 0] S1x256x768.size inb_S1x256x768_S1x256x768_0_0_0,
          k0_pay7 (kernelRun.sl.v92 c i arg3 harg3 arg4 harg4 arg6 x0 x1 xt f6) (kernelRun.sl.v93 c i arg3 harg3 arg7 x0 xt f7)⟩] := rfl

/-- What the output's staging buffer holds after the body, in closed form. -/
def outC : Vec F S1x256x768 .f32 := k0_pay7 (accC8 c i arg3 harg3 arg4 harg4 x0 x1 xt) (cntC8 c i arg3 harg3 x0 xt)

/-- The run's pieces read back are the closed form, whatever the scratch buffers held. -/
theorem outOf_eq :
    VO.read (Elt F) (VO.writes (Elt F) VO.junk (kernelRun c i arg3 harg3 arg4 harg4 arg5 harg5 arg6 harg6 arg7 harg7 x0 x1 xt f6 f7).1)
      = outC c i arg3 harg3 arg4 harg4 x0 x1 xt := by
  rw [pieces_eq, acc_cl8, cnt_cl8]
  rw [View.read_writes_eq_canon _ _ _ (fun y => ⟨_, List.mem_singleton_self _, View.mem_set_unit_zero zero3 inb_S1x256x768_S1x256x768_0_0_0 y⟩),
    View.canon_unit_zero zero3]
  rfl

end Levels

end Cert.KernelIdeal.Hand

end
-- ==== Proof.KI.Frame.lean ====
/-
  The kernel's frame: the proof data of its one pipeline, the body obligation, the launch, and the frame claim.

  After the body at a grid point each input window's staging buffer holds its block still, and the output's holds
  what the body's one store of the whole block wrote (`outAt`, in the closed form of the body's arithmetic). Between points the
  region keeps only the class's invariant — the two scratch buffers at contents nobody names (the body zeroes
  them before it reads them) and the generator register — and its half of the bounds table. With these the
  library's frame run gives: every execution of @main terminates, the output array ends at what the blocks written
  back make of it, and every other buffer, the two arguments among them, ends as the region found it.
-/
import proofs.«407863_j88433376624823_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class's invariant with the two scratch buffers held whole at some raw contents. -/
theorem PhiA_eq (c : Dev nD) : (Pipeline.ΦA spec0 c : sProp 𝕄)
      = iprop(iprop((∃ d f, ⌜accM.view.read (Elt F) f = d⌝ ∗ accM.view.loc (c : Thread nD τ) ↦[accM.view.set]{fullShare} f)
          ∗ (∃ d f, ⌜cntM.view.read (Elt F) f = d⌝ ∗ cntM.view.loc (c : Thread nD τ) ↦[cntM.view.set]{fullShare} f)) ∗ (∃ r, prngReg c r)) := by
  have h : (Pipeline.ΦA spec0 c : sProp 𝕄)
      = iprop(iprop((∃ d, owns (c : Thread nD τ) accM fullShare d) ∗ (∃ d, owns (c : Thread nD τ) cntM fullShare d)) ∗ (∃ r, prngReg c r)) := by
    unfold Pipeline.ΦA; rw [scopedRest0_eq]; simp only [accM, cntM, owns_whole]; try rfl
  rw [h]; unfold owns; rfl

/-- The body's one store covers the output block. -/
theorem cover_out (c : Dev nD) (i : grid0.Coords)
    (arg3 : Memref sig .tc .vmem S1x1x4096 .i32) (harg3 : arg3.IsWhole) (arg4 : Memref sig .tc .vmem S1x4096x768 .f32) (harg4 : arg4.IsWhole)
    (arg5 : Memref sig .tc .vmem S1x256x768 .f32) (harg5 : arg5.IsWhole) (arg6 : Memref sig .tc .vmem S256x768 .f32) (harg6 : arg6.IsWhole)
    (arg7 : Memref sig .tc .vmem S256x1 .f32) (harg7 : arg7.IsWhole)
    (x0 : Vec F S1x1x4096 .i32) (x1 : Vec F S1x4096x768 .f32) (xt : TbBuf (F := F) c tbM)
    (f6 : arg6.view.ty.Contents (Elt F)) (f7 : arg7.view.ty.Contents (Elt F)) (y : S1x256x768.Idx) :
    ∃ pc ∈ (kernelRun c i arg3 harg3 arg4 harg4 arg5 harg5 arg6 harg6 arg7 harg7 x0 x1 xt f6 f7).1, y ∈ pc.1.set := by
  rw [pieces_eq]
  exact ⟨_, List.mem_singleton_self _, View.mem_set_unit_zero zero3 inb_S1x256x768_S1x256x768_0_0_0 y⟩

/-- What the output's staging buffer holds after the body at point `t`. -/
def outAt (c : Dev nD) (t : Fin (cfgM m).N) : Vec F S1x256x768 .f32 :=
  outC c (grid0.coords t) (ms0 m t) (hs0 m t) (ms1 m t) (hs1 m t) (iblk m c 0 t) (iblk m c 1 t) (tbl m 0)

/-! ## The pipeline's proof data -/

/-- The arrays as the region finds them; after the body at point `t` each input's buffer at its block and the
    output's at `outAt`; the class's invariant and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the inputs' memrefs hold their blocks, so the run applies; the scratch buffers and the
    table's half go in and come back; the generator register passes through; the core owes nothing throughout. -/
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq, PhiA_eq]
  unfold outAt
  iintro ⟨⟨⟨⟨⟨%d6, %f6, -, H6⟩, ⟨%d7, %f7, -, H7⟩⟩, Hp⟩, HT⟩, Ho, ⟨%d0, H0⟩, ⟨%d1, H1⟩, ⟨%d2, H2⟩⟩
  iapply ((kernelRun c (grid0.coords t) _ _ _ _ _ _ accM haccM cntM hcntM (iblk m c 0 t) (iblk m c 1 t) (tbl m 0) f6 f7).2 Set.univ _)
  isplitl [H0]; · iexact H0
  isplitl [H1]; · iexact H1
  isplitl [H2]; · iexists _; iexact H2
  isplitl [H6]; · iexact H6
  isplitl [H7]; · iexact H7
  isplitl [HT]; · iexact HT
  iintro ⟨H0, H1, ⟨%e2, H2⟩, ⟨%g6, H6⟩, ⟨%g7, H7⟩, HT⟩
  isplitl [H6 H7 Hp HT]
  · isplitl [H6 H7 Hp]
    · isplitl [H6 H7]
      · isplitl [H6]
        · iexists _, g6; isplitr; · ipureintro; rfl
          iexact H6
        iexists _, g7; isplitr; · ipureintro; rfl
        iexact H7
      iexact Hp
    iexact HT
  isplitl [Ho]; · iexact Ho
  isplitl [H0]; · iexact H0
  isplitl [H1]; · iexact H1
  unfold owns; iexists _; isplitr
  swap; · iexact H2
  ipureintro
  exact (View.read_writes_of_cover _ _ _ _ _ (cover_out c _ _ _ _ _ _ _ _ _ _ _ _ _ _ f6 f7)).trans (outOf_eq c _ _ _ _ _ _ _ _ _ _ _ _ _ _ f6 f7)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame claim's statement at any `F`: the program runs and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Blocks.lean ====
/-
  From blocks to arrays.

  Grid point `t` has coordinates (b, wt): sample `b` and tile `wt` of 256 words. The word-id window's block at
  `t` is the sample's row of ids (the host re-lays the [16, 4096] ids as [16, 1, 4096], and the block is row `b`),
  the embeddings' block is the sample's [4096, 768] slab, and the output's block is rows 256 wt … 256 wt + 255 of
  the sample's [2048, 768] slab. The 128 output blocks tile the output array, so if after each point the output's
  staging buffer holds the block of one whole-array function, the array ends at that function.
-/
import proofs.«407863_j88433376624823_3_alg».proof.Proof.KI.Kit
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-- The sample and the tile of grid point `t`. -/
def ptB (t : Fin (cfgM m).N) : Fin 16 := (grid0.coords t) 0
def ptW (t : Fin (cfgM m).N) : Fin 8 := (grid0.coords t) 1

/-- Row `r` of tile `wt`, as a word of the sample. -/
def tileRow (wt : Fin 8) (r : Fin 256) : Fin 2048 := ⟨256 * wt.val + r.val, by have := wt.2; have := r.2; omega⟩

/-! ## The index maps over the grid -/

/-- The three printed index maps at a grid point, decided over the 128 points: the word-id and the embeddings' windows
    sit at block (b, 0, 0), the output's at block (b, wt, 0). -/
private theorem indexMaps_at : ∀ t : Fin grid0.N,
    cc0_transform_0 (grid0.coords t) (0 : Fin 3) = ((grid0.coords t) 0).val
    ∧ cc0_transform_0 (grid0.coords t) (1 : Fin 3) = 0
    ∧ cc0_transform_0 (grid0.coords t) (2 : Fin 3) = 0
    ∧ cc0_transform_1 (grid0.coords t) (0 : Fin 3) = ((grid0.coords t) 0).val
    ∧ cc0_transform_1 (grid0.coords t) (1 : Fin 3) = 0
    ∧ cc0_transform_1 (grid0.coords t) (2 : Fin 3) = 0
    ∧ cc0_transform_2 (grid0.coords t) (0 : Fin 3) = ((grid0.coords t) 0).val
    ∧ cc0_transform_2 (grid0.coords t) (1 : Fin 3) = ((grid0.coords t) 1).val
    ∧ cc0_transform_2 (grid0.coords t) (2 : Fin 3) = 0 := by
  decide +kernel

/-- The output's block index differs between every point and the next, so every point writes its block back. -/
private theorem outWritesBack_all : ∀ t : Fin grid0.N, Pipeline.Window.flushOf grid0 true cc0_transform_2 t = true := by
  decide +kernel

private theorem outWritesBack (t : Fin (cfgM m).N) : ((cfgM m).win 2).flush t = true := outWritesBack_all t

/-- Every (sample, tile) pair is the coordinates of some grid point. -/
private theorem point_of_sample_tile : ∀ (b : Fin 16) (q : Fin 8), ∃ t : Fin grid0.N,
    ((grid0.coords t) 0).val = b.val ∧ ((grid0.coords t) 1).val = q.val := by
  decide +kernel

/-! ## The input windows -/

/-- The region finds the re-laid ids as the launched ids shape-cast to [16, 1, 4096]: the first host operation writes
    them so, and no later one writes them. -/
private theorem V_relaidIds (c : Dev nD) :
    (V m c main_v0 : S16x1x4096.Idx → Elt F .i32)
      = shapeCast S16x1x4096 (m ((c : Thread nD τ).loc main_arg1) : S16x4096.Idx → Elt F .i32) shapeCasts_S16x4096_S16x1x4096 := by
  dsimp only [V]
  simp only [hostOps0, hostOps0_1, hostOps0_2, List.flatten_cons, List.flatten_nil, List.append_nil, List.cons_append, List.nil_append]
  after_results
  rfl

/-- The [16, 4096] ids re-laid as [16, 1, 4096] and read at (b, 0, s) are the ids at (b, s): both indices have row-major
    position 4096 b + s. -/
private theorem relaidIds_apply {α : Type} (x : S16x4096.Idx → α) (j : S16x1x4096.Idx) (b : Fin 16) (s : Fin 4096)
    (h0 : (j 0).val = b.val) (h1 : (j 1).val = 0) (h2 : (j 2).val = s.val) :
    shapeCast S16x1x4096 x shapeCasts_S16x4096_S16x1x4096 j = x (ix2 b s) := by
  refine shapeCast_apply x _ j (ix2 b s) ?_
  rw [Shape.rowMajor_val_two, Shape.rowMajor_val_three]
  show b.val * 4096 + s.val = ((j 0).val * 1 + (j 1).val) * 4096 + (j 2).val
  omega

/-- The word-id block at point `t` is the sample's row of the launched ids. -/
theorem iblk0_apply (c : Dev nD) (t : Fin (cfgM m).N) (s : Fin 4096) :
    (iblk m c 0 t : Vec F S1x1x4096 .i32) (ix3 (0 : Fin 1) (0 : Fin 1) s)
      = (m ((c : Thread nD τ).loc main_arg1) : IVec S16x4096 32) (ix2 (ptB m t) s) := by
  obtain ⟨e0, e1, e2, -⟩ := indexMaps_at t
  unfold iblk
  show V m c main_v0 ((((cfgM m).win 0).blk t).view.emb (ix3 (0 : Fin 1) (0 : Fin 1) s)) = _
  rw [V_relaidIds]
  -- on each axis the block's element sits at block index × block size + its coordinate inside the block
  refine relaidIds_apply _ _ (ptB m t) s ?_ ?_ ?_
  · show cc0_transform_0 (grid0.coords t) (0 : Fin 3) * 1 + 1 * 0 = ((grid0.coords t) 0).val; omega
  · show cc0_transform_0 (grid0.coords t) (1 : Fin 3) * 1 + 1 * 0 = 0; omega
  · show cc0_transform_0 (grid0.coords t) (2 : Fin 3) * 4096 + 1 * s.val = s.val; omega

/-- The embeddings' block at point `t` is the sample's slab of the launched embeddings. -/
theorem iblk1_apply (c : Dev nD) (t : Fin (cfgM m).N) (s : Fin 4096) (h : Fin 768) :
    (iblk m c 1 t : Vec F S1x4096x768 .f32) (ix3 (0 : Fin 1) s h)
      = (m ((c : Thread nD τ).loc main_arg0) : Vec F S16x4096x768 .f32) (ix3 (ptB m t) s h) := by
  obtain ⟨-, -, -, e0, e1, e2, -, -, -⟩ := indexMaps_at t
  unfold iblk
  show V m c main_arg0 ((((cfgM m).win 1).blk t).view.emb (ix3 (0 : Fin 1) s h)) = _
  rw [V_main_arg0]
  refine congrArg _ (funext fun a => Fin.ext ?_)
  match a with
  | ⟨0, _⟩ => show cc0_transform_1 (grid0.coords t) (0 : Fin 3) * 1 + 1 * 0 = ((grid0.coords t) 0).val; omega
  | ⟨1, _⟩ => show cc0_transform_1 (grid0.coords t) (1 : Fin 3) * 4096 + 1 * s.val = s.val; omega
  | ⟨2, _⟩ => show cc0_transform_1 (grid0.coords t) (2 : Fin 3) * 768 + 1 * h.val = h.val; omega

/-! ## The output window -/

/-- An index of the output array is in point `t`'s block iff each coordinate is in the block's range on its axis. -/
private theorem mem_outBlock (t : Fin (cfgM m).N) (i : S16x2048x768.Idx) :
    i ∈ (((cfgM m).win 2).blk t).view.set
      ↔ ∀ a : Fin 3, cc0_transform_2 (grid0.coords t) a * S1x256x768.size a ≤ (i a).val
          ∧ (i a).val < cc0_transform_2 (grid0.coords t) a * S1x256x768.size a + S1x256x768.size a :=
  (Finset.ext_iff.mp (View.set_slice_whole main_v12 (((cfgM m).win 2).rect t)) i).trans Rect.mem_set_unit

/-- Element (0, r, h) of point `t`'s output block sits in the array at sample b, row 256 wt + r, column h; so what the
    staging buffer holds there is `G` at the element's place in the array. -/
private theorem outBlock_elem {c : Dev nD} (dat : Dat τ (Elt F) Unit ℕ (UR sig nD τ) ℕ (cfgM m) c) (G : Vec F S16x2048x768 .f32)
    (hafter : ∀ (t : Fin (cfgM m).N) (r : Fin 256) (h : Fin 768),
      (dat.after 2 t : Vec F S1x256x768 .f32) (ix3 (0 : Fin 1) r h) = G (ix3 (ptB m t) (tileRow (ptW m t) r) h))
    (t : Fin (cfgM m).N) (y : S1x256x768.Idx) :
    (dat.after 2 t : Vec F S1x256x768 .f32) y = G ((((cfgM m).win 2).blk t).view.emb y) := by
  obtain ⟨-, -, -, -, -, -, e0, e1, e2⟩ := indexMaps_at t
  obtain ⟨z, r, h, rfl⟩ : ∃ (z : Fin 1) (r : Fin 256) (h : Fin 768), y = ix3 z r h := ⟨y 0, y 1, y 2, eq_ix3 y⟩
  obtain rfl : z = 0 := Subsingleton.elim _ _
  rw [hafter t r h]
  refine congrArg G (funext fun a => Fin.ext ?_)
  match a with
  | ⟨0, _⟩ => show ((grid0.coords t) 0).val = cc0_transform_2 (grid0.coords t) (0 : Fin 3) * 1 + 1 * 0; omega
  | ⟨1, _⟩ => show 256 * ((grid0.coords t) 1).val + r.val = cc0_transform_2 (grid0.coords t) (1 : Fin 3) * 256 + 1 * r.val; omega
  | ⟨2, _⟩ => show h.val = cc0_transform_2 (grid0.coords t) (2 : Fin 3) * 768 + 1 * h.val; omega

/-- What point `t` writes back is block `t` of `G`. -/
private theorem outFlushed_eq {c : Dev nD} (dat : Dat τ (Elt F) Unit ℕ (UR sig nD τ) ℕ (cfgM m) c) (G : Vec F S16x2048x768 .f32)
    (hafter : ∀ (t : Fin (cfgM m).N) (r : Fin 256) (h : Fin 768),
      (dat.after 2 t : Vec F S1x256x768 .f32) (ix3 (0 : Fin 1) r h) = G (ix3 (ptB m t) (tileRow (ptW m t) r) h))
    (t : Fin (cfgM m).N) :
    dat.flushed 2 t = (((cfgM m).win 2).blk t).view.read (Elt F) G := by
  funext y
  show (dat.after 2 t : Vec F S1x256x768 .f32) y = G ((((cfgM m).win 2).blk t).view.emb y)
  exact outBlock_elem m dat G hafter t y

/-- The 128 output blocks cover the output array: row w of sample b is in the block of the point (b, w / 256). -/
private theorem outBlocks_cover (i : S16x2048x768.Idx) :
    ∃ t : Fin (cfgM m).N, ((cfgM m).win 2).flush t = true ∧ i ∈ (((cfgM m).win 2).blk t).view.set := by
  have h0 : (i 0).val < 16 := (i 0).isLt
  have h1 : (i 1).val < 2048 := (i 1).isLt
  have h2 : (i 2).val < 768 := (i 2).isLt
  obtain ⟨t, hb, hq⟩ := point_of_sample_tile ⟨(i 0).val, h0⟩ ⟨(i 1).val / 256, by omega⟩
  have hb' : ((grid0.coords t) 0).val = (i 0).val := hb
  have hq' : ((grid0.coords t) 1).val = (i 1).val / 256 := hq
  obtain ⟨-, -, -, -, -, -, e0, e1, e2⟩ := indexMaps_at t
  refine ⟨t, outWritesBack m t, ?_⟩
  rw [mem_outBlock]
  intro a
  match a with
  | ⟨0, _⟩ =>
    show cc0_transform_2 (grid0.coords t) (0 : Fin 3) * 1 ≤ (i 0).val
      ∧ (i 0).val < cc0_transform_2 (grid0.coords t) (0 : Fin 3) * 1 + 1
    omega
  | ⟨1, _⟩ =>
    show cc0_transform_2 (grid0.coords t) (1 : Fin 3) * 256 ≤ (i 1).val
      ∧ (i 1).val < cc0_transform_2 (grid0.coords t) (1 : Fin 3) * 256 + 256
    omega
  | ⟨2, _⟩ =>
    show cc0_transform_2 (grid0.coords t) (2 : Fin 3) * 768 ≤ (i 2).val
      ∧ (i 2).val < cc0_transform_2 (grid0.coords t) (2 : Fin 3) * 768 + 768
    omega

/-- If after every point the output's staging buffer holds the block of `G` — rows 256 wt … of sample b —, the
    output array ends at `G`. -/
theorem arrAt_out_eq {c : Dev nD} (dat : Dat τ (Elt F) Unit ℕ (UR sig nD τ) ℕ (cfgM m) c) (G : Vec F S16x2048x768 .f32)
    (hafter : ∀ (t : Fin (cfgM m).N) (r : Fin 256) (h : Fin 768),
      (dat.after 2 t : Vec F S1x256x768 .f32) (ix3 (0 : Fin 1) r h) = G (ix3 (ptB m t) (tileRow (ptW m t) r) h)) :
    (dat.arrAt 2 (cfgM m).N : Vec F S16x2048x768 .f32) = G :=
  dat.arrAt_eq_of_cover 2 G (fun t _ => outFlushed_eq m dat G hafter t) (outBlocks_cover m)

end Cert.KernelIdeal.Hand

end
-- ==== Proof.KI.Pay.lean ====
/-
  The body's arithmetic, read at an index at the ideal values.

  Row `r` of tile number `wt` (the grid point's second coordinate) answers for the word `256 * wt + r`. For one chunk of 512 tokens the
  one-hot entry (r, s) is one when token `s` of the chunk carries that word and zero otherwise; the chunk's update
  adds to the sums, at (r, h), the sum over the chunk's tokens of the one-hot entry times the token's feature `h`
  (the matrix product, its operands' change of format the identity), and to the counts, at r, the sum of the
  one-hot entries (the lane sum). The last store is the sums over the counts raised to at least one.
-/
import proofs.«407863_j88433376624823_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open Cert.KernelIdeal Cert.KernelIdeal.Gen
open Idealize.ShloMosaic Idealize.ShloMosaic.ValueIdx

/-! ## Layout operations the body uses, read at an index given by coordinates -/

section Layout
variable {α : Type}

/-- An `[a, 1]` column broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The tile's word ids -/

/-- The word row `r` of tile number `wt` answers for, as a 32-bit id. -/
def tileWord (wt : ℕ) (r : Fin 256) : BitVec 32 := BitVec.ofNat 32 (256 * wt + r.val)

/-- The tile's word ids, as the body computes them: the tile's first word plus the row's number. -/
theorem pay8_apply (i : grid0.Coords) (r : Fin 256) : k0_pay8 i (ix2 r (0 : Fin 1)) = tileWord (i 1).val r := by
  unfold k0_pay8 tileWord
  show IntOp.addi (Scalar.muli (BitVec.ofNat 32 (i 1).val) 256#32)
      (iota .tc S256x1 32 [0] iota_S256x1_d0_w32 (ix2 r (0 : Fin 1))) = _
  rw [iota_single_apply]
  show BitVec.ofNat 32 (i 1).val * BitVec.ofNat 32 256 + BitVec.ofNat 32 r.val = BitVec.ofNat 32 (256 * (i 1).val + r.val)
  rw [BitVec.ofNat_add, BitVec.ofNat_mul, BitVec.mul_comm]

/-- The one-hot entry: one if token `s` of the chunk carries row `r`'s word, zero otherwise. -/
def hit (v3 : IVec S256x1 32) (wid : IVec S1x1x512 32) (r : Fin 256) (s : Fin 512) : EReal :=
  if v3 (ix2 r (0 : Fin 1)) = wid (ix3 (0 : Fin 1) (0 : Fin 1) s) then 1 else 0

/-- A chunk's update of the sums. -/
def accUpd (v3 : IVec S256x1 32) (wid : IVec S1x1x512 32) (hc : FVec Ideal S1x512x768 .f32) (a : FVec Ideal S256x768 .f32) :
    FVec Ideal S256x768 .f32 :=
  fun j => a j + ∑ s : Fin 512, hit v3 wid (j 0) s * hc (ix3 (0 : Fin 1) s (j 1))

/-- A chunk's update of the counts. -/
def cntUpd (v3 : IVec S256x1 32) (wid : IVec S1x1x512 32) (n : FVec Ideal S256x1 .f32) : FVec Ideal S256x1 .f32 :=
  fun j => n j + ∑ s : Fin 512, hit v3 wid (j 0) s

/-! ## The one-hot matrix, as the body computes it -/

/-- Two words compared for equality, the bit widened and read as a signed integer at the ideal values: one or zero. -/
theorem sitofp_cmpi_eq (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  by_cases h : x = y
  · have hb : (IntOp.cmpi .eq x y).setWidth 32 = 1#32 := by simp [IntOp.cmpi, h]
    rw [if_pos h, hb]
    norm_num
  · have hb : (IntOp.cmpi .eq x y).setWidth 32 = 0#32 := by simp [IntOp.cmpi, beq_false_of_ne h]
    rw [if_neg h, hb]
    norm_num

/-- The one-hot matrix of a chunk, as the body computes it: the row's word and the chunk's words each spread over the
    matrix, compared, the bit widened and turned into a float. -/
def oneHot (v3 : IVec S256x1 32) (wid : IVec S1x1x512 32) : FVec Ideal S256x512 .f32 :=
  sitofp .f32 (extui 32 (cmpi .eq (broadcastTo S256x512 v3 broadcasts_S256x1_S256x512)
    (broadcastTo S256x512 (shapeCast S1x512 wid shapeCasts_S1x1x512_S1x512) broadcasts_S1x512_S256x512)) natLt_1_32)

theorem oneHot_apply (v3 : IVec S256x1 32) (wid : IVec S1x1x512 32) (r : Fin 256) (s : Fin 512) :
    oneHot v3 wid (ix2 r s) = hit v3 wid r s := by
  unfold oneHot hit
  rw [sitofp_apply, extui_apply]
  show FloatOps.sitofp (F := Ideal) .f32 ((IntOp.cmpi .eq
      (broadcastTo S256x512 v3 broadcasts_S256x1_S256x512 (ix2 r s))
      (broadcastTo S256x512 (shapeCast S1x512 wid shapeCasts_S1x1x512_S1x512) broadcasts_S1x512_S256x512 (ix2 r s))).setWidth 32) = _
  rw [broadcastTo_a1_ab_apply, broadcastTo_1b_ab_apply, shapeCast_1ab_ab_apply, sitofp_cmpi_eq]

/-! ## The matrix product read as a sum over the chunk's tokens -/

/-- The product's operand indices, coordinate by coordinate: the left operand is read at (row, token), -/
theorem dot_lhs_0 (j : S256x768.Idx) (k : dot_S256x512_S512x768_S256x768_1_0_0_1_n_n.contr.Idx) :
    (dot_S256x512_S512x768_S256x768_1_0_0_1_n_n.lhsIdx j k 0 : ℕ) = j 0 := by
  unfold DotDims.lhsIdx
  rw [dif_neg (show ¬(0 : Fin S256x512.rank) ∈ dot_S256x512_S512x768_S256x768_1_0_0_1_n_n.lhsBatch by decide),
    dif_pos (show (0 : Fin S256x512.rank) ∈ dot_S256x512_S512x768_S256x768_1_0_0_1_n_n.lhsNonContracting by decide)]
  rfl
theorem dot_lhs_1 (j : S256x768.Idx) (k : dot_S256x512_S512x768_S256x768_1_0_0_1_n_n.contr.Idx) :
    (dot_S256x512_S512x768_S256x768_1_0_0_1_n_n.lhsIdx j k 1 : ℕ) = k ⟨0, by decide⟩ :=
  dot_S256x512_S512x768_S256x768_1_0_0_1_n_n.lhsIdx_val_of_single (cl := 1) rfl j k
/-- and the right operand at (token, feature). -/
theorem dot_rhs_0 (j : S256x768.Idx) (k : dot_S256x512_S512x768_S256x768_1_0_0_1_n_n.contr.Idx) :
    (dot_S256x512_S512x768_S256x768_1_0_0_1_n_n.rhsIdx j k 0 : ℕ) = k ⟨0, by decide⟩ :=
  dot_S256x512_S512x768_S256x768_1_0_0_1_n_n.rhsIdx_val_of_single (cr := 0) rfl j k
theorem dot_rhs_1 (j : S256x768.Idx) (k : dot_S256x512_S512x768_S256x768_1_0_0_1_n_n.contr.Idx) :
    (dot_S256x512_S512x768_S256x768_1_0_0_1_n_n.rhsIdx j k 1 : ℕ) = j 1 := by
  unfold DotDims.rhsIdx
  rw [dif_neg (show ¬(1 : Fin S512x768.rank) ∈ dot_S256x512_S512x768_S256x768_1_0_0_1_n_n.rhsBatch by decide),
    dif_pos (show (1 : Fin S512x768.rank) ∈ dot_S256x512_S512x768_S256x768_1_0_0_1_n_n.rhsNonContracting by decide)]
  rfl

/-- The matrix product into the zero accumulator, at (row, feature): the sum over the chunk's tokens of the left
    operand at (row, token) times the right operand at (token, feature). -/
theorem matmul_zero_ix2 (L : FVec Ideal S256x512 .bf16) (R : FVec Ideal S512x768 .bf16) (r : Fin 256) (h : Fin 768) :
    matmul dot_S256x512_S512x768_S256x768_1_0_0_1_n_n none L R (constant (F := Ideal) S256x768 .f32 0x00000000#32) (ix2 r h)
      = ∑ s : Fin 512, L (ix2 r s) * R (ix2 s h) := by
  refine (Ideal.matmul_constant_zero_apply dot_S256x512_S512x768_S256x768_1_0_0_1_n_n none L R (ix2 r h)).trans ?_
  rw [← Equiv.sum_comp (contrEquiv1 dot_S256x512_S512x768_S256x768_1_0_0_1_n_n 512 rfl rfl).symm]
  refine Finset.sum_congr rfl fun s _ => ?_
  have hl : dot_S256x512_S512x768_S256x768_1_0_0_1_n_n.lhsIdx (ix2 r h)
      ((contrEquiv1 dot_S256x512_S512x768_S256x768_1_0_0_1_n_n 512 rfl rfl).symm s) = ix2 r s :=
    Shape.idx_ext₂ (dot_lhs_0 _ _) ((dot_lhs_1 _ _).trans (contrEquiv1_symm_val _ _ _ _ s))
  have hr : dot_S256x512_S512x768_S256x768_1_0_0_1_n_n.rhsIdx (ix2 r h)
      ((contrEquiv1 dot_S256x512_S512x768_S256x768_1_0_0_1_n_n 512 rfl rfl).symm s) = ix2 s h :=
    Shape.idx_ext₂ ((dot_rhs_0 _ _).trans (contrEquiv1_symm_val _ _ _ _ s)) (dot_rhs_1 _ _)
  rw [hl, hr]

/-- A chunk's update of the sums, as the body computes it from the one-hot matrix: the old sums plus the product of the
    one-hot matrix and the chunk's embeddings, both operands passed through a change of format. -/
def accBody (oh : FVec Ideal S256x512 .f32) (hc : FVec Ideal S1x512x768 .f32) (a : FVec Ideal S256x768 .f32) :
    FVec Ideal S256x768 .f32 :=
  shapeCast S256x768 (addf a (matmul dot_S256x512_S512x768_S256x768_1_0_0_1_n_n none
    (truncf .bf16 oh bitsLt_bf16_f32)
    (truncf .bf16 (shapeCast S512x768 hc shapeCasts_S1x512x768_S512x768) bitsLt_bf16_f32)
    (constant S256x768 .f32 0x00000000#32))) shapeCasts_S256x768_S256x768

theorem accBody_apply (oh : FVec Ideal S256x512 .f32) (hc : FVec Ideal S1x512x768 .f32) (a : FVec Ideal S256x768 .f32)
    (r : Fin 256) (h : Fin 768) :
    accBody oh hc a (ix2 r h) = a (ix2 r h) + ∑ s : Fin 512, oh (ix2 r s) * hc (ix3 (0 : Fin 1) s h) := by
  unfold accBody
  rw [shapeCast_self, addf_apply, matmul_zero_ix2]
  refine congrArg (a (ix2 r h) + ·) (Finset.sum_congr rfl fun s _ => ?_)
  rw [truncf_apply, truncf_apply, shapeCast_1ab_ab_apply]

theorem accBody_oneHot (v3 : IVec S256x1 32) (wid : IVec S1x1x512 32) (hc : FVec Ideal S1x512x768 .f32)
    (a : FVec Ideal S256x768 .f32) : accBody (oneHot v3 wid) hc a = accUpd v3 wid hc a := by
  funext j
  obtain ⟨r, h, rfl⟩ : ∃ (r : Fin 256) (h : Fin 768), j = ix2 r h := ⟨j 0, j 1, eq_ix2 j⟩
  rw [accBody_apply]
  unfold accUpd
  refine congrArg (a (ix2 r h) + ·) (Finset.sum_congr rfl fun s _ => ?_)
  rw [oneHot_apply]

/-! ## The lane sum read as a sum over the chunk's tokens -/

/-- The sum along the lanes of a `[256, 512]` matrix, at row `r`: the sum over the lanes of the row's entries. -/
theorem laneSum_apply (src : FVec Ideal S256x512 .f32) (hφ : FKind.Formats .f32)
    (hacc : (0x00000000#32 : BitVec 32) = FKind.add.neutral .f32 hφ) (r : Fin 256) :
    multiReduction (F := Ideal) .add [1] S256 src 0x00000000#32 reduces_S256x512_S256 hφ hacc (ix1 r)
      = ∑ s : Fin 512, src (ix2 r s) := by
  refine (Ideal.multiReduction_add_single src _ reduces_S256x512_S256 hφ hacc (ix1 r)).trans ?_
  exact Finset.sum_congr rfl fun s _ => congrArg src (Shape.idx_ext₂ rfl rfl)

/-- A chunk's update of the counts, as the body computes it from the one-hot matrix: the old counts plus the lane sums
    of the one-hot matrix, laid out as a column. -/
def cntBody (oh : FVec Ideal S256x512 .f32) (n : FVec Ideal S256x1 .f32) : FVec Ideal S256x1 .f32 :=
  shapeCast S256x1 (addf n (shapeCast S256x1
    (multiReduction (F := Ideal) .add [1] S256 oh 0x00000000#32 reduces_S256x512_S256 (.inl rfl) rfl)
    shapeCasts_S256_S256x1)) shapeCasts_S256x1_S256x1

theorem cntBody_apply (oh : FVec Ideal S256x512 .f32) (n : FVec Ideal S256x1 .f32) (r : Fin 256) (u : Fin 1) :
    cntBody oh n (ix2 r u) = n (ix2 r u) + ∑ s : Fin 512, oh (ix2 r s) := by
  unfold cntBody
  rw [shapeCast_self, addf_apply, shapeCast_a_a1_apply]
  exact congrArg (n (ix2 r u) + ·) (laneSum_apply oh _ _ r)

theorem cntBody_oneHot (v3 : IVec S256x1 32) (wid : IVec S1x1x512 32) (n : FVec Ideal S256x1 .f32) :
    cntBody (oneHot v3 wid) n = cntUpd v3 wid n := by
  funext j
  obtain ⟨r, u, rfl⟩ : ∃ (r : Fin 256) (u : Fin 1), j = ix2 r u := ⟨j 0, j 1, eq_ix2 j⟩
  rw [cntBody_apply]
  unfold cntUpd
  refine congrArg (n (ix2 r u) + ·) (Finset.sum_congr rfl fun s _ => ?_)
  rw [oneHot_apply]

/-! The eight chunks' copies of the sums' update are one function. -/
theorem pay12_eq (i : grid0.Coords) (wid : IVec S1x1x512 32) (hc : FVec Ideal S1x512x768 .f32) (a : FVec Ideal S256x768 .f32) :
    k0_pay12 (F := Ideal) i wid hc a = accUpd (k0_pay8 i) wid hc a := by
  exact (show k0_pay12 (F := Ideal) i wid hc a = accBody (oneHot (k0_pay8 i) wid) hc a from rfl).trans
    (accBody_oneHot _ _ _ _)
theorem pay15_eq (i : grid0.Coords) (wid : IVec S1x1x512 32) (hc : FVec Ideal S1x512x768 .f32) (a : FVec Ideal S256x768 .f32) :
    k0_pay15 (F := Ideal) i wid hc a = accUpd (k0_pay8 i) wid hc a := by
  exact (show k0_pay15 (F := Ideal) i wid hc a = accBody (oneHot (k0_pay8 i) wid) hc a from rfl).trans
    (accBody_oneHot _ _ _ _)
theorem pay18_eq (v3 : IVec S256x1 32) (wid : IVec S1x1x512 32) (hc : FVec Ideal S1x512x768 .f32) (a : FVec Ideal S256x768 .f32) :
    k0_pay18 (F := Ideal) v3 wid hc a = accUpd v3 wid hc a := by
  exact (show k0_pay18 (F := Ideal) v3 wid hc a = accBody (oneHot v3 wid) hc a from rfl).trans
    (accBody_oneHot _ _ _ _)
theorem pay21_eq (v3 : IVec S256x1 32) (wid : IVec S1x1x512 32) (hc : FVec Ideal S1x512x768 .f32) (a : FVec Ideal S256x768 .f32) :
    k0_pay21 (F := Ideal) v3 wid hc a = accUpd v3 wid hc a := by
  exact (show k0_pay21 (F := Ideal) v3 wid hc a = accBody (oneHot v3 wid) hc a from rfl).trans
    (accBody_oneHot _ _ _ _)
theorem pay24_eq (v3 : IVec S256x1 32) (wid : IVec S1x1x512 32) (hc : FVec Ideal S1x512x768 .f32) (a : FVec Ideal S256x768 .f32) :
    k0_pay24 (F := Ideal) v3 wid hc a = accUpd v3 wid hc a := by
  exact (show k0_pay24 (F := Ideal) v3 wid hc a = accBody (oneHot v3 wid) hc a from rfl).trans
    (accBody_oneHot _ _ _ _)
theorem pay27_eq (v3 : IVec S256x1 32) (wid : IVec S1x1x512 32) (hc : FVec Ideal S1x512x768 .f32) (a : FVec Ideal S256x768 .f32) :
    k0_pay27 (F := Ideal) v3 wid hc a = accUpd v3 wid hc a := by
  exact (show k0_pay27 (F := Ideal) v3 wid hc a = accBody (oneHot v3 wid) hc a from rfl).trans
    (accBody_oneHot _ _ _ _)
theorem pay2_eq (v3 : IVec S256x1 32) (wid : IVec S1x1x512 32) (hc : FVec Ideal S1x512x768 .f32) (a : FVec Ideal S256x768 .f32) :
    k0_pay2 (F := Ideal) v3 wid hc a = accUpd v3 wid hc a := by
  exact (show k0_pay2 (F := Ideal) v3 wid hc a = accBody (oneHot v3 wid) hc a from rfl).trans
    (accBody_oneHot _ _ _ _)
theorem pay5_eq (v3 : IVec S256x1 32) (wid : IVec S1x1x512 32) (hc : FVec Ideal S1x512x768 .f32) (a : FVec Ideal S256x768 .f32) :
    k0_pay5 (F := Ideal) v3 wid hc a = accUpd v3 wid hc a := by
  exact (show k0_pay5 (F := Ideal) v3 wid hc a = accBody (oneHot v3 wid) hc a from rfl).trans
    (accBody_oneHot _ _ _ _)

/-! The eight chunks' copies of the counts' update are one function. -/
theorem pay13_eq (i : grid0.Coords) (wid : IVec S1x1x512 32) (n : FVec Ideal S256x1 .f32) :
    k0_pay13 (F := Ideal) i wid n = cntUpd (k0_pay8 i) wid n := by
  exact (show k0_pay13 (F := Ideal) i wid n = cntBody (oneHot (k0_pay8 i) wid) n from rfl).trans
    (cntBody_oneHot _ _ _)
theorem pay16_eq (i : grid0.Coords) (wid : IVec S1x1x512 32) (n : FVec Ideal S256x1 .f32) :
    k0_pay16 (F := Ideal) i wid n = cntUpd (k0_pay8 i) wid n := by
  exact (show k0_pay16 (F := Ideal) i wid n = cntBody (oneHot (k0_pay8 i) wid) n from rfl).trans
    (cntBody_oneHot _ _ _)
theorem pay19_eq (v3 : IVec S256x1 32) (wid : IVec S1x1x512 32) (n : FVec Ideal S256x1 .f32) :
    k0_pay19 (F := Ideal) v3 wid n = cntUpd v3 wid n := by
  exact (show k0_pay19 (F := Ideal) v3 wid n = cntBody (oneHot v3 wid) n from rfl).trans
    (cntBody_oneHot _ _ _)
theorem pay22_eq (v3 : IVec S256x1 32) (wid : IVec S1x1x512 32) (n : FVec Ideal S256x1 .f32) :
    k0_pay22 (F := Ideal) v3 wid n = cntUpd v3 wid n := by
  exact (show k0_pay22 (F := Ideal) v3 wid n = cntBody (oneHot v3 wid) n from rfl).trans
    (cntBody_oneHot _ _ _)
theorem pay25_eq (v3 : IVec S256x1 32) (wid : IVec S1x1x512 32) (n : FVec Ideal S256x1 .f32) :
    k0_pay25 (F := Ideal) v3 wid n = cntUpd v3 wid n := by
  exact (show k0_pay25 (F := Ideal) v3 wid n = cntBody (oneHot v3 wid) n from rfl).trans
    (cntBody_oneHot _ _ _)
theorem pay28_eq (v3 : IVec S256x1 32) (wid : IVec S1x1x512 32) (n : FVec Ideal S256x1 .f32) :
    k0_pay28 (F := Ideal) v3 wid n = cntUpd v3 wid n := by
  exact (show k0_pay28 (F := Ideal) v3 wid n = cntBody (oneHot v3 wid) n from rfl).trans
    (cntBody_oneHot _ _ _)
theorem pay3_eq (v3 : IVec S256x1 32) (wid : IVec S1x1x512 32) (n : FVec Ideal S256x1 .f32) :
    k0_pay3 (F := Ideal) v3 wid n = cntUpd v3 wid n := by
  exact (show k0_pay3 (F := Ideal) v3 wid n = cntBody (oneHot v3 wid) n from rfl).trans
    (cntBody_oneHot _ _ _)
theorem pay6_eq (v3 : IVec S256x1 32) (wid : IVec S1x1x512 32) (n : FVec Ideal S256x1 .f32) :
    k0_pay6 (F := Ideal) v3 wid n = cntUpd v3 wid n := by
  exact (show k0_pay6 (F := Ideal) v3 wid n = cntBody (oneHot v3 wid) n from rfl).trans
    (cntBody_oneHot _ _ _)

/-- The last store: the sums over the counts raised to at least one. -/
theorem pay7_apply (a : FVec Ideal S256x768 .f32) (n : FVec Ideal S256x1 .f32) (r : Fin 256) (h : Fin 768) :
    k0_pay7 (F := Ideal) a n (ix3 (0 : Fin 1) r h) = Ideal.div (a (ix2 r h)) (max (n (ix2 r (0 : Fin 1))) 1) := by
  unfold k0_pay7
  rw [shapeCast_ab_1ab_apply, divf_apply, broadcastTo_a1_ab_apply, maximumf_apply, broadcast_apply]
  show Ideal.div _ (max _ (Ideal.ofBits .f32 0x3F800000#32)) = _
  rw [Ideal.ofBits_one_f32]

/-- The scratch buffers start each point at zero. -/
theorem pay9_eq : k0_pay9 (F := Ideal) = fun _ => (0 : EReal) := by
  funext j
  show shapeCast S256x768 (broadcast S256x768 (Ideal.ofBits .f32 0x00000000#32)) shapeCasts_S256x768_S256x768 j = 0
  rw [shapeCast_self, broadcast_apply, Ideal.ofBits_zero_f32]
theorem pay10_eq : k0_pay10 (F := Ideal) = fun _ => (0 : EReal) := by
  funext j
  show shapeCast S256x1 (broadcast S256x1 (Ideal.ofBits .f32 0x00000000#32)) shapeCasts_S256x1_S256x1 j = 0
  rw [shapeCast_self, broadcast_apply, Ideal.ofBits_zero_f32]

end Cert.KernelIdeal.Hand

end
-- ==== Proof.KI.Table.lean ====
/-
  The bounds table and why a chunk may be skipped.

  Before the region @main computes, per sample `b` and chunk `k` of 512 tokens, two words: the least of the
  chunk's ids with every negative id counted as 2048 (entry 2k of row b) and the greatest of the chunk's ids (entry
  2k + 1). The body tests a chunk against tile `wt` by these two: greatest ≥ 256 wt and least < 256 wt + 256, as
  signed words. If a token of the chunk carries a word of the tile, that word is non-negative, so it is at least
  the least and at most the greatest, and the test succeeds. Read the other way: when the test fails, no token of
  the chunk carries any word of the tile.
-/
import proofs.«407863_j88433376624823_3_alg».proof.Proof.KI.Kit
import proofs.«407863_j88433376624823_3_alg».proof.Proof.KI.Pay
import Idealize.ShloMosaic.Lib.StableHlo.Predicate
import Idealize.ShloMosaic.Lib.StableHlo.Run
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The word ids as launched (the program runs on one device). -/
abbrev idsOf : IVec S16x4096 32 := m (((0 : Dev nD) : Thread nD τ).loc main_arg1)

/-- Token `s` of chunk `k`, as a position in the sample's 4096 tokens. -/
def tok (k : Fin 8) (s : Fin 512) : Fin 4096 := ⟨512 * k.val + s.val, by have := k.2; have := s.2; omega⟩
/-- The table's columns for chunk `k`: the least at 2k, the greatest at 2k + 1. -/
def colMin (k : Fin 8) : Fin 16 := ⟨2 * k.val, by have := k.2; omega⟩
def colMax (k : Fin 8) : Fin 16 := ⟨2 * k.val + 1, by have := k.2; omega⟩

/-! ## Signed least and greatest of a family of words -/

/-- A word is signed-≤ the lesser of two exactly when it is signed-≤ both. -/
private theorem sle_minsi_iff {w : ℕ} (c y z : BitVec w) :
    c.sle (IntOp.minsi y z) = true ↔ c.sle y = true ∧ c.sle z = true := by
  unfold IntOp.minsi
  split <;> rename_i h <;> simp only [BitVec.sle, BitVec.slt, decide_eq_true_eq] at h ⊢ <;> omega

/-- The greater of two words is signed-≤ a word exactly when both are. -/
private theorem maxsi_sle_iff {w : ℕ} (c y z : BitVec w) :
    (IntOp.maxsi y z).sle c = true ↔ y.sle c = true ∧ z.sle c = true := by
  unfold IntOp.maxsi
  split <;> rename_i h <;> simp only [BitVec.sle, BitVec.slt, decide_eq_true_eq] at h ⊢ <;> omega

/-- The signed least of a family, folded from any start, is signed-≤ every member. -/
private theorem fold_minsi_sle {w : ℕ} {ι : Type} [DecidableEq ι] (S : Finset ι) (f : ι → BitVec w) (init : BitVec w)
    (i : ι) (hi : i ∈ S) : (S.fold IntOp.minsi init f).sle (f i) = true :=
  ((Finset.fold_op_rel_iff_and (op := IntOp.minsi) (r := fun c y => c.sle y = true)
    (fun {x y z} => sle_minsi_iff x y z) (c := S.fold IntOp.minsi init f) (b := init) (f := f) (s := S)).mp
      (by simp only [BitVec.sle, decide_eq_true_eq]; exact le_refl _)).2 i hi

/-- Every member is signed-≤ the signed greatest of the family, folded from any start. -/
private theorem sle_fold_maxsi {w : ℕ} {ι : Type} [DecidableEq ι] (S : Finset ι) (f : ι → BitVec w) (init : BitVec w)
    (i : ι) (hi : i ∈ S) : (f i).sle (S.fold IntOp.maxsi init f) = true :=
  ((Finset.fold_op_rel_iff_and (op := IntOp.maxsi) (r := fun c y => y.sle c = true)
    (fun {x y z} => maxsi_sle_iff x y z) (c := S.fold IntOp.maxsi init f) (b := init) (f := f) (s := S)).mp
      (by simp only [BitVec.sle, decide_eq_true_eq]; exact le_refl _)).2 i hi

/-! ## The host operations read at an index -/

private theorem reduces512 : S16x8x512.Reduces [2] S16x8 := by decide

/-- Over chunk (b, k), the index the reduction's coordinate s names is (b, k, s). -/
private theorem lift512 (b : Fin 16) (k : Fin 8) (s : Fin 512) : reduces512.lift (ix2 b k) s = ix3 b k s := by
  funext c; match c with | ⟨0, _⟩ => rfl | ⟨1, _⟩ => rfl | ⟨2, _⟩ => rfl

/-- The signed least over a chunk is signed-≤ each of the chunk's entries. -/
private theorem reduce_minsi_sle (X : IVec S16x8x512 32) (init : IVec S_ 32) (b : Fin 16) (k : Fin 8) (s : Fin 512) :
    (Host.reduce IntOp.minsi X init reducesTo_S16x8x512_S16x8_d2 h_S_ (ix2 b k)).sle (X (ix3 b k s)) = true := by
  rw [Host.reduce_eq_fold_single IntOp.minsi X init reducesTo_S16x8x512_S16x8_d2 reduces512 h_S_ (ix2 b k)]
  rw [show X (ix3 b k s) = (X ∘ reduces512.lift (ix2 b k)) s from congrArg X (lift512 b k s).symm]
  exact fold_minsi_sle Finset.univ (X ∘ reduces512.lift (ix2 b k)) (init (Shape.Idx.first h_S_)) s (Finset.mem_univ _)

/-- Each of a chunk's entries is signed-≤ the signed greatest over the chunk. -/
private theorem sle_reduce_maxsi (X : IVec S16x8x512 32) (init : IVec S_ 32) (b : Fin 16) (k : Fin 8) (s : Fin 512) :
    (X (ix3 b k s)).sle (Host.reduce IntOp.maxsi X init reducesTo_S16x8x512_S16x8_d2 h_S_ (ix2 b k)) = true := by
  rw [Host.reduce_eq_fold_single IntOp.maxsi X init reducesTo_S16x8x512_S16x8_d2 reduces512 h_S_ (ix2 b k)]
  rw [show X (ix3 b k s) = (X ∘ reduces512.lift (ix2 b k)) s from congrArg X (lift512 b k s).symm]
  exact sle_fold_maxsi Finset.univ (X ∘ reduces512.lift (ix2 b k)) (init (Shape.Idx.first h_S_)) s (Finset.mem_univ _)

/-- A sample's 4096 tokens re-laid as 8 chunks of 512: entry (b, k, s) is token 512 k + s. -/
private theorem chunks_apply {α : Type} (X : S16x4096.Idx → α) (b : Fin 16) (k : Fin 8) (s : Fin 512) :
    shapeCast S16x8x512 X shapeCasts_S16x4096_S16x8x512 (ix3 b k s) = X (ix2 b (tok k s)) :=
  shapeCast_apply X _ _ _ (by
    rw [Shape.rowMajor_val_two, Shape.rowMajor_val_three]
    show b.val * 4096 + (512 * k.val + s.val) = (b.val * 8 + k.val) * 512 + s.val
    omega)

/-- The [16, 8, 2] array re-laid as [16, 16]: entry (b, 2 k + c) is entry (b, k, c). -/
private theorem pairs_apply {α : Type} (C : S16x8x2.Idx → α) (b : Fin 16) (k : Fin 8) (c : Fin 2) (q : Fin 16)
    (hq : q.val = 2 * k.val + c.val) :
    shapeCast S16x16 C shapeCasts_S16x8x2_S16x16 (ix2 b q) = C (ix3 b k c) :=
  shapeCast_apply C _ _ _ (by
    rw [Shape.rowMajor_val_three, Shape.rowMajor_val_two]
    show (b.val * 8 + k.val) * 2 + c.val = b.val * 16 + q.val
    omega)

/-- The two [16, 8, 1] pieces side by side: entry (b, k, 0) is the first piece's, (b, k, 1) the second's. -/
private theorem concat_fst {α : Type} (A B : S16x8x1.Idx → α) (b : Fin 16) (k : Fin 8) :
    concatenate S16x8x2 2 [⟨S16x8x1, A⟩, ⟨S16x8x1, B⟩] concatenates_S16x8x1_S16x8x1_S16x8x2_d2 (ix3 b k (0 : Fin 2))
      = A (ix3 b k (0 : Fin 1)) :=
  concatenate_pair_apply_left (t := S16x8x2) 2 A B _ _ rfl _ (fun c => match c with | ⟨0, _⟩ => rfl | ⟨1, _⟩ => rfl | ⟨2, _⟩ => rfl)
private theorem concat_snd {α : Type} (A B : S16x8x1.Idx → α) (b : Fin 16) (k : Fin 8) :
    concatenate S16x8x2 2 [⟨S16x8x1, A⟩, ⟨S16x8x1, B⟩] concatenates_S16x8x1_S16x8x1_S16x8x2_d2 (ix3 b k (1 : Fin 2))
      = B (ix3 b k (0 : Fin 1)) :=
  concatenate_pair_apply_right (t := S16x8x2) 2 A B _ _ rfl rfl _
    (fun c => match c with | ⟨0, _⟩ => fun _ => rfl | ⟨1, _⟩ => fun _ => rfl | ⟨2, _⟩ => fun h => absurd rfl h) rfl

/-- A [16, 8] array given a trailing unit axis. -/
private theorem unit_apply {α : Type} (R : S16x8.Idx → α) (b : Fin 16) (k : Fin 8) (u : Fin 1) :
    broadcastInDim S16x8x1 ![0, 1] bcast_S16x8_S16x8x1_0_1 R (ix3 b k u) = R (ix2 b k) :=
  broadcastInDim_apply _ _ R _ _ (fun a => match a with | ⟨0, _⟩ => rfl | ⟨1, _⟩ => rfl)

/-- The ids with every negative one replaced by 2048. -/
private def raised (ids : IVec S16x4096 32) : IVec S16x4096 32 :=
  select (cmpi .sge ids (broadcastInDim S16x4096 ![] bcast_S_S16x4096 (constantI S_ 32 0#32))) ids
    (broadcastInDim S16x4096 ![] bcast_S_S16x4096 (constantI S_ 32 2048#32))

private theorem raised_apply (ids : IVec S16x4096 32) (j : S16x4096.Idx) :
    raised ids j = if (0#32).sle (ids j) then ids j else 2048#32 := by
  unfold raised
  rw [select_apply]
  show Scalar.select (IntOp.cmpi .sge (ids j) (broadcastInDim S16x4096 ![] bcast_S_S16x4096 (constantI S_ 32 0#32) j)) (ids j)
    (broadcastInDim S16x4096 ![] bcast_S_S16x4096 (constantI S_ 32 2048#32) j) = _
  rw [broadcastInDim_scalar_apply, broadcastInDim_scalar_apply, constantI_apply, constantI_apply]
  unfold Scalar.select IntOp.cmpi
  cases (0#32).sle (ids j) <;> rfl

/-! ## The table from the ids -/

/-- The table as the host operations compute it from the word ids: per sample and chunk, the signed least of the
    raised ids beside the signed greatest of the ids, the pairs laid along a row. -/
private def tblOf (ids : IVec S16x4096 32) : IVec S16x16 32 :=
  shapeCast S16x16
    (concatenate S16x8x2 2
      [⟨S16x8x1, broadcastInDim S16x8x1 ![0, 1] bcast_S16x8_S16x8x1_0_1
          (Host.reduce IntOp.minsi (shapeCast S16x8x512 (raised ids) shapeCasts_S16x4096_S16x8x512)
            (constantI S_ 32 2147483647#32) reducesTo_S16x8x512_S16x8_d2 h_S_)⟩,
       ⟨S16x8x1, broadcastInDim S16x8x1 ![0, 1] bcast_S16x8_S16x8x1_0_1
          (Host.reduce IntOp.maxsi (shapeCast S16x8x512 ids shapeCasts_S16x4096_S16x8x512)
            (constantI S_ 32 2147483648#32) reducesTo_S16x8x512_S16x8_d2 h_S_)⟩]
      concatenates_S16x8x1_S16x8x1_S16x8x2_d2)
    shapeCasts_S16x8x2_S16x16

/-- Entry (b, 2k) is signed-≤ every raised id of chunk k of sample b. -/
private theorem tblOf_min_le (ids : IVec S16x4096 32) (b : Fin 16) (k : Fin 8) (s : Fin 512) :
    (tblOf ids (ix2 b (colMin k))).sle
      (if (0#32).sle (ids (ix2 b (tok k s))) then ids (ix2 b (tok k s)) else 2048#32) = true := by
  have h := reduce_minsi_sle (shapeCast S16x8x512 (raised ids) shapeCasts_S16x4096_S16x8x512)
    (constantI S_ 32 2147483647#32) b k s
  rw [chunks_apply, raised_apply] at h
  unfold tblOf
  rw [pairs_apply _ b k (0 : Fin 2) (colMin k) rfl, concat_fst, unit_apply]
  exact h

/-- Every id of chunk k of sample b is signed-≤ entry (b, 2k + 1). -/
private theorem tblOf_max_ge (ids : IVec S16x4096 32) (b : Fin 16) (k : Fin 8) (s : Fin 512) :
    (ids (ix2 b (tok k s))).sle (tblOf ids (ix2 b (colMax k))) = true := by
  have h := sle_reduce_maxsi (shapeCast S16x8x512 ids shapeCasts_S16x4096_S16x8x512)
    (constantI S_ 32 2147483648#32) b k s
  rw [chunks_apply] at h
  unfold tblOf
  rw [pairs_apply _ b k (1 : Fin 2) (colMax k) rfl, concat_snd, unit_apply]
  exact h

/-- The table the region finds is that function of the ids as launched: the three stretches of host operations,
    each result read at its own buffer. -/
private theorem tbl_eq : tbl m 0 = tblOf (idsOf m) := by
  show (V m 0 main_v11 : IVec S16x16 32) = _
  dsimp only [V]
  simp only [hostOps0, hostOps0_1, hostOps0_2, List.flatten_cons, List.flatten_nil, List.append_nil, List.cons_append,
    List.nil_append]
  open StableHlo in after_results
  rfl

/-- The table's least is at most every id of the chunk, a negative id counted as 2048 (signed order). -/
theorem tbl_min_le (b : Fin 16) (k : Fin 8) (s : Fin 512) :
    (tbl m 0 (ix2 b (colMin k))).sle
      (if (0#32).sle (idsOf m (ix2 b (tok k s))) then idsOf m (ix2 b (tok k s)) else 2048#32) = true := by
  rw [tbl_eq]
  exact tblOf_min_le _ b k s

/-- The table's greatest is at least every id of the chunk (signed order). -/
theorem tbl_max_ge (b : Fin 16) (k : Fin 8) (s : Fin 512) :
    (idsOf m (ix2 b (tok k s))).sle (tbl m 0 (ix2 b (colMax k))) = true := by
  rw [tbl_eq]
  exact tblOf_max_ge _ b k s

/-- The chunk's test against tile `wt`, as the body computes it from the chunk's two bounds. -/
def guard (wt : ℕ) (cmin cmax : BitVec 32) : BitVec 1 :=
  Scalar.cmpi .ne (Scalar.extui (Scalar.andi (Scalar.cmpi .sge cmax (Scalar.muli (BitVec.ofNat 32 wt) 256#32))
    (Scalar.cmpi .slt cmin (Scalar.addi (Scalar.muli (BitVec.ofNat 32 wt) 256#32) 256#32)))) 0#32

/-- A word the two bounds enclose, carried by a row of tile `wt`, makes the test succeed; so a failed test leaves
    no such word. -/
theorem ne_tileWord_of_guard (wt : ℕ) (hwt : wt < 8) (cmin cmax id : BitVec 32) (r : Fin 256)
    (hmin : cmin.sle (if (0#32).sle id then id else 2048#32) = true) (hmax : id.sle cmax = true)
    (hg : guard wt cmin cmax ≠ 1#1) : id ≠ tileWord wt r := by
  intro e
  apply hg
  have hr := r.isLt
  -- the tile's first word, 256 wt, and the word after its last, 256 wt + 256, as numbers: nothing wraps
  have hlo : Scalar.muli (BitVec.ofNat 32 wt) 256#32 = BitVec.ofNat 32 (256 * wt) := by
    apply BitVec.eq_of_toNat_eq
    simp only [Scalar.muli, IntOp.muli, BitVec.toNat_mul, BitVec.toNat_ofNat]
    omega
  have hhi : Scalar.addi (BitVec.ofNat 32 (256 * wt)) 256#32 = BitVec.ofNat 32 (256 * wt + 256) := by
    apply BitVec.eq_of_toNat_eq
    simp only [Scalar.addi, IntOp.addi, BitVec.toNat_add, BitVec.toNat_ofNat]
    omega
  -- the word of row r of the tile, read as a signed number, is 256 wt + r
  have iid : id.toInt = ((256 * wt + r.val : ℕ) : ℤ) := by
    rw [e, tileWord]; exact StableHlo.Predicate.toInt_ofNat_small _ (by omega)
  have ilo : (BitVec.ofNat 32 (256 * wt)).toInt = ((256 * wt : ℕ) : ℤ) :=
    StableHlo.Predicate.toInt_ofNat_small _ (by omega)
  have ihi : (BitVec.ofNat 32 (256 * wt + 256)).toInt = ((256 * wt + 256 : ℕ) : ℤ) :=
    StableHlo.Predicate.toInt_ofNat_small _ (by omega)
  have i0 : (0#32 : BitVec 32).toInt = 0 := by decide
  -- it is non-negative, so the least is at most it
  have hnn : (0#32).sle id = true := by
    simp only [BitVec.sle, i0, iid, decide_eq_true_eq]; omega
  rw [if_pos hnn] at hmin
  simp only [BitVec.sle, decide_eq_true_eq] at hmin hmax
  -- greatest ≥ 256 wt, and least < 256 wt + 256
  have h1 : (BitVec.ofNat 32 (256 * wt)).sle cmax = true := by
    simp only [BitVec.sle, ilo, decide_eq_true_eq]; omega
  have h2 : cmin.slt (BitVec.ofNat 32 (256 * wt + 256)) = true := by
    simp only [BitVec.slt, ihi, decide_eq_true_eq]; omega
  unfold guard
  rw [hlo, hhi]
  simp only [Scalar.cmpi, IntOp.cmpi, h1, h2]
  decide

/-- When chunk `k`'s test against tile `wt` fails at sample `b`, no token of the chunk carries a word of the tile. -/
theorem chunk_no_hit (b : Fin 16) (wt : ℕ) (hwt : wt < 8) (k : Fin 8)
    (hg : guard wt (tbl m 0 (ix2 b (colMin k))) (tbl m 0 (ix2 b (colMax k))) ≠ 1#1) (r : Fin 256) (s : Fin 512) :
    idsOf m (ix2 b (tok k s)) ≠ tileWord wt r :=
  ne_tileWord_of_guard wt hwt _ _ _ r (tbl_min_le m b k s) (tbl_max_ge m b k s) hg

end Cert.KernelIdeal.Hand

end
-- ==== Proof.KI.Chunks.lean ====
/-
  The eight chunks, read in terms of the launched arguments.

  At grid point `t` = (b, wt) the body loads chunk `k`'s 512 ids from the staged row of sample `b` at offset 512 k,
  its 512 embeddings from the staged slab at row offset 512 k, and the chunk's two bounds from row `b` of the
  table at columns 2 k and 2 k + 1. Since the staged blocks are the sample's row and slab of the launched arrays,
  these are the launched ids and embeddings at tokens 512 k + s, and the guard is the test of the table's two
  entries against tile `wt`.
-/
import proofs.«407863_j88433376624823_3_alg».proof.Proof.KI.Fold
import proofs.«407863_j88433376624823_3_alg».proof.Proof.KI.Blocks
import proofs.«407863_j88433376624823_3_alg».proof.Proof.KI.Table

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## Three reads, stated once

A load through a unit-stride box of a whole staging buffer, or of the table's own whole view, reads the contents at
the box's offset plus the local coordinate on every axis. At offset 512 k along the token axis of a staged block this
is token 512 k + s of the sample; at row b and column q of the table it is entry (b, q). -/

section Generic

variable {sig' : RefSig} {κ : Kind} {sp : Space} {S : Shape} {e : EltTy} {Val : EltTy → Type}

/-- A load through a unit-stride box of a whole memref held at the contents that read `X` reads `X` at the
    box's offset plus the local coordinate, axis by axis. -/
private theorem readAt_unit_unread {M : Memref sig' κ sp S e} (hM : M.IsWhole) (X : S.Idx → Val e)
    (off size : Fin S.rank → ℕ) (inb : ∀ a, off a + size a ≤ S.size a)
    (x : (Rect.unit (s := S) off size inb).shape.Idx) (y : S.Idx) (hy : ∀ a, (y a).val = off a + (x a).val) :
    View.readAt Val M.view (Rect.unit (s := S) off size inb).toLoadRect (hM.unread X) x = X y := by
  rw [View.readAt_apply, hM.read_unread]
  refine congrArg X (funext fun a => Fin.ext ?_)
  rw [hy a]
  show off a + 1 * (x a).val = _
  omega

/-- A load through a unit-stride box of a buffer's own whole view reads the buffer's contents at the box's offset
    plus the local coordinate, axis by axis. -/
private theorem readAt_unit_whole (b : Ref sig' κ) (f : b.ty.Contents Val)
    (off size : Fin b.ty.shape.rank → ℕ) (inb : ∀ a, off a + size a ≤ b.ty.shape.size a)
    (x : (Rect.unit (s := b.ty.shape) off size inb).shape.Idx) (y : b.ty.shape.Idx)
    (hy : ∀ a, (y a).val = off a + (x a).val) :
    View.readAt Val (View.whole b) (Rect.unit (s := b.ty.shape) off size inb).toLoadRect f x = f y := by
  rw [View.readAt_apply, View.read_whole]
  refine congrArg f (funext fun a => Fin.ext ?_)
  rw [hy a]
  show off a + 1 * (x a).val = _
  omega

end Generic

/-- A load of 512 ids at offset 512 k along the staged row of the point's sample reads the sample's launched ids at
    tokens 512 k + s: the staged row holds the sample's row of ids. -/
private theorem wid_apply_gen (c : Dev nD) (t : Fin (cfgM m).N) (k : Fin 8) (off : Fin 3 → ℕ)
    (h0 : off 0 = 0) (h1 : off 1 = 0) (h2 : off 2 = 512 * k.val)
    (inb : ∀ a, off a + S1x1x512.size a ≤ S1x1x4096.size a) (s : Fin 512) :
    View.readAt (Elt F) (ms0 m t).view (Rect.unit (s := S1x1x4096) off S1x1x512.size inb).toLoadRect
        ((hs0 m t).unread (iblk m c 0 t)) (ix3 (0 : Fin 1) (0 : Fin 1) s)
      = (m ((c : Thread nD τ).loc main_arg1) : IVec S16x4096 32) (ix2 (ptB m t) (tok k s)) :=
  (readAt_unit_unread (hs0 m t) (iblk m c 0 t) off S1x1x512.size inb (ix3 (0 : Fin 1) (0 : Fin 1) s)
    (ix3 (0 : Fin 1) (0 : Fin 1) (tok k s)) (fun a => match a with
      | ⟨0, _⟩ => by show 0 = off 0 + 0; omega
      | ⟨1, _⟩ => by show 0 = off 1 + 0; omega
      | ⟨2, _⟩ => by show 512 * k.val + s.val = off 2 + s.val; omega)).trans (iblk0_apply m c t (tok k s))

/-- A load of 512 rows at row offset 512 k of the staged slab of the point's sample reads the sample's launched
    embeddings at tokens 512 k + s: the staged slab holds the sample's slab of embeddings. -/
private theorem hid_apply_gen (c : Dev nD) (t : Fin (cfgM m).N) (k : Fin 8) (off : Fin 3 → ℕ)
    (h0 : off 0 = 0) (h1 : off 1 = 512 * k.val) (h2 : off 2 = 0)
    (inb : ∀ a, off a + S1x512x768.size a ≤ S1x4096x768.size a) (s : Fin 512) (h : Fin 768) :
    View.readAt (Elt F) (ms1 m t).view (Rect.unit (s := S1x4096x768) off S1x512x768.size inb).toLoadRect
        ((hs1 m t).unread (iblk m c 1 t)) (ix3 (0 : Fin 1) s h)
      = (m ((c : Thread nD τ).loc main_arg0) : Vec F S16x4096x768 .f32) (ix3 (ptB m t) (tok k s) h) :=
  (readAt_unit_unread (hs1 m t) (iblk m c 1 t) off S1x512x768.size inb (ix3 (0 : Fin 1) s h)
    (ix3 (0 : Fin 1) (tok k s) h) (fun a => match a with
      | ⟨0, _⟩ => by show 0 = off 0 + 0; omega
      | ⟨1, _⟩ => by show 512 * k.val + s.val = off 1 + s.val; omega
      | ⟨2, _⟩ => by show h.val = off 2 + h.val; omega)).trans (iblk1_apply m c t (tok k s) h)

/-- The word the body loads from the table at the row its index word names and at column q is the table's entry
    (b, q): the index word is the point's sample number as a 32-bit word, a number below 16, so it names row b; the
    table is read through its own whole view. -/
private theorem tblWord_gen (c : Dev nD) (t : Fin (cfgM m).N) (q : Fin 16) (off : Fin 2 → ℕ)
    (h0 : off 0 = (Scalar.indexCast (BitVec.ofNat 32 ((grid0.coords t) 0).val)).toNat) (h1 : off 1 = q.val)
    (inb : ∀ a, off a + S1x1.size a ≤ S16x16.size a) (x : (Rect.unit (s := S16x16) off S1x1.size inb).shape.Idx) :
    View.readAt (Elt F) tbM.view (Rect.unit (s := S16x16) off S1x1.size inb).toLoadRect (tbl m 0) x
      = tbl m 0 (ix2 (ptB m t) q) := by
  have hb : ((grid0.coords t) 0).val < 16 := ((grid0.coords t) 0).isLt
  have hrow : (Scalar.indexCast (BitVec.ofNat 32 ((grid0.coords t) 0).val)).toNat = ((grid0.coords t) 0).val := by
    unfold Scalar.indexCast
    rw [BitVec.toNat_ofNat]; omega
  refine readAt_unit_whole main_v11 (tbl m 0) off S1x1.size inb x (ix2 (ptB m t) q) (fun a => ?_)
  match a with
  | ⟨0, _⟩ =>
    have hx : (x 0).val < 1 := (x 0).isLt
    show ((grid0.coords t) 0).val = off 0 + (x 0).val; omega
  | ⟨1, _⟩ =>
    have hx : (x 1).val < 1 := (x 1).isLt
    show q.val = off 1 + (x 1).val; omega

/-- The test computed from two words equal to the table's two entries for chunk k is the test of those entries (the
    two spellings of the test have the same body, and the point's second coordinate is its tile). -/
private theorem gd_iff_gen (t : Fin (cfgM m).N) (k : Fin 8) (w0 w1 : BitVec 32)
    (e0 : w0 = tbl m 0 (ix2 (ptB m t) (colMin k))) (e1 : w1 = tbl m 0 (ix2 (ptB m t) (colMax k))) :
    Cert.SegMean.chunkGuard ((grid0.coords t) 1).val w0 w1 = 1#1
      ↔ guard (ptW m t).val (tbl m 0 (ix2 (ptB m t) (colMin k))) (tbl m 0 (ix2 (ptB m t) (colMax k))) = 1#1 := by
  subst e0 e1; unfold Cert.SegMean.chunkGuard guard; exact Iff.rfl

/-! ## The eight chunks -/

/-- Chunk 0's ids, as the body loads them from the staged row, are the sample's ids at tokens 0 … 511. -/
theorem wid0_apply (c : Dev nD) (t : Fin (cfgM m).N) (s : Fin 512) :
    wid0 (ms0 m t) (hs0 m t) (iblk m c 0 t) (ix3 (0 : Fin 1) (0 : Fin 1) s)
      = (m ((c : Thread nD τ).loc main_arg1) : IVec S16x4096 32) (ix2 (ptB m t) (tok ⟨0, by omega⟩ s)) :=
  wid_apply_gen m c t ⟨0, by omega⟩ _ rfl rfl rfl _ s
/-- Chunk 0's embeddings likewise. -/
theorem hid0_apply (c : Dev nD) (t : Fin (cfgM m).N) (s : Fin 512) (h : Fin 768) :
    hid0 (ms1 m t) (hs1 m t) (iblk m c 1 t) (ix3 (0 : Fin 1) s h)
      = (m ((c : Thread nD τ).loc main_arg0) : Vec F S16x4096x768 .f32) (ix3 (ptB m t) (tok ⟨0, by omega⟩ s) h) :=
  hid_apply_gen m c t ⟨0, by omega⟩ _ rfl rfl rfl _ s h
/-- Chunk 0's guard, as the body computes it from the two words it reads, is the test of the table's two entries. -/
theorem gd0_iff (c : Dev nD) (t : Fin (cfgM m).N) :
    gd0 c (grid0.coords t) (tbl m 0)
      ↔ guard (ptW m t).val (tbl m 0 (ix2 (ptB m t) (colMin ⟨0, by omega⟩))) (tbl m 0 (ix2 (ptB m t) (colMax ⟨0, by omega⟩))) = 1#1 :=
  gd_iff_gen m t ⟨0, by omega⟩ _ _
    (tblWord_gen m c t (colMin ⟨0, by omega⟩) (k0_off1 (grid0.coords t)) rfl rfl (k0_off1_inb _) _)
    (tblWord_gen m c t (colMax ⟨0, by omega⟩) (k0_off2 (grid0.coords t)) rfl rfl (k0_off2_inb _) _)

/-- Chunk 1's ids, as the body loads them from the staged row, are the sample's ids at tokens 512 … 1023. -/
theorem wid1_apply (c : Dev nD) (t : Fin (cfgM m).N) (s : Fin 512) :
    wid1 (ms0 m t) (hs0 m t) (iblk m c 0 t) (ix3 (0 : Fin 1) (0 : Fin 1) s)
      = (m ((c : Thread nD τ).loc main_arg1) : IVec S16x4096 32) (ix2 (ptB m t) (tok ⟨1, by omega⟩ s)) :=
  wid_apply_gen m c t ⟨1, by omega⟩ _ rfl rfl rfl _ s
/-- Chunk 1's embeddings likewise. -/
theorem hid1_apply (c : Dev nD) (t : Fin (cfgM m).N) (s : Fin 512) (h : Fin 768) :
    hid1 (ms1 m t) (hs1 m t) (iblk m c 1 t) (ix3 (0 : Fin 1) s h)
      = (m ((c : Thread nD τ).loc main_arg0) : Vec F S16x4096x768 .f32) (ix3 (ptB m t) (tok ⟨1, by omega⟩ s) h) :=
  hid_apply_gen m c t ⟨1, by omega⟩ _ rfl rfl rfl _ s h
/-- Chunk 1's guard, as the body computes it from the two words it reads, is the test of the table's two entries. -/
theorem gd1_iff (c : Dev nD) (t : Fin (cfgM m).N) :
    gd1 c (grid0.coords t) (tbl m 0)
      ↔ guard (ptW m t).val (tbl m 0 (ix2 (ptB m t) (colMin ⟨1, by omega⟩))) (tbl m 0 (ix2 (ptB m t) (colMax ⟨1, by omega⟩))) = 1#1 :=
  gd_iff_gen m t ⟨1, by omega⟩ _ _
    (tblWord_gen m c t (colMin ⟨1, by omega⟩) (k0_off3 (grid0.coords t)) rfl rfl (k0_off3_inb _) _)
    (tblWord_gen m c t (colMax ⟨1, by omega⟩) (k0_off4 (grid0.coords t)) rfl rfl (k0_off4_inb _) _)

/-- Chunk 2's ids, as the body loads them from the staged row, are the sample's ids at tokens 1024 … 1535. -/
theorem wid2_apply (c : Dev nD) (t : Fin (cfgM m).N) (s : Fin 512) :
    wid2 (ms0 m t) (hs0 m t) (iblk m c 0 t) (ix3 (0 : Fin 1) (0 : Fin 1) s)
      = (m ((c : Thread nD τ).loc main_arg1) : IVec S16x4096 32) (ix2 (ptB m t) (tok ⟨2, by omega⟩ s)) :=
  wid_apply_gen m c t ⟨2, by omega⟩ _ rfl rfl rfl _ s
/-- Chunk 2's embeddings likewise. -/
theorem hid2_apply (c : Dev nD) (t : Fin (cfgM m).N) (s : Fin 512) (h : Fin 768) :
    hid2 (ms1 m t) (hs1 m t) (iblk m c 1 t) (ix3 (0 : Fin 1) s h)
      = (m ((c : Thread nD τ).loc main_arg0) : Vec F S16x4096x768 .f32) (ix3 (ptB m t) (tok ⟨2, by omega⟩ s) h) :=
  hid_apply_gen m c t ⟨2, by omega⟩ _ rfl rfl rfl _ s h
/-- Chunk 2's guard, as the body computes it from the two words it reads, is the test of the table's two entries. -/
theorem gd2_iff (c : Dev nD) (t : Fin (cfgM m).N) :
    gd2 c (grid0.coords t) (tbl m 0)
      ↔ guard (ptW m t).val (tbl m 0 (ix2 (ptB m t) (colMin ⟨2, by omega⟩))) (tbl m 0 (ix2 (ptB m t) (colMax ⟨2, by omega⟩))) = 1#1 :=
  gd_iff_gen m t ⟨2, by omega⟩ _ _
    (tblWord_gen m c t (colMin ⟨2, by omega⟩) (k0_off5 (grid0.coords t)) rfl rfl (k0_off5_inb _) _)
    (tblWord_gen m c t (colMax ⟨2, by omega⟩) (k0_off6 (grid0.coords t)) rfl rfl (k0_off6_inb _) _)

/-- Chunk 3's ids, as the body loads them from the staged row, are the sample's ids at tokens 1536 … 2047. -/
theorem wid3_apply (c : Dev nD) (t : Fin (cfgM m).N) (s : Fin 512) :
    wid3 (ms0 m t) (hs0 m t) (iblk m c 0 t) (ix3 (0 : Fin 1) (0 : Fin 1) s)
      = (m ((c : Thread nD τ).loc main_arg1) : IVec S16x4096 32) (ix2 (ptB m t) (tok ⟨3, by omega⟩ s)) :=
  wid_apply_gen m c t ⟨3, by omega⟩ _ rfl rfl rfl _ s
/-- Chunk 3's embeddings likewise. -/
theorem hid3_apply (c : Dev nD) (t : Fin (cfgM m).N) (s : Fin 512) (h : Fin 768) :
    hid3 (ms1 m t) (hs1 m t) (iblk m c 1 t) (ix3 (0 : Fin 1) s h)
      = (m ((c : Thread nD τ).loc main_arg0) : Vec F S16x4096x768 .f32) (ix3 (ptB m t) (tok ⟨3, by omega⟩ s) h) :=
  hid_apply_gen m c t ⟨3, by omega⟩ _ rfl rfl rfl _ s h
/-- Chunk 3's guard, as the body computes it from the two words it reads, is the test of the table's two entries. -/
theorem gd3_iff (c : Dev nD) (t : Fin (cfgM m).N) :
    gd3 c (grid0.coords t) (tbl m 0)
      ↔ guard (ptW m t).val (tbl m 0 (ix2 (ptB m t) (colMin ⟨3, by omega⟩))) (tbl m 0 (ix2 (ptB m t) (colMax ⟨3, by omega⟩))) = 1#1 :=
  gd_iff_gen m t ⟨3, by omega⟩ _ _
    (tblWord_gen m c t (colMin ⟨3, by omega⟩) (k0_off7 (grid0.coords t)) rfl rfl (k0_off7_inb _) _)
    (tblWord_gen m c t (colMax ⟨3, by omega⟩) (k0_off8 (grid0.coords t)) rfl rfl (k0_off8_inb _) _)

/-- Chunk 4's ids, as the body loads them from the staged row, are the sample's ids at tokens 2048 … 2559. -/
theorem wid4_apply (c : Dev nD) (t : Fin (cfgM m).N) (s : Fin 512) :
    wid4 (ms0 m t) (hs0 m t) (iblk m c 0 t) (ix3 (0 : Fin 1) (0 : Fin 1) s)
      = (m ((c : Thread nD τ).loc main_arg1) : IVec S16x4096 32) (ix2 (ptB m t) (tok ⟨4, by omega⟩ s)) :=
  wid_apply_gen m c t ⟨4, by omega⟩ _ rfl rfl rfl _ s
/-- Chunk 4's embeddings likewise. -/
theorem hid4_apply (c : Dev nD) (t : Fin (cfgM m).N) (s : Fin 512) (h : Fin 768) :
    hid4 (ms1 m t) (hs1 m t) (iblk m c 1 t) (ix3 (0 : Fin 1) s h)
      = (m ((c : Thread nD τ).loc main_arg0) : Vec F S16x4096x768 .f32) (ix3 (ptB m t) (tok ⟨4, by omega⟩ s) h) :=
  hid_apply_gen m c t ⟨4, by omega⟩ _ rfl rfl rfl _ s h
/-- Chunk 4's guard, as the body computes it from the two words it reads, is the test of the table's two entries. -/
theorem gd4_iff (c : Dev nD) (t : Fin (cfgM m).N) :
    gd4 c (grid0.coords t) (tbl m 0)
      ↔ guard (ptW m t).val (tbl m 0 (ix2 (ptB m t) (colMin ⟨4, by omega⟩))) (tbl m 0 (ix2 (ptB m t) (colMax ⟨4, by omega⟩))) = 1#1 :=
  gd_iff_gen m t ⟨4, by omega⟩ _ _
    (tblWord_gen m c t (colMin ⟨4, by omega⟩) (k0_off9 (grid0.coords t)) rfl rfl (k0_off9_inb _) _)
    (tblWord_gen m c t (colMax ⟨4, by omega⟩) (k0_off10 (grid0.coords t)) rfl rfl (k0_off10_inb _) _)

/-- Chunk 5's ids, as the body loads them from the staged row, are the sample's ids at tokens 2560 … 3071. -/
theorem wid5_apply (c : Dev nD) (t : Fin (cfgM m).N) (s : Fin 512) :
    wid5 (ms0 m t) (hs0 m t) (iblk m c 0 t) (ix3 (0 : Fin 1) (0 : Fin 1) s)
      = (m ((c : Thread nD τ).loc main_arg1) : IVec S16x4096 32) (ix2 (ptB m t) (tok ⟨5, by omega⟩ s)) :=
  wid_apply_gen m c t ⟨5, by omega⟩ _ rfl rfl rfl _ s
/-- Chunk 5's embeddings likewise. -/
theorem hid5_apply (c : Dev nD) (t : Fin (cfgM m).N) (s : Fin 512) (h : Fin 768) :
    hid5 (ms1 m t) (hs1 m t) (iblk m c 1 t) (ix3 (0 : Fin 1) s h)
      = (m ((c : Thread nD τ).loc main_arg0) : Vec F S16x4096x768 .f32) (ix3 (ptB m t) (tok ⟨5, by omega⟩ s) h) :=
  hid_apply_gen m c t ⟨5, by omega⟩ _ rfl rfl rfl _ s h
/-- Chunk 5's guard, as the body computes it from the two words it reads, is the test of the table's two entries. -/
theorem gd5_iff (c : Dev nD) (t : Fin (cfgM m).N) :
    gd5 c (grid0.coords t) (tbl m 0)
      ↔ guard (ptW m t).val (tbl m 0 (ix2 (ptB m t) (colMin ⟨5, by omega⟩))) (tbl m 0 (ix2 (ptB m t) (colMax ⟨5, by omega⟩))) = 1#1 :=
  gd_iff_gen m t ⟨5, by omega⟩ _ _
    (tblWord_gen m c t (colMin ⟨5, by omega⟩) (k0_off11 (grid0.coords t)) rfl rfl (k0_off11_inb _) _)
    (tblWord_gen m c t (colMax ⟨5, by omega⟩) (k0_off12 (grid0.coords t)) rfl rfl (k0_off12_inb _) _)

/-- Chunk 6's ids, as the body loads them from the staged row, are the sample's ids at tokens 3072 … 3583. -/
theorem wid6_apply (c : Dev nD) (t : Fin (cfgM m).N) (s : Fin 512) :
    wid6 (ms0 m t) (hs0 m t) (iblk m c 0 t) (ix3 (0 : Fin 1) (0 : Fin 1) s)
      = (m ((c : Thread nD τ).loc main_arg1) : IVec S16x4096 32) (ix2 (ptB m t) (tok ⟨6, by omega⟩ s)) :=
  wid_apply_gen m c t ⟨6, by omega⟩ _ rfl rfl rfl _ s
/-- Chunk 6's embeddings likewise. -/
theorem hid6_apply (c : Dev nD) (t : Fin (cfgM m).N) (s : Fin 512) (h : Fin 768) :
    hid6 (ms1 m t) (hs1 m t) (iblk m c 1 t) (ix3 (0 : Fin 1) s h)
      = (m ((c : Thread nD τ).loc main_arg0) : Vec F S16x4096x768 .f32) (ix3 (ptB m t) (tok ⟨6, by omega⟩ s) h) :=
  hid_apply_gen m c t ⟨6, by omega⟩ _ rfl rfl rfl _ s h
/-- Chunk 6's guard, as the body computes it from the two words it reads, is the test of the table's two entries. -/
theorem gd6_iff (c : Dev nD) (t : Fin (cfgM m).N) :
    gd6 c (grid0.coords t) (tbl m 0)
      ↔ guard (ptW m t).val (tbl m 0 (ix2 (ptB m t) (colMin ⟨6, by omega⟩))) (tbl m 0 (ix2 (ptB m t) (colMax ⟨6, by omega⟩))) = 1#1 :=
  gd_iff_gen m t ⟨6, by omega⟩ _ _
    (tblWord_gen m c t (colMin ⟨6, by omega⟩) (k0_off13 (grid0.coords t)) rfl rfl (k0_off13_inb _) _)
    (tblWord_gen m c t (colMax ⟨6, by omega⟩) (k0_off14 (grid0.coords t)) rfl rfl (k0_off14_inb _) _)

/-- Chunk 7's ids, as the body loads them from the staged row, are the sample's ids at tokens 3584 … 4095. -/
theorem wid7_apply (c : Dev nD) (t : Fin (cfgM m).N) (s : Fin 512) :
    wid7 (ms0 m t) (hs0 m t) (iblk m c 0 t) (ix3 (0 : Fin 1) (0 : Fin 1) s)
      = (m ((c : Thread nD τ).loc main_arg1) : IVec S16x4096 32) (ix2 (ptB m t) (tok ⟨7, by omega⟩ s)) :=
  wid_apply_gen m c t ⟨7, by omega⟩ _ rfl rfl rfl _ s
/-- Chunk 7's embeddings likewise. -/
theorem hid7_apply (c : Dev nD) (t : Fin (cfgM m).N) (s : Fin 512) (h : Fin 768) :
    hid7 (ms1 m t) (hs1 m t) (iblk m c 1 t) (ix3 (0 : Fin 1) s h)
      = (m ((c : Thread nD τ).loc main_arg0) : Vec F S16x4096x768 .f32) (ix3 (ptB m t) (tok ⟨7, by omega⟩ s) h) :=
  hid_apply_gen m c t ⟨7, by omega⟩ _ rfl rfl rfl _ s h
/-- Chunk 7's guard, as the body computes it from the two words it reads, is the test of the table's two entries. -/
theorem gd7_iff (c : Dev nD) (t : Fin (cfgM m).N) :
    gd7 c (grid0.coords t) (tbl m 0)
      ↔ guard (ptW m t).val (tbl m 0 (ix2 (ptB m t) (colMin ⟨7, by omega⟩))) (tbl m 0 (ix2 (ptB m t) (colMax ⟨7, by omega⟩))) = 1#1 :=
  gd_iff_gen m t ⟨7, by omega⟩ _ _
    (tblWord_gen m c t (colMin ⟨7, by omega⟩) (k0_off15 (grid0.coords t)) rfl rfl (k0_off15_inb _) _)
    (tblWord_gen m c t (colMax ⟨7, by omega⟩) (k0_off16 (grid0.coords t)) rfl rfl (k0_off16_inb _) _)

end Cert.KernelIdeal.Hand

end
-- ==== Proof.Spec.lean ====
/-
  What both programs compute, stated once: the mean of the token vectors of each word.

  For sample `b`, word `w < 2048` and feature `h`, the result is the sum of `hid[b, s, h]` over the tokens `s`
  whose word id is `w`, divided by the larger of the number of such tokens and one. A token whose id is negative or
  at least 2048 belongs to no word. Ids are compared as 32-bit words with the word `w`; sums and the quotient are
  those of the extended reals.
-/
import Idealize.ShloMosaic.PureOps.Ideal
import Idealize.ShloMosaic.Lib.ValueIdx

noncomputable section

namespace Cert.SegMean

open Idealize.ShloMosaic Idealize.ShloMosaic.ValueIdx

/-- Token embeddings, word ids, and word means: the three arrays' shapes. -/
abbrev SHid : Shape := ⟨3, ![16, 4096, 768]⟩
abbrev SIds : Shape := ⟨2, ![16, 4096]⟩
abbrev SOut : Shape := ⟨3, ![16, 2048, 768]⟩

/-- The word `w` as a 32-bit id. -/
abbrev wordId (w : Fin 2048) : BitVec 32 := BitVec.ofNat 32 w.val

/-- One if token `s` of sample `b` carries word id `w`, zero otherwise. -/
def hot (ids : IVec SIds 32) (b : Fin 16) (w : Fin 2048) (s : Fin 4096) : EReal :=
  if ids (ix2 b s) = wordId w then 1 else 0

/-- The sum of the token vectors of word `w` of sample `b`, at feature `h`. -/
def wordSum (hid : FVec Ideal SHid .f32) (ids : IVec SIds 32) (b : Fin 16) (w : Fin 2048) (h : Fin 768) : EReal :=
  ∑ s : Fin 4096, hot ids b w s * hid (ix3 b s h)

/-- The number of tokens of word `w` of sample `b`. -/
def wordCount (ids : IVec SIds 32) (b : Fin 16) (w : Fin 2048) : EReal :=
  ∑ s : Fin 4096, hot ids b w s

/-- The mean at explicit coordinates: the word's sum over the larger of its count and one. -/
def segMeanAt (hid : FVec Ideal SHid .f32) (ids : IVec SIds 32) (b : Fin 16) (w : Fin 2048) (h : Fin 768) : EReal :=
  Ideal.div (wordSum hid ids b w h) (max (wordCount ids b w) 1)

/-- The result array: the mean at each index's coordinates. -/
def segMean (hid : FVec Ideal SHid .f32) (ids : IVec SIds 32) : FVec Ideal SOut .f32 :=
  fun j => segMeanAt hid ids (j 0) (j 1) (j 2)

theorem segMean_apply (hid : FVec Ideal SHid .f32) (ids : IVec SIds 32) (b : Fin 16) (w : Fin 2048) (h : Fin 768) :
    segMean hid ids (ix3 b w h) = segMeanAt hid ids b w h := rfl

/-- The admitted range of word ids: each is below 2048 as a signed word. -/
def IdsBelow (ids : IVec SIds 32) : Prop := ∀ j : SIds.Idx, (ids j).slt 2048#32 = true

end Cert.SegMean

end
-- ==== Proof.KI.Value.lean ====
/-
  The kernel computes the word means.

  At grid point (b, wt), row `r`, feature `h`, each chunk whose guard held adds to the sums the sum over the chunk's
  512 tokens of [token's id = word 256 wt + r] times the token's feature, and to the counts the sum of those
  indicators. A chunk whose guard failed holds no token with a word of the tile, so its sum is zero and leaving it
  out changes nothing: the eight chunks together give the sum over all 4096 tokens of the sample, which is the
  word's sum, and likewise the word's count. The body stores their quotient, the count raised to at least one, and
  the 128 output blocks tile the result array. Sums here are sums of extended reals; only commutativity and
  associativity of addition, 0 · x = 0 and 1 · x = x are used, so no finiteness is needed.
-/
import proofs.«407863_j88433376624823_3_alg».proof.Proof.KI.Frame
import proofs.«407863_j88433376624823_3_alg».proof.Proof.KI.Chunks
import proofs.«407863_j88433376624823_3_alg».proof.Proof.KI.Pay
import proofs.«407863_j88433376624823_3_alg».proof.Proof.Spec

set_option maxRecDepth 16384

noncomputable section

namespace Cert.KernelIdeal.Hand

open Cert.KernelIdeal Cert.KernelIdeal.Gen Cert.SegMean
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The launched embeddings and word ids. -/
abbrev hidL (c : Dev nD) : FVec Ideal SHid .f32 := m ((c : Thread nD τ).loc main_arg0)
abbrev idsL (c : Dev nD) : IVec SIds 32 := m ((c : Thread nD τ).loc main_arg1)

/-! ## The 4096 tokens as eight chunks of 512 -/

/-- A token is a chunk and a place in it. -/
def chunkEquiv : Fin 8 × Fin 512 ≃ Fin 4096 where
  toFun p := tok p.1 p.2
  invFun s := (⟨s.val / 512, by have := s.2; omega⟩, ⟨s.val % 512, Nat.mod_lt _ (by norm_num)⟩)
  left_inv p := by
    obtain ⟨k, s⟩ := p
    have hk := k.2; have hs := s.2
    refine Prod.ext (Fin.ext ?_) (Fin.ext ?_)
    · show (512 * k.val + s.val) / 512 = k.val; omega
    · show (512 * k.val + s.val) % 512 = s.val; omega
  right_inv s := by
    refine Fin.ext ?_
    show 512 * (s.val / 512) + s.val % 512 = s.val; omega

theorem sum_chunks (f : Fin 4096 → EReal) : ∑ s : Fin 4096, f s = ∑ k : Fin 8, ∑ s : Fin 512, f (tok k s) := by
  rw [← Equiv.sum_comp chunkEquiv f, Fintype.sum_prod_type]
  rfl

/-! ## One chunk's contribution -/

/-- Chunk `k`'s contribution to the sums at point `t`, row `r`, feature `h`, in terms of the launched arguments. -/
def chunkSum (c : Dev nD) (t : Fin (cfgM m).N) (k : Fin 8) (r : Fin 256) (h : Fin 768) : EReal :=
  ∑ s : Fin 512, hot (idsL m c) (ptB m t) (tileRow (ptW m t) r) (tok k s) * hidL m c (ix3 (ptB m t) (tok k s) h)
/-- and to the counts. -/
def chunkCount (c : Dev nD) (t : Fin (cfgM m).N) (k : Fin 8) (r : Fin 256) : EReal :=
  ∑ s : Fin 512, hot (idsL m c) (ptB m t) (tileRow (ptW m t) r) (tok k s)

/-- The body's one-hot entry is the specification's indicator at the chunk's token. -/
theorem hit_eq_hot (c : Dev nD) (t : Fin (cfgM m).N) (k : Fin 8) (widk : IVec S1x1x512 32)
    (hw : ∀ s : Fin 512, widk (ix3 (0 : Fin 1) (0 : Fin 1) s) = idsL m c (ix2 (ptB m t) (tok k s))) (r : Fin 256) (s : Fin 512) :
    hit (k0_pay8 (grid0.coords t)) widk r s = hot (idsL m c) (ptB m t) (tileRow (ptW m t) r) (tok k s) := by
  unfold hit hot
  rw [pay8_apply, hw s]
  have e : tileWord ((grid0.coords t) 1).val r = wordId (tileRow (ptW m t) r) := rfl
  rw [e]
  by_cases hx : idsL m c (ix2 (ptB m t) (tok k s)) = wordId (tileRow (ptW m t) r)
  · rw [if_pos hx, if_pos hx.symm]
  · rw [if_neg hx, if_neg (fun h' => hx h'.symm)]

/-- A chunk whose guard failed holds no token of the tile's words: every indicator is zero. -/
theorem hot_of_not_guard (c : Dev nD) (t : Fin (cfgM m).N) (k : Fin 8)
    (hg : ¬ guard (ptW m t).val (tbl m 0 (ix2 (ptB m t) (colMin k))) (tbl m 0 (ix2 (ptB m t) (colMax k))) = 1#1)
    (r : Fin 256) (s : Fin 512) : hot (idsL m c) (ptB m t) (tileRow (ptW m t) r) (tok k s) = 0 := by
  obtain rfl : c = 0 := Subsingleton.elim _ _
  unfold hot
  exact if_neg (chunk_no_hit m (ptB m t) (ptW m t).val (ptW m t).2 k hg r s)

theorem chunkSum_of_not_guard (c : Dev nD) (t : Fin (cfgM m).N) (k : Fin 8)
    (hg : ¬ guard (ptW m t).val (tbl m 0 (ix2 (ptB m t) (colMin k))) (tbl m 0 (ix2 (ptB m t) (colMax k))) = 1#1)
    (r : Fin 256) (h : Fin 768) : chunkSum m c t k r h = 0 := by
  unfold chunkSum
  exact Finset.sum_eq_zero fun s _ => by rw [hot_of_not_guard m c t k hg r s, zero_mul]

theorem chunkCount_of_not_guard (c : Dev nD) (t : Fin (cfgM m).N) (k : Fin 8)
    (hg : ¬ guard (ptW m t).val (tbl m 0 (ix2 (ptB m t) (colMin k))) (tbl m 0 (ix2 (ptB m t) (colMax k))) = 1#1)
    (r : Fin 256) : chunkCount m c t k r = 0 := by
  unfold chunkCount
  exact Finset.sum_eq_zero fun s _ => hot_of_not_guard m c t k hg r s

/-! ## Level by level: each chunk adds its contribution, guard or no guard -/

theorem acc1_apply (c : Dev nD) (t : Fin (cfgM m).N) (r : Fin 256) (h : Fin 768) :
    (accC1 c (grid0.coords t) (ms0 m t) (hs0 m t) (ms1 m t) (hs1 m t) (iblk m c 0 t) (iblk m c 1 t) (tbl m 0)) (ix2 r h) = (accC0 (F := Ideal)) (ix2 r h) + chunkSum m c t ⟨0, by omega⟩ r h := by
  unfold accC1
  split_ifs with hg
  · rw [pay12_eq]
    show (accC0 (F := Ideal)) (ix2 r h) + ∑ s : Fin 512, hit (k0_pay8 (grid0.coords t)) (wid0 (ms0 m t) (hs0 m t) (iblk m c 0 t)) r s
        * hid0 (ms1 m t) (hs1 m t) (iblk m c 1 t) (ix3 (0 : Fin 1) s h) = _
    refine congrArg _ (Finset.sum_congr rfl fun s _ => ?_)
    rw [hit_eq_hot m c t ⟨0, by omega⟩ _ (wid0_apply m c t) r s, hid0_apply m c t s h]
  · rw [chunkSum_of_not_guard m c t ⟨0, by omega⟩ ((gd0_iff m c t).not.mp hg) r h, add_zero]
theorem acc2_apply (c : Dev nD) (t : Fin (cfgM m).N) (r : Fin 256) (h : Fin 768) :
    (accC2 c (grid0.coords t) (ms0 m t) (hs0 m t) (ms1 m t) (hs1 m t) (iblk m c 0 t) (iblk m c 1 t) (tbl m 0)) (ix2 r h) = (accC1 c (grid0.coords t) (ms0 m t) (hs0 m t) (ms1 m t) (hs1 m t) (iblk m c 0 t) (iblk m c 1 t) (tbl m 0)) (ix2 r h) + chunkSum m c t ⟨1, by omega⟩ r h := by
  unfold accC2
  split_ifs with hg
  · rw [pay15_eq]
    show (accC1 c (grid0.coords t) (ms0 m t) (hs0 m t) (ms1 m t) (hs1 m t) (iblk m c 0 t) (iblk m c 1 t) (tbl m 0)) (ix2 r h) + ∑ s : Fin 512, hit (k0_pay8 (grid0.coords t)) (wid1 (ms0 m t) (hs0 m t) (iblk m c 0 t)) r s
        * hid1 (ms1 m t) (hs1 m t) (iblk m c 1 t) (ix3 (0 : Fin 1) s h) = _
    refine congrArg _ (Finset.sum_congr rfl fun s _ => ?_)
    rw [hit_eq_hot m c t ⟨1, by omega⟩ _ (wid1_apply m c t) r s, hid1_apply m c t s h]
  · rw [chunkSum_of_not_guard m c t ⟨1, by omega⟩ ((gd1_iff m c t).not.mp hg) r h, add_zero]
theorem acc3_apply (c : Dev nD) (t : Fin (cfgM m).N) (r : Fin 256) (h : Fin 768) :
    (accC3 c (grid0.coords t) (ms0 m t) (hs0 m t) (ms1 m t) (hs1 m t) (iblk m c 0 t) (iblk m c 1 t) (tbl m 0)) (ix2 r h) = (accC2 c (grid0.coords t) (ms0 m t) (hs0 m t) (ms1 m t) (hs1 m t) (iblk m c 0 t) (iblk m c 1 t) (tbl m 0)) (ix2 r h) + chunkSum m c t ⟨2, by omega⟩ r h := by
  unfold accC3
  split_ifs with hg
  · rw [pay18_eq]
    show (accC2 c (grid0.coords t) (ms0 m t) (hs0 m t) (ms1 m t) (hs1 m t) (iblk m c 0 t) (iblk m c 1 t) (tbl m 0)) (ix2 r h) + ∑ s : Fin 512, hit (k0_pay8 (grid0.coords t)) (wid2 (ms0 m t) (hs0 m t) (iblk m c 0 t)) r s
        * hid2 (ms1 m t) (hs1 m t) (iblk m c 1 t) (ix3 (0 : Fin 1) s h) = _
    refine congrArg _ (Finset.sum_congr rfl fun s _ => ?_)
    rw [hit_eq_hot m c t ⟨2, by omega⟩ _ (wid2_apply m c t) r s, hid2_apply m c t s h]
  · rw [chunkSum_of_not_guard m c t ⟨2, by omega⟩ ((gd2_iff m c t).not.mp hg) r h, add_zero]
theorem acc4_apply (c : Dev nD) (t : Fin (cfgM m).N) (r : Fin 256) (h : Fin 768) :
    (accC4 c (grid0.coords t) (ms0 m t) (hs0 m t) (ms1 m t) (hs1 m t) (iblk m c 0 t) (iblk m c 1 t) (tbl m 0)) (ix2 r h) = (accC3 c (grid0.coords t) (ms0 m t) (hs0 m t) (ms1 m t) (hs1 m t) (iblk m c 0 t) (iblk m c 1 t) (tbl m 0)) (ix2 r h) + chunkSum m c t ⟨3, by omega⟩ r h := by
  unfold accC4
  split_ifs with hg
  · rw [pay21_eq]
    show (accC3 c (grid0.coords t) (ms0 m t) (hs0 m t) (ms1 m t) (hs1 m t) (iblk m c 0 t) (iblk m c 1 t) (tbl m 0)) (ix2 r h) + ∑ s : Fin 512, hit (k0_pay8 (grid0.coords t)) (wid3 (ms0 m t) (hs0 m t) (iblk m c 0 t)) r s
        * hid3 (ms1 m t) (hs1 m t) (iblk m c 1 t) (ix3 (0 : Fin 1) s h) = _
    refine congrArg _ (Finset.sum_congr rfl fun s _ => ?_)
    rw [hit_eq_hot m c t ⟨3, by omega⟩ _ (wid3_apply m c t) r s, hid3_apply m c t s h]
  · rw [chunkSum_of_not_guard m c t ⟨3, by omega⟩ ((gd3_iff m c t).not.mp hg) r h, add_zero]
theorem acc5_apply (c : Dev nD) (t : Fin (cfgM m).N) (r : Fin 256) (h : Fin 768) :
    (accC5 c (grid0.coords t) (ms0 m t) (hs0 m t) (ms1 m t) (hs1 m t) (iblk m c 0 t) (iblk m c 1 t) (tbl m 0)) (ix2 r h) = (accC4 c (grid0.coords t) (ms0 m t) (hs0 m t) (ms1 m t) (hs1 m t) (iblk m c 0 t) (iblk m c 1 t) (tbl m 0)) (ix2 r h) + chunkSum m c t ⟨4, by omega⟩ r h := by
  unfold accC5
  split_ifs with hg
  · rw [pay24_eq]
    show (accC4 c (grid0.coords t) (ms0 m t) (hs0 m t) (ms1 m t) (hs1 m t) (iblk m c 0 t) (iblk m c 1 t) (tbl m 0)) (ix2 r h) + ∑ s : Fin 512, hit (k0_pay8 (grid0.coords t)) (wid4 (ms0 m t) (hs0 m t) (iblk m c 0 t)) r s
        * hid4 (ms1 m t) (hs1 m t) (iblk m c 1 t) (ix3 (0 : Fin 1) s h) = _
    refine congrArg _ (Finset.sum_congr rfl fun s _ => ?_)
    rw [hit_eq_hot m c t ⟨4, by omega⟩ _ (wid4_apply m c t) r s, hid4_apply m c t s h]
  · rw [chunkSum_of_not_guard m c t ⟨4, by omega⟩ ((gd4_iff m c t).not.mp hg) r h, add_zero]
theorem acc6_apply (c : Dev nD) (t : Fin (cfgM m).N) (r : Fin 256) (h : Fin 768) :
    (accC6 c (grid0.coords t) (ms0 m t) (hs0 m t) (ms1 m t) (hs1 m t) (iblk m c 0 t) (iblk m c 1 t) (tbl m 0)) (ix2 r h) = (accC5 c (grid0.coords t) (ms0 m t) (hs0 m t) (ms1 m t) (hs1 m t) (iblk m c 0 t) (iblk m c 1 t) (tbl m 0)) (ix2 r h) + chunkSum m c t ⟨5, by omega⟩ r h := by
  unfold accC6
  split_ifs with hg
  · rw [pay27_eq]
    show (accC5 c (grid0.coords t) (ms0 m t) (hs0 m t) (ms1 m t) (hs1 m t) (iblk m c 0 t) (iblk m c 1 t) (tbl m 0)) (ix2 r h) + ∑ s : Fin 512, hit (k0_pay8 (grid0.coords t)) (wid5 (ms0 m t) (hs0 m t) (iblk m c 0 t)) r s
        * hid5 (ms1 m t) (hs1 m t) (iblk m c 1 t) (ix3 (0 : Fin 1) s h) = _
    refine congrArg _ (Finset.sum_congr rfl fun s _ => ?_)
    rw [hit_eq_hot m c t ⟨5, by omega⟩ _ (wid5_apply m c t) r s, hid5_apply m c t s h]
  · rw [chunkSum_of_not_guard m c t ⟨5, by omega⟩ ((gd5_iff m c t).not.mp hg) r h, add_zero]
theorem acc7_apply (c : Dev nD) (t : Fin (cfgM m).N) (r : Fin 256) (h : Fin 768) :
    (accC7 c (grid0.coords t) (ms0 m t) (hs0 m t) (ms1 m t) (hs1 m t) (iblk m c 0 t) (iblk m c 1 t) (tbl m 0)) (ix2 r h) = (accC6 c (grid0.coords t) (ms0 m t) (hs0 m t) (ms1 m t) (hs1 m t) (iblk m c 0 t) (iblk m c 1 t) (tbl m 0)) (ix2 r h) + chunkSum m c t ⟨6, by omega⟩ r h := by
  unfold accC7
  split_ifs with hg
  · rw [pay2_eq]
    show (accC6 c (grid0.coords t) (ms0 m t) (hs0 m t) (ms1 m t) (hs1 m t) (iblk m c 0 t) (iblk m c 1 t) (tbl m 0)) (ix2 r h) + ∑ s : Fin 512, hit (k0_pay8 (grid0.coords t)) (wid6 (ms0 m t) (hs0 m t) (iblk m c 0 t)) r s
        * hid6 (ms1 m t) (hs1 m t) (iblk m c 1 t) (ix3 (0 : Fin 1) s h) = _
    refine congrArg _ (Finset.sum_congr rfl fun s _ => ?_)
    rw [hit_eq_hot m c t ⟨6, by omega⟩ _ (wid6_apply m c t) r s, hid6_apply m c t s h]
  · rw [chunkSum_of_not_guard m c t ⟨6, by omega⟩ ((gd6_iff m c t).not.mp hg) r h, add_zero]
theorem acc8_apply (c : Dev nD) (t : Fin (cfgM m).N) (r : Fin 256) (h : Fin 768) :
    (accC8 c (grid0.coords t) (ms0 m t) (hs0 m t) (ms1 m t) (hs1 m t) (iblk m c 0 t) (iblk m c 1 t) (tbl m 0)) (ix2 r h) = (accC7 c (grid0.coords t) (ms0 m t) (hs0 m t) (ms1 m t) (hs1 m t) (iblk m c 0 t) (iblk m c 1 t) (tbl m 0)) (ix2 r h) + chunkSum m c t ⟨7, by omega⟩ r h := by
  unfold accC8
  split_ifs with hg
  · rw [pay5_eq]
    show (accC7 c (grid0.coords t) (ms0 m t) (hs0 m t) (ms1 m t) (hs1 m t) (iblk m c 0 t) (iblk m c 1 t) (tbl m 0)) (ix2 r h) + ∑ s : Fin 512, hit (k0_pay8 (grid0.coords t)) (wid7 (ms0 m t) (hs0 m t) (iblk m c 0 t)) r s
        * hid7 (ms1 m t) (hs1 m t) (iblk m c 1 t) (ix3 (0 : Fin 1) s h) = _
    refine congrArg _ (Finset.sum_congr rfl fun s _ => ?_)
    rw [hit_eq_hot m c t ⟨7, by omega⟩ _ (wid7_apply m c t) r s, hid7_apply m c t s h]
  · rw [chunkSum_of_not_guard m c t ⟨7, by omega⟩ ((gd7_iff m c t).not.mp hg) r h, add_zero]

theorem cnt1_apply (c : Dev nD) (t : Fin (cfgM m).N) (r : Fin 256) :
    (cntC1 c (grid0.coords t) (ms0 m t) (hs0 m t) (iblk m c 0 t) (tbl m 0)) (ix2 r (0 : Fin 1)) = (cntC0 (F := Ideal)) (ix2 r (0 : Fin 1)) + chunkCount m c t ⟨0, by omega⟩ r := by
  unfold cntC1
  split_ifs with hg
  · rw [pay13_eq]
    show (cntC0 (F := Ideal)) (ix2 r (0 : Fin 1)) + ∑ s : Fin 512, hit (k0_pay8 (grid0.coords t)) (wid0 (ms0 m t) (hs0 m t) (iblk m c 0 t)) r s = _
    refine congrArg _ (Finset.sum_congr rfl fun s _ => ?_)
    rw [hit_eq_hot m c t ⟨0, by omega⟩ _ (wid0_apply m c t) r s]
  · rw [chunkCount_of_not_guard m c t ⟨0, by omega⟩ ((gd0_iff m c t).not.mp hg) r, add_zero]
theorem cnt2_apply (c : Dev nD) (t : Fin (cfgM m).N) (r : Fin 256) :
    (cntC2 c (grid0.coords t) (ms0 m t) (hs0 m t) (iblk m c 0 t) (tbl m 0)) (ix2 r (0 : Fin 1)) = (cntC1 c (grid0.coords t) (ms0 m t) (hs0 m t) (iblk m c 0 t) (tbl m 0)) (ix2 r (0 : Fin 1)) + chunkCount m c t ⟨1, by omega⟩ r := by
  unfold cntC2
  split_ifs with hg
  · rw [pay16_eq]
    show (cntC1 c (grid0.coords t) (ms0 m t) (hs0 m t) (iblk m c 0 t) (tbl m 0)) (ix2 r (0 : Fin 1)) + ∑ s : Fin 512, hit (k0_pay8 (grid0.coords t)) (wid1 (ms0 m t) (hs0 m t) (iblk m c 0 t)) r s = _
    refine congrArg _ (Finset.sum_congr rfl fun s _ => ?_)
    rw [hit_eq_hot m c t ⟨1, by omega⟩ _ (wid1_apply m c t) r s]
  · rw [chunkCount_of_not_guard m c t ⟨1, by omega⟩ ((gd1_iff m c t).not.mp hg) r, add_zero]
theorem cnt3_apply (c : Dev nD) (t : Fin (cfgM m).N) (r : Fin 256) :
    (cntC3 c (grid0.coords t) (ms0 m t) (hs0 m t) (iblk m c 0 t) (tbl m 0)) (ix2 r (0 : Fin 1)) = (cntC2 c (grid0.coords t) (ms0 m t) (hs0 m t) (iblk m c 0 t) (tbl m 0)) (ix2 r (0 : Fin 1)) + chunkCount m c t ⟨2, by omega⟩ r := by
  unfold cntC3
  split_ifs with hg
  · rw [pay19_eq]
    show (cntC2 c (grid0.coords t) (ms0 m t) (hs0 m t) (iblk m c 0 t) (tbl m 0)) (ix2 r (0 : Fin 1)) + ∑ s : Fin 512, hit (k0_pay8 (grid0.coords t)) (wid2 (ms0 m t) (hs0 m t) (iblk m c 0 t)) r s = _
    refine congrArg _ (Finset.sum_congr rfl fun s _ => ?_)
    rw [hit_eq_hot m c t ⟨2, by omega⟩ _ (wid2_apply m c t) r s]
  · rw [chunkCount_of_not_guard m c t ⟨2, by omega⟩ ((gd2_iff m c t).not.mp hg) r, add_zero]
theorem cnt4_apply (c : Dev nD) (t : Fin (cfgM m).N) (r : Fin 256) :
    (cntC4 c (grid0.coords t) (ms0 m t) (hs0 m t) (iblk m c 0 t) (tbl m 0)) (ix2 r (0 : Fin 1)) = (cntC3 c (grid0.coords t) (ms0 m t) (hs0 m t) (iblk m c 0 t) (tbl m 0)) (ix2 r (0 : Fin 1)) + chunkCount m c t ⟨3, by omega⟩ r := by
  unfold cntC4
  split_ifs with hg
  · rw [pay22_eq]
    show (cntC3 c (grid0.coords t) (ms0 m t) (hs0 m t) (iblk m c 0 t) (tbl m 0)) (ix2 r (0 : Fin 1)) + ∑ s : Fin 512, hit (k0_pay8 (grid0.coords t)) (wid3 (ms0 m t) (hs0 m t) (iblk m c 0 t)) r s = _
    refine congrArg _ (Finset.sum_congr rfl fun s _ => ?_)
    rw [hit_eq_hot m c t ⟨3, by omega⟩ _ (wid3_apply m c t) r s]
  · rw [chunkCount_of_not_guard m c t ⟨3, by omega⟩ ((gd3_iff m c t).not.mp hg) r, add_zero]
theorem cnt5_apply (c : Dev nD) (t : Fin (cfgM m).N) (r : Fin 256) :
    (cntC5 c (grid0.coords t) (ms0 m t) (hs0 m t) (iblk m c 0 t) (tbl m 0)) (ix2 r (0 : Fin 1)) = (cntC4 c (grid0.coords t) (ms0 m t) (hs0 m t) (iblk m c 0 t) (tbl m 0)) (ix2 r (0 : Fin 1)) + chunkCount m c t ⟨4, by omega⟩ r := by
  unfold cntC5
  split_ifs with hg
  · rw [pay25_eq]
    show (cntC4 c (grid0.coords t) (ms0 m t) (hs0 m t) (iblk m c 0 t) (tbl m 0)) (ix2 r (0 : Fin 1)) + ∑ s : Fin 512, hit (k0_pay8 (grid0.coords t)) (wid4 (ms0 m t) (hs0 m t) (iblk m c 0 t)) r s = _
    refine congrArg _ (Finset.sum_congr rfl fun s _ => ?_)
    rw [hit_eq_hot m c t ⟨4, by omega⟩ _ (wid4_apply m c t) r s]
  · rw [chunkCount_of_not_guard m c t ⟨4, by omega⟩ ((gd4_iff m c t).not.mp hg) r, add_zero]
theorem cnt6_apply (c : Dev nD) (t : Fin (cfgM m).N) (r : Fin 256) :
    (cntC6 c (grid0.coords t) (ms0 m t) (hs0 m t) (iblk m c 0 t) (tbl m 0)) (ix2 r (0 : Fin 1)) = (cntC5 c (grid0.coords t) (ms0 m t) (hs0 m t) (iblk m c 0 t) (tbl m 0)) (ix2 r (0 : Fin 1)) + chunkCount m c t ⟨5, by omega⟩ r := by
  unfold cntC6
  split_ifs with hg
  · rw [pay28_eq]
    show (cntC5 c (grid0.coords t) (ms0 m t) (hs0 m t) (iblk m c 0 t) (tbl m 0)) (ix2 r (0 : Fin 1)) + ∑ s : Fin 512, hit (k0_pay8 (grid0.coords t)) (wid5 (ms0 m t) (hs0 m t) (iblk m c 0 t)) r s = _
    refine congrArg _ (Finset.sum_congr rfl fun s _ => ?_)
    rw [hit_eq_hot m c t ⟨5, by omega⟩ _ (wid5_apply m c t) r s]
  · rw [chunkCount_of_not_guard m c t ⟨5, by omega⟩ ((gd5_iff m c t).not.mp hg) r, add_zero]
theorem cnt7_apply (c : Dev nD) (t : Fin (cfgM m).N) (r : Fin 256) :
    (cntC7 c (grid0.coords t) (ms0 m t) (hs0 m t) (iblk m c 0 t) (tbl m 0)) (ix2 r (0 : Fin 1)) = (cntC6 c (grid0.coords t) (ms0 m t) (hs0 m t) (iblk m c 0 t) (tbl m 0)) (ix2 r (0 : Fin 1)) + chunkCount m c t ⟨6, by omega⟩ r := by
  unfold cntC7
  split_ifs with hg
  · rw [pay3_eq]
    show (cntC6 c (grid0.coords t) (ms0 m t) (hs0 m t) (iblk m c 0 t) (tbl m 0)) (ix2 r (0 : Fin 1)) + ∑ s : Fin 512, hit (k0_pay8 (grid0.coords t)) (wid6 (ms0 m t) (hs0 m t) (iblk m c 0 t)) r s = _
    refine congrArg _ (Finset.sum_congr rfl fun s _ => ?_)
    rw [hit_eq_hot m c t ⟨6, by omega⟩ _ (wid6_apply m c t) r s]
  · rw [chunkCount_of_not_guard m c t ⟨6, by omega⟩ ((gd6_iff m c t).not.mp hg) r, add_zero]
theorem cnt8_apply (c : Dev nD) (t : Fin (cfgM m).N) (r : Fin 256) :
    (cntC8 c (grid0.coords t) (ms0 m t) (hs0 m t) (iblk m c 0 t) (tbl m 0)) (ix2 r (0 : Fin 1)) = (cntC7 c (grid0.coords t) (ms0 m t) (hs0 m t) (iblk m c 0 t) (tbl m 0)) (ix2 r (0 : Fin 1)) + chunkCount m c t ⟨7, by omega⟩ r := by
  unfold cntC8
  split_ifs with hg
  · rw [pay6_eq]
    show (cntC7 c (grid0.coords t) (ms0 m t) (hs0 m t) (iblk m c 0 t) (tbl m 0)) (ix2 r (0 : Fin 1)) + ∑ s : Fin 512, hit (k0_pay8 (grid0.coords t)) (wid7 (ms0 m t) (hs0 m t) (iblk m c 0 t)) r s = _
    refine congrArg _ (Finset.sum_congr rfl fun s _ => ?_)
    rw [hit_eq_hot m c t ⟨7, by omega⟩ _ (wid7_apply m c t) r s]
  · rw [chunkCount_of_not_guard m c t ⟨7, by omega⟩ ((gd7_iff m c t).not.mp hg) r, add_zero]

/-! ## The eight chunks together -/

theorem acc8_total (c : Dev nD) (t : Fin (cfgM m).N) (r : Fin 256) (h : Fin 768) :
    (accC8 c (grid0.coords t) (ms0 m t) (hs0 m t) (ms1 m t) (hs1 m t) (iblk m c 0 t) (iblk m c 1 t) (tbl m 0)) (ix2 r h) = wordSum (hidL m c) (idsL m c) (ptB m t) (tileRow (ptW m t) r) h := by
  rw [acc8_apply, acc7_apply, acc6_apply, acc5_apply, acc4_apply, acc3_apply, acc2_apply, acc1_apply]
  have z : (accC0 (F := Ideal)) (ix2 r h) = 0 := by unfold accC0; rw [pay9_eq]
  rw [z, zero_add]
  unfold wordSum
  rw [sum_chunks, Fin.sum_univ_eight]
  rfl

theorem cnt8_total (c : Dev nD) (t : Fin (cfgM m).N) (r : Fin 256) :
    (cntC8 c (grid0.coords t) (ms0 m t) (hs0 m t) (iblk m c 0 t) (tbl m 0)) (ix2 r (0 : Fin 1)) = wordCount (idsL m c) (ptB m t) (tileRow (ptW m t) r) := by
  rw [cnt8_apply, cnt7_apply, cnt6_apply, cnt5_apply, cnt4_apply, cnt3_apply, cnt2_apply, cnt1_apply]
  have z : (cntC0 (F := Ideal)) (ix2 r (0 : Fin 1)) = 0 := by unfold cntC0; rw [pay10_eq]
  rw [z, zero_add]
  unfold wordCount
  rw [sum_chunks, Fin.sum_univ_eight]
  rfl

/-! ## The block, the array, the run -/

/-- After the body at point `t` the output's staging buffer holds the block of the word means. -/
theorem after2_apply (c : Dev nD) (t : Fin (cfgM m).N) (r : Fin 256) (h : Fin 768) :
    ((dats m 0 c).after 2 t : Vec Ideal S1x256x768 .f32) (ix3 (0 : Fin 1) r h)
      = segMean (hidL m c) (idsL m c) (ix3 (ptB m t) (tileRow (ptW m t) r) h) := by
  rw [after2]
  unfold outAt outC
  rw [pay7_apply, acc8_total, cnt8_total, segMean_apply]
  rfl

/-- The output array ends at the word means. -/
theorem final_out (c : Dev nD) :
    ((dats m 0 c).arrAt 2 (cfgM m).N : Vec Ideal S16x2048x768 .f32) = segMean (hidL m c) (idsL m c) :=
  arrAt_out_eq m (dats m 0 c) (segMean (hidL m c) (idsL m c)) (after2_apply m c)

/-- The kernel's run at the ideal values: it terminates with the word means of its arguments, which it leaves
    unchanged. -/
theorem run_segMean :
    θ_run (defs (F := Ideal)) (onTc (τ := τ) (main (F := Ideal))) ⟨m, fun _ => 0, ρ⟩ (fun r => ∀ c : Dev nD,
      r.2.mem ((c.tc : Thread nD τ).loc main_v12) = segMean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_out m c),
      ((h c).1 1).trans (((dats m 0 c).arrAt_in 1 rfl _).trans ((A_eq m c 1).trans (V_main_arg0 m c))),
      ((h c).2 main_arg1 (by decide : main_arg1 ∈ Pipeline.restRefs sig spec0)).trans (V_main_arg1 m c)⟩) (run_main m ρ)

end Cert.KernelIdeal.Hand

end
-- ==== Proof.Ref.Imports.lean ====
/-
  The reference's run and its read-at-an-index lemmas are generated; this module brings them in for the
  modules that read the reference's result.
-/
import proofs.«407863_j88433376624823_3_alg».proof.Proof.Gen.ReferenceIdeal.Run
import proofs.«407863_j88433376624823_3_alg».proof.Proof.Gen.ReferenceIdeal.Read
-- ==== Proof.Ref.Seg.lean ====
/-
  The reference numbers the words of all samples in one flat range: word `w` of sample `b` is segment `2048 * b + w`.
-/
import proofs.«407863_j88433376624823_3_alg».proof.Proof.Spec

noncomputable section

namespace Cert.SegMean

open Idealize.ShloMosaic Idealize.ShloMosaic.ValueIdx

/-- The flat segment of word `w` of sample `b`. -/
def segIx (b : Fin 16) (w : Fin 2048) : Fin 32768 := ⟨2048 * b.val + w.val, by have := b.2; have := w.2; omega⟩

theorem segIx_val (b : Fin 16) (w : Fin 2048) : (segIx b w).val = 2048 * b.val + w.val := rfl

end Cert.SegMean

end
-- ==== Proof.LibScatterAddRows.lean ====
/-
  THE ACCUMULATING SCATTER BY ROWS, at the ideal instance.

  The scatter considered has an add body, scatter indices that are an [n × 1] column of row positions, operand axis 0
  inserted and start-indexed, and the remaining operand axes (none for a vector, axis 1 for a matrix of rows) as window
  axes: the accumulation x[idx[p]] += v[p] over all rows p. At the ideal instance the result is the exact sum: every
  operand element plus the sum of the update elements that land on it. An update element (p) resp. (p, q) lands on
  operand element (r) resp. (r, q) exactly when the start index of row p, read SIGNED and NOT clamped, is r; a start
  index outside the operand drops the update. So

    scatterAdd x idx upd (r)    = x (r)    + ∑ over rows p with idx[p] = r of upd (p),
    scatterAdd x idx upd (r, q) = x (r, q) + ∑ over rows p with idx[p] = r of upd (p, q).

  The proof: (1) for any dimension numbers, an update index lands on operand index i iff on every axis the start plus the
  window coordinate is i's coordinate; (2) at these dimension numbers the start on axis 0 is the row's start index and
  the window coordinate is 0 there, and on axis 1 (rows) the start is 0 and the window coordinate is the update's column;
  (3) the sum over the landing update indices is re-indexed by the row.
-/
import Idealize.ShloMosaic.PureOps.Ideal
import Idealize.ShloMosaic.Lib.ValueIdx
import Idealize.ShloMosaic.Lib.StableHlo.Predicate

open scoped BigOperators

namespace Cert.LibScatterAddRows

open Idealize.ShloMosaic Idealize.ShloMosaic.ValueIdx Idealize.ShloMosaic.StableHlo.Predicate

/-! ## Any dimension numbers: landing on an operand index, axis by axis -/

/-- An update index lands on operand index i exactly when, on every operand axis, the (signed, unclamped) start plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hc =>
      have h2 := congrArg Fin.val (congrFun (Option.some.inj h) a)
      simp only at h2
      have := hc a
      omega
    · cases h
  · intro h
    have hc : ∀ a, 0 ≤ d.start j idx a + (d.window j a : ℤ) ∧ d.start j idx a + (d.window j a : ℤ) < s.size a := fun a => by
      rw [h a]
      exact ⟨Int.natCast_nonneg _, by exact_mod_cast (i a).isLt⟩
    rw [dif_pos hc]
    congr 1
    funext a
    apply Fin.ext
    show (d.start j idx a + (d.window j a : ℤ)).toNat = (i a).val
    rw [h a]
    exact Int.toNat_natCast _

/-- The one entry of a one-element list. -/
theorem getElem_of_eq_singleton {α : Type} {l : List α} {x : α} (h : l = [x]) (k : Nat) (hk : k < l.length) :
    l[k] = x := by
  subst h
  have : k = 0 := by simpa using hk
  subst this
  rfl

/-! ## A vector scattered by a column of start indices -/

section Vec
variable {N n w : Nat} (d : ScatterDims ⟨1, ![N]⟩ ⟨2, ![n, 1]⟩ ⟨1, ![n]⟩)

/-- The start on the operand's one axis for update index j: row (j 0)'s start index, read signed. -/
theorem start_vec (hsd : d.scatterDimsToOperandDims = [0]) (hivd : d.indexVectorDim = 1)
    (j : (⟨1, ![n]⟩ : Shape).Idx) (idx : IVec ⟨2, ![n, 1]⟩ w) (a : Fin 1) :
    d.start j idx a = (idx (ixP (j 0))).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: no window coordinate. -/
theorem window_vec (hiw : d.insertedWindowDims = [0]) (j : (⟨1, ![n]⟩ : Shape).Idx) (a : Fin 1) : d.window j a = 0 := by
  have hk : a ∉ d.sKept := by
    have ha0 : a = 0 := Subsingleton.elim _ _
    subst ha0
    simp [ScatterDims.sKept, Shape.kept, hiw]
  unfold ScatterDims.window
  rw [dif_neg hk]

/-- Update index j lands on operand index i exactly when row (j 0)'s start index is i's coordinate. -/
theorem resultIdx?_vec (hiw : d.insertedWindowDims = [0]) (hsd : d.scatterDimsToOperandDims = [0])
    (hivd : d.indexVectorDim = 1) (j : (⟨1, ![n]⟩ : Shape).Idx) (idx : IVec ⟨2, ![n, 1]⟩ w) (i : (⟨1, ![N]⟩ : Shape).Idx) :
    d.resultIdx? j idx = some i ↔ (idx (ixP (j 0))).toInt = ((i 0).val : ℤ) := by
  rw [resultIdx?_eq_some_iff]
  constructor
  · intro h
    have := h 0
    rw [start_vec d hsd hivd, window_vec d hiw] at this
    simpa using this
  · intro h a
    have ha0 : a = 0 := Subsingleton.elim _ _
    subst ha0
    rw [start_vec d hsd hivd, window_vec d hiw]
    simpa using h

end Vec

section VecSum
variable {N n w : Nat} {φ : FTy}

/-- The accumulating scatter of a vector: entry r ends at its old value plus the sum of the updates whose (signed,
    unclamped) start index is r. -/
theorem scatterAdd_vec (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![n, 1]⟩ w) (upd : FVec Ideal ⟨1, ![n]⟩ φ) (r : Fin N) :
    Host.scatterAdd d x idx upd (ix1 r)
      = x (ix1 r) + ∑ p ∈ Finset.univ.filter (fun p : Fin n => (idx (ixP p)).toInt = (r.val : ℤ)), upd (ix1 p) := by
  show x (ix1 r) + ∑ j ∈ Finset.univ.filter (fun j => d.resultIdx? j idx = some (ix1 r)), upd j = _
  congr 1
  refine Finset.sum_bij' (fun j _ => (j 0 : Fin n)) (fun p _ => ix1 p) ?_ ?_ ?_ ?_ ?_
  · intro j hj
    exact Finset.mem_filter.2 ⟨Finset.mem_univ _,
      (resultIdx?_vec d hiw hsd hivd j idx (ix1 r)).1 (Finset.mem_filter.1 hj).2⟩
  · intro p _hp
    exact Finset.mem_filter.2 ⟨Finset.mem_univ _,
      (resultIdx?_vec d hiw hsd hivd (ix1 p) idx (ix1 r)).2 (Finset.mem_filter.1 _hp).2⟩
  · intro j _; exact (eq_ix1 j).symm
  · intro p _; rfl
  · intro j _; exact congrArg upd (eq_ix1 j)

end VecSum

/-! ## Rows scattered by a column of start indices -/

section Rows
variable {N C n w : Nat} (d : ScatterDims ⟨2, ![N, C]⟩ ⟨2, ![n, 1]⟩ ⟨2, ![n, C]⟩)

/-- The updates' one scatter axis is their axis 0 (axis 1 is the window axis). -/
theorem uScatter_rows (huw : d.updateWindowDims = [1]) : d.uScatter = [0] := by
  simp [ScatterDims.uScatter, Shape.kept, huw, List.finRange_succ]

/-- The operand's one kept axis is its axis 1 (axis 0 is inserted). -/
theorem sKept_rows (hiw : d.insertedWindowDims = [0]) : d.sKept = [1] := by
  simp [ScatterDims.sKept, Shape.kept, hiw, List.finRange_succ]

/-- The start on operand axis 0 for update index j: row (j 0)'s start index, read signed. -/
theorem start_rows_zero (huw : d.updateWindowDims = [1]) (hsd : d.scatterDimsToOperandDims = [0])
    (hivd : d.indexVectorDim = 1) (j : (⟨2, ![n, C]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact congrArg (fun a => (j a).val) (getElem_of_eq_singleton (uScatter_rows d huw) _ _)
  | ⟨1, _⟩ =>
    unfold ScatterDims.siIdx
    rw [dif_pos (by rw [hivd])]
    apply Fin.ext
    show List.idxOf (0 : Fin 2) d.scatterDimsToOperandDims = 0
    rw [hsd]; simp

/-- Operand axis 1 is not start-indexed: the start there is 0. -/
theorem start_rows_one (hsd : d.scatterDimsToOperandDims = [0]) (j : (⟨2, ![n, C]⟩ : Shape).Idx)
    (idx : IVec ⟨2, ![n, 1]⟩ w) : d.start j idx 1 = 0 := by
  unfold ScatterDims.start
  rw [dif_neg (by rw [hsd]; simp)]

/-- Operand axis 0 is inserted: no window coordinate. -/
theorem window_rows_zero (hiw : d.insertedWindowDims = [0]) (j : (⟨2, ![n, C]⟩ : Shape).Idx) : d.window j 0 = 0 := by
  unfold ScatterDims.window
  rw [dif_neg (by rw [sKept_rows d hiw]; simp)]

/-- On operand axis 1 the window coordinate is the update's column. -/
theorem window_rows_one (huw : d.updateWindowDims = [1]) (hiw : d.insertedWindowDims = [0])
    (j : (⟨2, ![n, C]⟩ : Shape).Idx) : d.window j 1 = (j 1).val := by
  unfold ScatterDims.window
  rw [dif_pos (by rw [sKept_rows d hiw]; simp)]
  exact congrArg (fun a => (j a).val) (getElem_of_eq_singleton huw _ _)

/-- Update index j lands on operand index i exactly when row (j 0)'s start index is i's row and j's column is i's. -/
theorem resultIdx?_rows (huw : d.updateWindowDims = [1]) (hiw : d.insertedWindowDims = [0])
    (hsd : d.scatterDimsToOperandDims = [0]) (hivd : d.indexVectorDim = 1)
    (j : (⟨2, ![n, C]⟩ : Shape).Idx) (idx : IVec ⟨2, ![n, 1]⟩ w) (i : (⟨2, ![N, C]⟩ : Shape).Idx) :
    d.resultIdx? j idx = some i ↔ (idx (ixP (j 0))).toInt = ((i 0).val : ℤ) ∧ (j 1).val = (i 1).val := by
  rw [resultIdx?_eq_some_iff]
  constructor
  · intro h
    have h0 := h 0
    have h1 := h 1
    rw [start_rows_zero d huw hsd hivd, window_rows_zero d hiw] at h0
    rw [start_rows_one d hsd, window_rows_one d huw hiw] at h1
    exact ⟨by simpa using h0, by exact_mod_cast (by simpa using h1 : ((j 1).val : ℤ) = ((i 1).val : ℤ))⟩
  · intro h a
    match a with
    | ⟨0, _⟩ =>
      show d.start j idx 0 + (d.window j 0 : ℤ) = ((i 0).val : ℤ)
      rw [start_rows_zero d huw hsd hivd, window_rows_zero d hiw]
      simpa using h.1
    | ⟨1, _⟩ =>
      show d.start j idx 1 + (d.window j 1 : ℤ) = ((i 1).val : ℤ)
      rw [start_rows_one d hsd, window_rows_one d huw hiw, h.2]
      simp

end Rows

section RowsSum
variable {N C n w : Nat} {φ : FTy}

/-- The accumulating scatter of rows: entry (r, q) ends at its old value plus the sum over the update rows whose start
    index is r of their entry in column q. -/
theorem scatterAdd_rows (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd d x idx upd (ix2 r q)
      = x (ix2 r q) + ∑ p ∈ Finset.univ.filter (fun p : Fin n => (idx (ixP p)).toInt = (r.val : ℤ)), upd (ix2 p q) := by
  show x (ix2 r q) + ∑ j ∈ Finset.univ.filter (fun j => d.resultIdx? j idx = some (ix2 r q)), upd j = _
  congr 1
  have hback : ∀ j : (⟨2, ![n, C]⟩ : Shape).Idx, d.resultIdx? j idx = some (ix2 r q) → ix2 (j 0 : Fin n) q = j := by
    intro j hj
    have h1 := ((resultIdx?_rows d huw hiw hsd hivd j idx (ix2 r q)).1 hj).2
    funext a
    match a with
    | ⟨0, _⟩ => rfl
    | ⟨1, _⟩ => exact Fin.ext h1.symm
  refine Finset.sum_bij' (fun j _ => (j 0 : Fin n)) (fun p _ => ix2 p q) ?_ ?_ ?_ ?_ ?_
  · intro j hj
    exact Finset.mem_filter.2 ⟨Finset.mem_univ _,
      ((resultIdx?_rows d huw hiw hsd hivd j idx (ix2 r q)).1 (Finset.mem_filter.1 hj).2).1⟩
  · intro p hp
    exact Finset.mem_filter.2 ⟨Finset.mem_univ _,
      (resultIdx?_rows d huw hiw hsd hivd (ix2 p q) idx (ix2 r q)).2 ⟨(Finset.mem_filter.1 hp).2, rfl⟩⟩
  · intro j hj; exact hback j (Finset.mem_filter.1 hj).2
  · intro p _; rfl
  · intro j hj; exact congrArg upd (hback j (Finset.mem_filter.1 hj).2).symm

end RowsSum

end Cert.LibScatterAddRows
-- ==== Proof.Ref.Sums.lean ====
/-
  The reference's sums. It scatters every token's vector (zero for a token whose id is negative) into the row of
  its flat segment, adding; under the admitted range of ids the row of segment `2048 * b + w` then holds the sum of
  the vectors of the tokens of sample `b` whose id is `w`.

  The entry (2048 b + w, h) of the scatter is zero plus the sum, over the flat rows p whose signed start index is
  2048 b + w, of the update's entry (p, h). Row p = 4096 b' + s has start index max(id, 0) + 2048 b' with id = ids[b', s];
  as id < 2048, this is a number in [2048 b', 2048 b' + 2048) and nothing wraps, so it is 2048 b + w exactly when
  b' = b and max(id, 0) = w. The update's entry there is hid[b', s, h] when id is not negative and zero otherwise. So a
  row of another sample contributes nothing, a row of sample b with a non-negative id contributes hid[b, s, h] exactly
  when id = w, and a row with a negative id contributes zero whatever its segment, which is also what the word's
  indicator gives, a negative word being no word id. The sum over the 65536 flat rows is re-indexed as the double sum
  over (sample, token) and the samples other than b are dropped.
-/
import proofs.«407863_j88433376624823_3_alg».proof.Proof.Ref.Imports
import proofs.«407863_j88433376624823_3_alg».proof.Proof.Spec
import proofs.«407863_j88433376624823_3_alg».proof.Proof.Ref.Seg
import proofs.«407863_j88433376624823_3_alg».proof.Proof.LibScatterAddRows
import Idealize.ShloMosaic.PureOps.Ideal.Laws

noncomputable section

namespace Cert.ReferenceIdeal.Hand

open Cert.ReferenceIdeal Cert.ReferenceIdeal.Gen Cert.ReferenceIdeal.Read Cert.SegMean
open Idealize.ShloMosaic Idealize.ShloMosaic.ValueIdx
open Idealize.ShloMosaic.StableHlo.Predicate (ixP)

/-! ## The flat rows, and the operands of the scatter read at a row -/

/-- The flat row of token `s` of sample `b'`. -/
private def rowOf (b' : Fin 16) (s : Fin 4096) : Fin 65536 :=
  ⟨4096 * b'.val + s.val, by have := b'.2; have := s.2; omega⟩

/-- Row 4096 b' + s of the flattened ids is entry (b', s). -/
private theorem idx9_row (b' : Fin 16) (s : Fin 4096) :
    idx_main_v9 (idx_main_v14 (ixP (rowOf b' s))) = ix2 b' s := by
  have hb := b'.2; have hs := s.2
  funext a
  match a with
  | ⟨0, _⟩ => apply Fin.ext; show (4096 * b'.val + s.val) / 4096 = b'.val; omega
  | ⟨1, _⟩ => apply Fin.ext; show (4096 * b'.val + s.val) % 4096 = s.val; omega

/-- Entry (row 4096 b' + s, h) of the flattened vectors is entry (b', s, h). -/
private theorem idx12_row (b' : Fin 16) (s : Fin 4096) (h : Fin 768) :
    idx_main_v12 (ix2 (rowOf b' s) h) = ix3 b' s h := by
  have hb := b'.2; have hs := s.2; have hh := h.2
  funext a
  match a with
  | ⟨0, _⟩ => apply Fin.ext; show ((4096 * b'.val + s.val) * 768 + h.val) / 3145728 = b'.val; omega
  | ⟨1, _⟩ => apply Fin.ext; show ((4096 * b'.val + s.val) * 768 + h.val) / 768 % 4096 = s.val; omega
  | ⟨2, _⟩ => apply Fin.ext; show ((4096 * b'.val + s.val) * 768 + h.val) % 768 = h.val; omega

/-- The sign test of a token, laid along the features, is read at the token. -/
private theorem idx10_ix3 (b' : Fin 16) (s : Fin 4096) (h : Fin 768) :
    idx_main_v10 (idx_main_call1_v1 (ix3 b' s h)) = ix2 b' s := by
  funext a
  match a with
  | ⟨0, _⟩ => rfl
  | ⟨1, _⟩ => rfl

/-- The start index of row (b', s): the id if it is not negative, else zero, plus 2048 b', as 32-bit words. -/
private theorem v14_row (ids : IVec SIds 32) (b' : Fin 16) (s : Fin 4096) :
    val_main_v14 (F := Ideal) ids (ixP (rowOf b' s))
      = IntOp.addi (Scalar.select (IntOp.cmpi .sge (ids (ix2 b' s)) 0#32) (ids (ix2 b' s)) 0#32)
          (IntOp.muli (BitVec.ofNat 32 b'.val) 2048#32) := by
  rw [val_main_v14_apply, val_main_v9_apply, val_main_v8_apply, val_main_v2_apply, val_main_v1_apply,
    val_main_v0_apply, val_main_c_apply, val_main_call0_v1_apply, val_main_call0_v0_apply, val_main_c_0_apply,
    val_main_v7_apply, val_main_v6_apply, val_main_v4_apply, val_main_v3_apply, val_main_v5_apply, val_main_c_1_apply,
    idx9_row]

/-- The update's entry (row (b', s), h): the token's vector entry if its id is not negative, else zero. -/
private theorem v12_row (hid : FVec Ideal SHid .f32) (ids : IVec SIds 32) (b' : Fin 16) (s : Fin 4096) (h : Fin 768) :
    val_main_v12 (F := Ideal) hid ids (ix2 (rowOf b' s) h)
      = Scalar.select (IntOp.cmpi .sge (ids (ix2 b' s)) 0#32) (hid (ix3 b' s h)) 0 := by
  rw [val_main_v12_apply, val_main_v11_apply, val_main_call1_v1_apply, val_main_v10_apply, val_main_v1_apply,
    val_main_v0_apply, val_main_c_apply, val_main_call1_v2_apply, val_main_call1_v0_apply, val_main_cst_apply,
    idx12_row, idx10_ix3, Ideal.ofBits_def, Ideal.ofBits_zero_f32]

/-- The scattered-into array is zero everywhere. -/
private theorem v13_zero (r : Fin 32768) (q : Fin 768) : val_main_v13 (F := Ideal) (ix2 r q) = 0 := by
  rw [val_main_v13_apply, val_main_cst_2_apply, Ideal.ofBits_def, Ideal.ofBits_zero_f32]

/-! ## The start index as a number -/

/-- A word that is non-negative and below 2048 as a signed word is below 2048 as a number. -/
private theorem toNat_lt_of_signed (x : BitVec 32) (h0 : (0#32).sle x = true) (hx : x.slt 2048#32 = true) :
    x.toNat < 2048 := by
  have h0' : (0 : ℤ) ≤ x.toInt := by simpa [BitVec.sle] using h0
  have hx' : x.toInt < 2048 := by simpa [BitVec.slt] using hx
  rw [BitVec.toInt_eq_toNat_cond] at h0' hx'
  have := x.isLt
  split at h0' <;> omega

/-- For a non-negative id below 2048, the start index 2048 b' + id (which does not wrap) is the flat segment
    2048 b + w exactly when the sample is b and the id is the word w. -/
private theorem startA (x : BitVec 32) (h0 : (0#32).sle x = true) (hx : x.slt 2048#32 = true) (b' b : Fin 16)
    (w : Fin 2048) :
    (IntOp.addi x (IntOp.muli (BitVec.ofNat 32 b'.val) 2048#32)).toInt = ((2048 * b.val + w.val : ℕ) : ℤ)
      ↔ b' = b ∧ x = BitVec.ofNat 32 w.val := by
  show (x + BitVec.ofNat 32 b'.val * 2048#32).toInt = _ ↔ _
  have hxn := toNat_lt_of_signed x h0 hx
  have hb' := b'.2; have hb := b.2; have hw := w.2
  have hn : (x + BitVec.ofNat 32 b'.val * 2048#32).toNat = x.toNat + 2048 * b'.val := by
    simp only [BitVec.toNat_add, BitVec.toNat_mul, BitVec.toNat_ofNat]
    omega
  rw [Idealize.ShloMosaic.StableHlo.Predicate.toInt_eq_toNat_of_lt (by rw [hn]; omega), hn]
  constructor
  · intro h
    have h' : x.toNat + 2048 * b'.val = 2048 * b.val + w.val := by exact_mod_cast h
    refine ⟨Fin.ext (by omega), BitVec.eq_of_toNat_eq ?_⟩
    rw [BitVec.toNat_ofNat]; omega
  · rintro ⟨rfl, rfl⟩
    rw [BitVec.toNat_ofNat]
    have : w.val % 2 ^ 32 = w.val := Nat.mod_eq_of_lt (by omega)
    rw [this]; push_cast; ring

/-- A word id is not negative. -/
private theorem zero_sle_wordId (w : Fin 2048) : (0#32).sle (wordId w) = true := by
  have hw := w.2
  simp only [BitVec.sle, Idealize.ShloMosaic.StableHlo.Predicate.toInt_ofNat_small w.val (by omega), decide_eq_true_eq]
  simp

/-- The sign test's bit is one on a non-negative word … -/
private theorem sge_zero_of_sle {x : BitVec 32} (h0 : (0#32).sle x = true) : IntOp.cmpi .sge x 0#32 = 1#1 := by
  simp [IntOp.cmpi, h0]

/-- … and zero on a negative one. -/
private theorem sge_zero_of_not_sle {x : BitVec 32} (h0 : (0#32).sle x = false) : IntOp.cmpi .sge x 0#32 = 0#1 := by
  simp [IntOp.cmpi, h0]

/-! ## One row's contribution, and the sum over the rows -/

/-- One row's contribution to the entry of segment 2048 b + w: nothing unless the row is of sample b, and then the
    token's vector entry if its id is the word w, nothing otherwise (a negative id contributes a zero vector to
    segment 2048 b, and is not the word 0). -/
private theorem term_eq (hid : FVec Ideal SHid .f32) (ids : IVec SIds 32) (hlt : IdsBelow ids) (b : Fin 16)
    (w : Fin 2048) (h : Fin 768) (b' : Fin 16) (s : Fin 4096) :
    (if (val_main_v14 (F := Ideal) ids (ixP (rowOf b' s))).toInt = ((segIx b w).val : ℤ)
      then val_main_v12 (F := Ideal) hid ids (ix2 (rowOf b' s) h) else 0)
    = if b' = b then hot ids b w s * hid (ix3 b s h) else 0 := by
  rw [v14_row, v12_row, segIx_val]
  have hx : (ids (ix2 b' s)).slt 2048#32 = true := hlt (ix2 b' s)
  by_cases hbb : b' = b
  · subst hbb
    rw [if_pos rfl]
    unfold hot
    generalize ids (ix2 b' s) = x at hx ⊢
    cases h0 : (0#32).sle x
    · rw [sge_zero_of_not_sle h0, select_zero, select_zero]
      have hne : ¬ x = wordId w := by
        intro e; rw [e, zero_sle_wordId] at h0; exact Bool.noConfusion h0
      rw [if_neg hne, zero_mul, ite_self]
    · rw [sge_zero_of_sle h0, select_one, select_one]
      have key := startA x h0 hx b' b' w
      by_cases hxw : x = wordId w
      · rw [if_pos (key.2 ⟨rfl, hxw⟩), if_pos hxw, one_mul]
      · rw [if_neg (fun e => hxw (key.1 e).2), if_neg hxw, zero_mul]
  · rw [if_neg hbb]
    generalize ids (ix2 b' s) = x at hx ⊢
    cases h0 : (0#32).sle x
    · rw [sge_zero_of_not_sle h0, select_zero, select_zero, ite_self]
    · rw [sge_zero_of_sle h0, select_one, select_one]
      exact if_neg (fun e => hbb ((startA x h0 hx b' b w).1 e).1)

/-- The flat rows are the pairs (sample, token). -/
private def rowEquiv : Fin 16 × Fin 4096 ≃ Fin 65536 where
  toFun q := rowOf q.1 q.2
  invFun p := (⟨p.val / 4096, by have := p.2; omega⟩, ⟨p.val % 4096, by omega⟩)
  left_inv q := by
    have h1 := q.1.2; have h2 := q.2.2
    apply Prod.ext <;> apply Fin.ext
    · show (4096 * q.1.val + q.2.val) / 4096 = q.1.val; omega
    · show (4096 * q.1.val + q.2.val) % 4096 = q.2.val; omega
  right_inv p := by
    apply Fin.ext
    show 4096 * (p.val / 4096) + p.val % 4096 = p.val; omega

private theorem rowEquiv_apply (b' : Fin 16) (s : Fin 4096) : rowEquiv (b', s) = rowOf b' s := rfl

theorem sums_apply (hid : FVec Ideal SHid .f32) (ids : IVec SIds 32) (hlt : IdsBelow ids) (b : Fin 16) (w : Fin 2048) (h : Fin 768) :
    val_main_v15 (F := Ideal) hid ids (ix2 (segIx b w) h) = wordSum hid ids b w h := by
  unfold val_main_v15
  rw [Cert.LibScatterAddRows.scatterAdd_rows scatter_S32768x768_S65536x1_S65536x768_1_0_0_1 rfl rfl rfl rfl,
    v13_zero, zero_add, Finset.sum_filter]
  refine (Equiv.sum_comp rowEquiv _).symm.trans ?_
  rw [Fintype.sum_prod_type, Finset.sum_eq_single b]
  · unfold wordSum
    refine Finset.sum_congr rfl (fun s _ => ?_)
    have key := term_eq hid ids hlt b w h b s
    rw [if_pos rfl] at key
    rw [rowEquiv_apply]
    exact key
  · intro b' _ hne
    refine Finset.sum_eq_zero (fun s _ => ?_)
    have key := term_eq hid ids hlt b w h b' s
    rw [if_neg hne] at key
    rw [rowEquiv_apply]
    exact key
  · intro hb; exact absurd (Finset.mem_univ b) hb

end Cert.ReferenceIdeal.Hand

end
-- ==== Proof.Ref.Counts.lean ====
/-
  The reference's counts. It scatters a one for every token whose id is not negative (a zero otherwise) into the
  entry of its flat segment, adding; under the admitted range of ids the entry of segment `2048 * b + w` then holds
  the number of tokens of sample `b` whose id is `w`.
-/
import proofs.«407863_j88433376624823_3_alg».proof.Proof.Ref.Imports
import proofs.«407863_j88433376624823_3_alg».proof.Proof.Spec
import proofs.«407863_j88433376624823_3_alg».proof.Proof.Ref.Seg
import proofs.«407863_j88433376624823_3_alg».proof.Proof.LibScatterAddRows

noncomputable section

namespace Cert.ReferenceIdeal.Hand

open Cert.ReferenceIdeal Cert.ReferenceIdeal.Gen Cert.ReferenceIdeal.Read Cert.SegMean
open Idealize.ShloMosaic Idealize.ShloMosaic.ValueIdx
open Idealize.ShloMosaic.StableHlo.Predicate (ixP toInt_eq_toNat_of_lt)
open Cert.LibScatterAddRows (scatterAdd_vec)

/-- Words: when does a row's start index name segment `2048 * b + w`, and what does the row add there. The id `x`
    is below 2048 as a signed word; the row belongs to sample `a`. If `x` is not negative the start index is
    `x + 2048 * a` with no wrap, which is `2048 * b + w` exactly when `a = b` and `x = w`, and the row adds one.
    If `x` is negative the row adds zero wherever it lands, and `x` is no word id. -/
private theorem word_term (x : BitVec 32) (hx : x.slt 2048#32 = true) (a b : Fin 16) (w : Fin 2048) :
    (if (IntOp.addi (Scalar.select (IntOp.cmpi .sge x 0#32) x 0#32) (IntOp.muli (BitVec.ofNat 32 a.val) 2048#32)).toInt
          = ((2048 * b.val + w.val : ℕ) : ℤ)
      then (((IntOp.cmpi .sge x 0#32).toNat : ℝ) : EReal) else 0)
      = if a = b then (if x = BitVec.ofNat 32 w.val then 1 else 0) else 0 := by
  have ha := a.2; have hb := b.2; have hw := w.2
  unfold IntOp.addi IntOp.muli IntOp.cmpi Scalar.select
  simp only
  have hx' : x.toInt < 2048 := by
    have := hx; simp only [BitVec.slt, decide_eq_true_eq] at this; simpa using this
  have hti := BitVec.toInt_eq_toNat_cond x
  have hxn := x.isLt
  by_cases h0 : (0#32).sle x = true
  · rw [h0]
    have h0i : 0 ≤ x.toInt := by
      have := h0; simp only [BitVec.sle, decide_eq_true_eq] at this; simpa using this
    have hn : x.toNat < 2048 := by omega
    have hsel : (if BitVec.ofBool true = 1 then x else 0#32) = x := if_pos rfl
    have hsum : (x + BitVec.ofNat 32 a.val * 2048#32).toNat = x.toNat + 2048 * a.val := by
      rw [BitVec.toNat_add, BitVec.toNat_mul, BitVec.toNat_ofNat, BitVec.toNat_ofNat]; omega
    have hs : (x + BitVec.ofNat 32 a.val * 2048#32).toInt = ((x.toNat + 2048 * a.val : ℕ) : ℤ) := by
      rw [toInt_eq_toNat_of_lt (by omega), hsum]
    have hiff : ((x.toNat + 2048 * a.val : ℕ) : ℤ) = ((2048 * b.val + w.val : ℕ) : ℤ)
        ↔ (a = b ∧ x = BitVec.ofNat 32 w.val) := by
      constructor
      · intro h
        have h' : x.toNat + 2048 * a.val = 2048 * b.val + w.val := by exact_mod_cast h
        refine ⟨Fin.ext (by omega), BitVec.eq_of_toNat_eq ?_⟩
        rw [BitVec.toNat_ofNat]; omega
      · rintro ⟨rfl, rfl⟩
        rw [BitVec.toNat_ofNat]
        have : w.val % 2 ^ 32 = w.val := Nat.mod_eq_of_lt (by omega)
        rw [this]; push_cast; omega
    have h1 : (((BitVec.ofBool true).toNat : ℝ) : EReal) = 1 := by simp
    rw [hsel, hs, if_congr hiff rfl rfl, h1, ite_and]
  · have h0' : (0#32).sle x = false := by simpa using h0
    rw [h0']
    have h0i : x.toInt < 0 := by
      have := h0; simp only [BitVec.sle, decide_eq_true_eq] at this; simpa using this
    have hz : (((BitVec.ofBool false).toNat : ℝ) : EReal) = 0 := by simp
    have hne : ¬ x = BitVec.ofNat 32 w.val := by
      intro h
      have : x.toNat = w.val := by rw [h, BitVec.toNat_ofNat]; exact Nat.mod_eq_of_lt (by omega)
      omega
    rw [hz, if_neg hne]
    simp only [ite_self]

/-- The flat token range: row `4096 * a + s` is token `s` of sample `a`. -/
private def rowEquiv : Fin 16 × Fin 4096 ≃ Fin 65536 where
  toFun q := ⟨4096 * q.1.val + q.2.val, by have := q.1.2; have := q.2.2; omega⟩
  invFun p := (⟨p.val / 4096, by have := p.2; omega⟩, ⟨p.val % 4096, Nat.mod_lt _ (by decide)⟩)
  left_inv q := by
    have := q.1.2; have := q.2.2
    refine Prod.ext (Fin.ext ?_) (Fin.ext ?_)
    · show (4096 * q.1.val + q.2.val) / 4096 = q.1.val; omega
    · show (4096 * q.1.val + q.2.val) % 4096 = q.2.val; omega
  right_inv p := by
    refine Fin.ext ?_
    show 4096 * (p.val / 4096) + p.val % 4096 = p.val; omega

/-- The start index of row `4096 * a + s`: the id of token `s` of sample `a`, replaced by zero if negative, plus
    `2048 * a`, in 32-bit words. -/
private theorem start_read (ids : IVec SIds 32) (a : Fin 16) (s : Fin 4096) :
    val_main_v19 (F := Ideal) ids (ixP (rowEquiv (a, s)))
      = IntOp.addi (Scalar.select (IntOp.cmpi .sge (ids (ix2 a s)) 0#32) (ids (ix2 a s)) 0#32)
          (IntOp.muli (BitVec.ofNat 32 a.val) 2048#32) := by
  have ha := a.2; have hs := s.2
  have hidx : idx_main_v9 (idx_main_v19 (ixP (rowEquiv (a, s)))) = ix2 a s := by
    funext d
    match d with
    | ⟨0, _⟩ => exact Fin.ext (by show (4096 * a.val + s.val) / 4096 = a.val; omega)
    | ⟨1, _⟩ => exact Fin.ext (by show (4096 * a.val + s.val) % 4096 = s.val; omega)
  rw [val_main_v19_apply, val_main_v9_apply, hidx, val_main_v8_apply, val_main_v2_apply, val_main_v1_apply,
    val_main_v0_apply, val_main_c_apply, val_main_call0_v1_apply, val_main_call0_v0_apply, val_main_c_0_apply,
    val_main_v7_apply, val_main_v6_apply, val_main_v4_apply, val_main_v3_apply, val_main_v5_apply, val_main_c_1_apply]

/-- What row `4096 * a + s` adds: one if the id of token `s` of sample `a` is not negative, zero otherwise. -/
private theorem update_read (ids : IVec SIds 32) (a : Fin 16) (s : Fin 4096) :
    val_main_v17 (F := Ideal) ids (ix1 (rowEquiv (a, s)))
      = (((IntOp.cmpi .sge (ids (ix2 a s)) 0#32).toNat : ℝ) : EReal) := by
  have ha := a.2; have hs := s.2
  have hidx : idx_main_v16 (ix1 (rowEquiv (a, s))) = ix2 a s := by
    funext d
    match d with
    | ⟨0, _⟩ => exact Fin.ext (by show (4096 * a.val + s.val) / 4096 = a.val; omega)
    | ⟨1, _⟩ => exact Fin.ext (by show (4096 * a.val + s.val) % 4096 = s.val; omega)
  rw [val_main_v17_apply, val_main_v16_apply, hidx, val_main_v1_apply, val_main_v0_apply, val_main_c_apply]
  rfl

/-- The scattered-into vector is zero. -/
private theorem zero_read (r : Fin 32768) : val_main_v18 (F := Ideal) (ix1 r) = 0 := by
  rw [val_main_v18_apply, val_main_cst_3_apply]
  simp [Ideal.ofBits, Ideal.ieee]

theorem counts_apply (ids : IVec SIds 32) (hlt : IdsBelow ids) (b : Fin 16) (w : Fin 2048) :
    val_main_v20 (F := Ideal) ids (ix1 (segIx b w)) = wordCount ids b w := by
  unfold val_main_v20
  rw [scatterAdd_vec _ rfl rfl rfl rfl]
  rw [zero_read, zero_add, Finset.sum_filter, ← Equiv.sum_comp rowEquiv, Fintype.sum_prod_type]
  have hterm : ∀ (a : Fin 16) (s : Fin 4096),
      (if BitVec.toInt (val_main_v19 (F := Ideal) ids (ixP (rowEquiv (a, s)))) = ((segIx b w).val : ℤ) then
          val_main_v17 (F := Ideal) ids (ix1 (rowEquiv (a, s))) else 0)
        = if a = b then hot ids b w s else 0 := by
    intro a s
    rw [start_read, update_read, segIx_val, word_term _ (hlt (ix2 a s)) a b w]
    by_cases hab : a = b
    · subst hab; rw [if_pos rfl, if_pos rfl]; rfl
    · rw [if_neg hab, if_neg hab]
  simp only [hterm]
  rw [Finset.sum_comm]
  unfold wordCount
  refine Finset.sum_congr rfl (fun s _ => ?_)
  rw [Finset.sum_ite_eq' Finset.univ b (fun _ => hot ids b w s), if_pos (Finset.mem_univ _)]

end Cert.ReferenceIdeal.Hand

end
-- ==== Proof.Ref.Value.lean ====
/-
  The reference computes the word means: its sums and counts, re-laid as [sample, word(, feature)], divided entry
  by entry with the count raised to at least one.
-/
import proofs.«407863_j88433376624823_3_alg».proof.Proof.Ref.Sums
import proofs.«407863_j88433376624823_3_alg».proof.Proof.Ref.Counts
import Idealize.ShloMosaic.Lib.StableHlo.Run
import Idealize.ShloMosaic.Lib.IdealHost

noncomputable section

namespace Cert.ReferenceIdeal.Hand

open Cert.ReferenceIdeal Cert.ReferenceIdeal.Gen Cert.ReferenceIdeal.Read Cert.SegMean
open Idealize.ShloMosaic Idealize.ShloMosaic.ValueIdx
open Idealize.SL.Sem

/-- Entry `[b, w, h]` of the sums re-laid as `[sample, word, feature]` is entry `[2048 * b + w, h]` of the flat sums:
    row-major, `((2048 * b + w) * 768 + h) / 768 = 2048 * b + w` and the remainder is `h`, as `h < 768`. -/
theorem idx_sums (b : Fin 16) (w : Fin 2048) (h : Fin 768) :
    idx_main_v21 (ix3 b w h) = ix2 (segIx b w) h := by
  funext a
  match a with
  | ⟨0, _⟩ =>
    refine Fin.ext ?_
    show ((b.val * 2048 + w.val) * 768 + h.val) / 768 = 2048 * b.val + w.val
    have := h.isLt
    omega
  | ⟨1, _⟩ =>
    refine Fin.ext ?_
    show ((b.val * 2048 + w.val) * 768 + h.val) % 768 = h.val
    have := h.isLt
    omega

/-- The divisor at `[b, w, h]` is the raised count at `[b, w]`: the two broadcasts only add the feature axis. -/
theorem idx_bcast (b : Fin 16) (w : Fin 2048) (h : Fin 768) :
    idx_main_v25 (idx_main_v26 (ix3 b w h)) = ix2 b w := by
  funext a
  match a with
  | ⟨0, _⟩ => rfl
  | ⟨1, _⟩ => rfl

/-- Entry `[b, w]` of the counts re-laid as `[sample, word]` is entry `2048 * b + w` of the flat counts. -/
theorem idx_counts (b : Fin 16) (w : Fin 2048) :
    idx_main_v22 (ix2 b w) = ix1 (segIx b w) := by
  funext a
  match a with
  | ⟨0, _⟩ =>
    refine Fin.ext ?_
    show b.val * 2048 + w.val = 2048 * b.val + w.val
    omega

/-- The reference's result, as a function of its two arguments, is the word means. -/
theorem result_eq (hid : FVec Ideal SHid .f32) (ids : IVec SIds 32) (hlt : IdsBelow ids) :
    val_main_v27 (F := Ideal) hid ids = segMean hid ids := by
  funext j
  obtain ⟨b, w, h, rfl⟩ : ∃ (b : Fin 16) (w : Fin 2048) (h : Fin 768), j = ix3 b w h :=
    ⟨j 0, j 1, j 2, eq_ix3 j⟩
  -- the quotient of the re-laid sum by the re-laid count raised to at least the constant one
  rw [val_main_v27_apply, val_main_v21_apply, val_main_v26_apply, val_main_v25_apply, val_main_v24_apply,
    val_main_v22_apply, val_main_v23_apply, val_main_cst_4_apply, idx_bcast, idx_counts, idx_sums,
    sums_apply hid ids hlt, counts_apply ids hlt, segMean_apply, segMeanAt,
    Ideal.hostDivf_def, Ideal.maximumf_def, Ideal.ofBits_def, Ideal.ofBits_one_f32]

/-- The reference's run: it terminates with the word means of its arguments, which it leaves unchanged. -/
theorem run_segMean (m : (ℓ : Loc nD τ sig) → Buf (Elt Ideal) ℓ) (ρ : Dev nD → PrngReg)
    (hlt : ∀ c : Dev nD, IdsBelow (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v27) = segMean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun _ hr c => ⟨(hr c).1.trans ?_, (hr c).2⟩)
    (Cert.ReferenceIdeal.Value.run (F := Ideal) m ρ)
  exact (val_main_v27_eq (F := Ideal) _ _).trans (result_eq _ _ (hlt c))

end Cert.ReferenceIdeal.Hand

end
-- ==== Proof.PreIds.lean ====
/-
  The precondition's second conjunct, decoded: where the printed predicate is all ones, every word id is below
  2048 as a signed word.
-/
import Idealize.ShloMosaic.Lib.ReduceAll
import Idealize.ShloMosaic.Lib.StableHlo.Predicate
import proofs.«407863_j88433376624823_3_alg».proof.Pre_finite_inputs
import proofs.«407863_j88433376624823_3_alg».proof.Proof.Gen.Pre_finite_inputs
import proofs.«407863_j88433376624823_3_alg».proof.Proof.Spec

noncomputable section

namespace Cert.PreIds

open Cert.SegMean Idealize.ShloMosaic Idealize.ShloMosaic.ValueIdx

/-- The rank-0 shape has exactly one index: an index is a function out of the empty set of axes. -/
instance subsingleton_scalar_idx : Subsingleton Cert.Pre_finite_inputs.S_.Idx :=
  ⟨fun a b => funext fun d => d.elim0⟩

/-- The predicate is a conjunction of two all-reductions, each over every axis of its operand. Its second
    conjunct reduces, by `and` from 1, the elementwise signed comparison of the ids against the scalar 2048 laid out
    over the whole [16, 4096] array. A reduction by `and` that comes out 1 met a 1 at every element, and the
    element at index j is the comparison of ids j with 2048. The first conjunct, on the floats, is not opened. -/
theorem idsBelow_of_pre {F : FTy → Type} [FloatOps F] [Cert.Pre_finite_inputs.Facts]
    (x : FVec F SHid .f32) (ids : IVec SIds 32)
    (h : Cert.Pre_finite_inputs.fn (F := F) x ids = fun _ => 1#1) : IdsBelow ids := by
  intro j
  have h0 := congrFun h ValueIdx.ix0
  dsimp only [Cert.Pre_finite_inputs.fn] at h0
  -- the conjunction at the one index of the result: keep its second half
  have h1 := (IntOp.andi_eq_one.1 h0).2
  -- the all-reduction is 1, so its operand is 1 at j
  have h2 := Host.reduce_andi_all _ _ _ _ _ h1 j
  -- the operand at j compares ids j with the broadcast scalar, which reads 2048 everywhere
  unfold cmpi at h2
  rw [StableHlo.Predicate.bcast_scalar _ Cert.Pre_finite_inputs.Facts.h_S_] at h2
  unfold constantI IntOp.cmpi at h2
  exact (StableHlo.Predicate.ofBool_eq_one_iff _).1 h2

end Cert.PreIds

end
-- ==== Proof.lean ====
/-
  The certificate: a Pallas kernel for the mean of the token embeddings of each word, against its reference.

  Per sample `b`, word `w < 2048` and feature `h`, both programs compute the sum of `hid[b, s, h]` over the tokens
  `s` whose word id is `w`, divided by the larger of the number of such tokens and one (`Cert.SegMean.segMean`).
  The kernel walks the sample's 4096 tokens in eight chunks of 512, skipping a chunk when a precomputed pair of
  bounds on the chunk's ids shows that none of them can be one of the tile's 256 words; a skipped chunk would have
  added zero. The reference adds every token's vector (zero for a negative id) into the row of the flat segment
  `where(id ≥ 0, id, 0) + 2048 b`; under the precondition that every id is below 2048 that row is the word's sum
  for sample `b` and no token of another sample reaches it. The equality is one of sums of extended reals re-grouped,
  with 0 · x = 0 and 1 · x = x; finiteness of the embeddings is not used.

  The three frames: each program runs to the end without a fault and leaves its two arguments as launched. The
  kernel's two frames come from the pipeline library's frame run with prefetched tables over the body's run
  (the word-level program and its idealization have the same memory operations); the reference's frame is its
  run with the result dropped. The idealization replaced eight narrowings to bf16 followed by a widening (of the
  one-hot, whose entries 0 and 1 are bf16 values) by the identity: the eight statements of `preserves`.
-/
import proofs.«407863_j88433376624823_3_alg».proof.Defs
import proofs.«407863_j88433376624823_3_alg».proof.Proof.Gen.Kernel
import proofs.«407863_j88433376624823_3_alg».proof.Proof.Gen.KernelIdeal
import proofs.«407863_j88433376624823_3_alg».proof.Proof.Gen.ReferenceIdeal
import proofs.«407863_j88433376624823_3_alg».proof.Proof.Gen.Pre_finite_inputs
import proofs.«407863_j88433376624823_3_alg».proof.Proof.K.Frame
import proofs.«407863_j88433376624823_3_alg».proof.Proof.KI.Value
import proofs.«407863_j88433376624823_3_alg».proof.Proof.Ref.Value
import proofs.«407863_j88433376624823_3_alg».proof.Proof.PreIds

noncomputable section

namespace Cert.Proof

open Idealize.ShloMosaic Idealize.SL.Sem Cert.SegMean

/-- The idealization's eight rewrites, each the rule's statement at the one-hot's shape. -/
theorem preserves : Cert.preserves_Kernel_KernelIdeal :=
  ⟨IdealRules.truncf_extf.statement Cert.KernelIdeal.S256x512 .f32 .bf16,
   IdealRules.truncf_extf.statement Cert.KernelIdeal.S256x512 .f32 .bf16,
   IdealRules.truncf_extf.statement Cert.KernelIdeal.S256x512 .f32 .bf16,
   IdealRules.truncf_extf.statement Cert.KernelIdeal.S256x512 .f32 .bf16,
   IdealRules.truncf_extf.statement Cert.KernelIdeal.S256x512 .f32 .bf16,
   IdealRules.truncf_extf.statement Cert.KernelIdeal.S256x512 .f32 .bf16,
   IdealRules.truncf_extf.statement Cert.KernelIdeal.S256x512 .f32 .bf16,
   IdealRules.truncf_extf.statement Cert.KernelIdeal.S256x512 .f32 .bf16⟩

theorem claim : Cert.Claim := ⟨Cert.Kernel.Gen.facts, Cert.KernelIdeal.Gen.facts, Cert.ReferenceIdeal.Gen.facts, Cert.Pre_finite_inputs.Gen.facts,
  -- the word-level kernel runs and leaves its arguments
  fun m ρ _ => Cert.Kernel.Hand.frame m ρ,
  -- so does its idealization
  fun m ρ _ => Cert.KernelIdeal.Hand.frame m ρ,
  -- the reference's frame is its run with the result dropped
  fun m ρ _ => (θ_run Cert.ReferenceIdeal.defs _ _).mono (fun _ h c => (h c).2) (Cert.ReferenceIdeal.Value.run (F := Ideal) m ρ),
  preserves,
  -- both idealized programs end at the word means of the (agreeing) arguments; the precondition's bound on the
  -- ids is what the reference's flat segments need
  fun m ρ m' ρ' hpre hagree =>
    ⟨fun c => segMean (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Hand.run_segMean m ρ,
      (θ_run Cert.ReferenceIdeal.defs _ _).mono
        (fun _ h c => ⟨by rw [(h c).1, (hagree c).1, (hagree c).2], (h c).2⟩)
        (Cert.ReferenceIdeal.Hand.run_segMean m' ρ' fun c => by
          rw [(hagree c).2]; exact Cert.PreIds.idsBelow_of_pre _ _ (hpre c))⟩⟩

end Cert.Proof

end
